-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S512x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S395x512 : Shape := ⟨2, ![395, 512]⟩
abbrev S4096 : Shape := ⟨1, ![4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S395x512 : S_.BroadcastsInDim S395x512 (![] : Fin 0 → Fin S395x512.rank)
  reducesTo_S395x512_S_d0_1 : S395x512.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg3 : IVec S4096 32) (main_v13 : IVec S_ 1) (main_v15 : IVec S4096 1) (main_c_5 : IVec S_ 32) : IVec S_ 1 :=
  let main_v16 : IVec S4096 32 := broadcastInDim S4096 ![] bcast_S_S4096 main_c_5
  let main_v17 : IVec S4096 1 := cmpi .slt main_arg3 main_v16
  let main_v18 : IVec S4096 1 := andi main_v15 main_v17
  let main_c_6 : IVec S_ 1 := constantI S_ 1 1#1
  let main_v19 : IVec S_ 1 := (fun x v => Host.reduce IntOp.andi x v reducesTo_S4096_S_d0 h_S_) main_v18 main_c_6
  let main_v20 : IVec S_ 1 := andi main_v13 main_v19
  main_v20

def fn {F : FTy → Type} [FloatOps F] (main_arg0 : FVec F S4096x512 .f32) (main_arg1 : FVec F S4096x512 .f32) (main_arg2 : FVec F S395x512 .f32) (main_arg3 : IVec S4096 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S395x512 .f32 := Host.absf main_arg2
  let main_cst_2 : FVec F S_ .f32 := constant S_ .f32 0x7F800000#32
  let main_v10 : FVec F S395x512 .f32 := broadcastInDim S395x512 ![] bcast_S_S395x512 main_cst_2
  let main_v11 : IVec S395x512 1 := cmpf .olt main_v9 main_v10
  let main_c_3 : IVec S_ 1 := constantI S_ 1 1#1
  let main_v12 : IVec S_ 1 := (fun x v => Host.reduce IntOp.andi x v reducesTo_S395x512_S_d0_1 h_S_) main_v11 main_c_3
  let main_v13 : IVec S_ 1 := andi main_v8 main_v12
  let main_c_4 : IVec S_ 32 := constantI S_ 32 0#32
  let main_v14 : IVec S4096 32 := broadcastInDim S4096 ![] bcast_S_S4096 main_c_4
  let main_v15 : IVec S4096 1 := cmpi .sge main_arg3 main_v14
  let main_c_5 : IVec S_ 32 := constantI S_ 32 395#32
  fn_part1 (F := F) main_arg3 main_v13 main_v15 main_c_5
-- ==== Kernel.lean ====
abbrev S4096x512 : Shape := ⟨2, ![4096, 512]⟩
abbrev S395x512 : Shape := ⟨2, ![395, 512]⟩
abbrev S4096 : Shape := ⟨1, ![4096]⟩
abbrev S4096x1 : Shape := ⟨2, ![4096, 1]⟩
abbrev S2x512x512 : Shape := ⟨3, ![2, 512, 512]⟩
abbrev S1x512 : Shape := ⟨2, ![1, 512]⟩
abbrev S512x1 : Shape := ⟨2, ![512, 1]⟩
abbrev S512x512 : Shape := ⟨2, ![512, 512]⟩
abbrev S1x512x512 : Shape := ⟨3, ![1, 512, 512]⟩
abbrev S512 : Shape := ⟨1, ![512]⟩
abbrev S_ : Shape := ⟨0, ![]⟩
abbrev S1x512x1 : Shape := ⟨3, ![1, 512, 1]⟩
abbrev S2x512 : Shape := ⟨2, ![2, 512]⟩
abbrev S2x512x1 : Shape := ⟨3, ![2, 512, 1]⟩
abbrev S2x1x1 : Shape := ⟨3, ![2, 1, 1]⟩
abbrev S1x1x1 : Shape := ⟨3, ![1, 1, 1]⟩
abbrev S1 : Shape := ⟨1, ![1]⟩
abbrev S1x1 : Shape := ⟨2, ![1, 1]⟩

abbrev nBuf : Space → Nat
  | .hbm => 35
  | .vmem => 18
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S395x512, .f32⟩
  | .hbm, ⟨3, _⟩ => ⟨S4096, .i32⟩
  | .hbm, ⟨4, _⟩ => ⟨S4096x1, .i32⟩
  | .hbm, ⟨5, _⟩ => ⟨S2x512x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x512x1, .f32⟩
  | .hbm, ⟨11, _⟩ => ⟨S2x512x512, .f32⟩
  | .hbm, ⟨12, _⟩ => ⟨S2x512x512, .f32⟩
  | .hbm, ⟨13, _⟩ => ⟨S_, .i32⟩
  | .hbm, ⟨14, _⟩ => ⟨S_, .f32⟩
  | .hbm, ⟨15, _⟩ => ⟨S512x512, .f32⟩
  | .hbm, ⟨16, _⟩ => ⟨S2x512x512, .f32⟩
  | .hbm, ⟨17, _⟩ => ⟨S_, .f32⟩
  | .hbm, ⟨18, _⟩ => ⟨S2x512, .f32⟩
  | .hbm, ⟨19, _⟩ => ⟨S2x512x1, .f32⟩
  | .hbm, ⟨20, _⟩ => ⟨S512x512, .f32⟩
  | .hbm, ⟨21, _⟩ => ⟨S_, .f32⟩
  | .hbm, ⟨22, _⟩ => ⟨S512, .f32⟩
  | .hbm, ⟨23, _⟩ => ⟨S1x512, .f32⟩
  | .hbm, ⟨24, _⟩ => ⟨S512x1, .f32⟩
  | .hbm, ⟨25, _⟩ => ⟨S2x1x1, .f32⟩
  | .hbm, ⟨26, _⟩ => ⟨S1x1x1, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1x1x1, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S512x1, .i32⟩
  | .local _ .vmem, ⟨1, _⟩ => ⟨S512x1, .i32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S2x512x512, .f32⟩
  | .local _ .vmem, ⟨7, _⟩ => ⟨S1x512, .f32⟩
  | .local _ .vmem, ⟨8, _⟩ => ⟨S1x512x512, .f32⟩
  | .local _ .vmem, ⟨9, _⟩ => ⟨S1x512x512, .f32⟩
  | .local _ .vmem, ⟨10, _⟩ => ⟨S512x512, .f32⟩
  | .local _ .vmem, ⟨11, _⟩ => ⟨S1x512x1, .f32⟩
  | .local _ .vmem, ⟨12, _⟩ => ⟨S1x512x1, .f32⟩
  | .local _ .vmem, ⟨13, _⟩ => ⟨S1x512, .f32⟩
  | .local _ .vmem, ⟨14, _⟩ => ⟨S1x512, .f32⟩
  | .local _ .vmem, ⟨15, _⟩ => ⟨S512x1, .f32⟩
  | .local _ .vmem, ⟨16, _⟩ => ⟨S1x1x1, .f32⟩
  | .local _ .vmem, ⟨17, _⟩ => ⟨S1x1x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x1x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S4096_S4096x1 : S4096.ShapeCasts S4096x1
  inb_S2x512x512_S2x512x512_0_0_0 : ∀ a, (![0, 0, 0] : Fin 3 → Nat) a + S2x512x512.size a ≤ S2x512x512.size a
  h_S2x512x512 : 0 < S2x512x512.numel
  inb_S1x512_S1x512_0_0 : ∀ a, (![0, 0] : Fin 2 → Nat) a + S1x512.size a ≤ S1x512.size a
  h_S1x512 : 0 < S1x512.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x512_d1_w32 : S512x512.Iotas .tc 32 [1]
  broadcasts_S512x1_S512x512 : S512x1.Broadcasts S512x512
  natLt_1_32 : 1 < 32
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S2x512x512_S1x512x512_0_0_0 : ∀ a, (![0, 0, 0] : Fin 3 → Nat) a + S1x512x512.size a ≤ S2x512x512.size a
  h_S1x512x512 : 0 < S1x512x512.numel
  shapeCasts_S1x512x512_S512x512 : S1x512x512.ShapeCasts S512x512
  shapeCasts_S512x512_S1x512x512 : S512x512.ShapeCasts S1x512x512
  inb_S2x512x512_S1x512x512_1_0_0 : ∀ a, (![1, 0, 0] : Fin 3 → Nat) a + S1x512x512.size a ≤ S2x512x512.size a
  shapeCasts_S1x512_S1x512 : S1x512.ShapeCasts S1x512
  reduces_S512x512_S512 : S512x512.Reduces [0] S512
  shapeCasts_S512_S1x512 : S512.ShapeCasts S1x512
  bcast_S_S1x512 : S_.BroadcastsInDim S1x512 (![] : Fin 0 → Fin S1x512.rank)
  bcast_S1x512_S1x512x1_0_1 : S1x512.BroadcastsInDim S1x512x1 (![0, 1] : Fin 2 → Fin S1x512x1.rank)
  bcast_S1x512x1_S2x512x512_0_1_2 : S1x512x1.BroadcastsInDim S2x512x512 (![0, 1, 2] : Fin 3 → Fin S2x512x512.rank)
  pads_S395x512_S512x512_01170_000 : S395x512.Pads (![0, 0] : Fin 2 → Nat) ![117, 0] ![0, 0] S512x512
  h_S_ : 0 < S_.numel
  reducesTo_S2x512x512_S2x512_d2 : S2x512x512.ReducesTo [2] S2x512
  bcast_S2x512_S2x512x1_0_1 : S2x512.BroadcastsInDim S2x512x1 (![0, 1] : Fin 2 → Fin S2x512x1.rank)
  reducesTo_S512x512_S512_d1 : S512x512.ReducesTo [1] S512
  bcast_S512_S1x512_1 : S512.BroadcastsInDim S1x512 (![1] : Fin 1 → Fin S1x512.rank)
  transposes_S1x512_S512x1_1_0 : S1x512.Transposes [1, 0] S512x1
  inb_S1x512x512_S1x512x512_0_0_0 : ∀ a, (![0, 0, 0] : Fin 3 → Nat) a + S1x512x512.size a ≤ S1x512x512.size a
  shapeCasts_S512x512_S512x512 : S512x512.ShapeCasts S512x512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  broadcasts_S1x512_S512x512 : S1x512.Broadcasts S512x512
  iota_S512x512_d0_w32 : S512x512.Iotas .tc 32 [0]
  reduces_S512x512_S512_2 : S512x512.Reduces [1] S512
  shapeCasts_S512_S512x1 : S512.ShapeCasts S512x1
  reduces_S512x1_S1 : S512x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  slices_S2x1x1_S1x1x1_0_0_0 : S2x1x1.Slices ![0, 0, 0] S1x1x1
  shapeCasts_S1x1x1_S_ : S1x1x1.ShapeCasts S_
  slices_S2x1x1_S1x1x1_1_0_0 : S2x1x1.Slices ![1, 0, 0] S1x1x1
  dot_S512x512_S512x512_S512x512_0_0_1_1_n_n_wf : DotDims.WF S512x512 S512x512 S512x512 [0] [0] [1] [1] [] []
  dot_S512x512_S512x512_S512x512_1_1_0_0_n_n_wf : DotDims.WF S512x512 S512x512 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S4096x1.size a
  hwx0_0 : ∀ i : grid0.Coords, EltTy.bits .i32 = 32 ∨ (Rect.block (s := S4096x1) S512x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .f32 = 32 ∨ (Rect.block (s := S4096x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x512.size a
  hwx0_2 : ∀ i : grid0.Coords, EltTy.bits .f32 = 32 ∨ (Rect.block (s := S4096x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x512x512.size a ≤ S2x512x512.size a
  hwx0_3 : ∀ i : grid0.Coords, EltTy.bits .f32 = 32 ∨ (Rect.block (s := S2x512x512) S2x512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x512.size a ≤ S2x512x512.size a
  hwx1_0 : ∀ i : grid1.Coords, EltTy.bits .f32 = 32 ∨ (Rect.block (s := S2x512x512) S1x512x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1.size a ≤ S2x512x1.size a
  hwx1_2 : ∀ i : grid1.Coords, EltTy.bits .f32 = 32 ∨ (Rect.block (s := S2x512x1) S1x512x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S512x1.size a
  hwx1_5 : ∀ i : grid1.Coords, EltTy.bits .f32 = 32 ∨ (Rect.block (s := S512x1) S512x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x1.size a ≤ S2x1x1.size a
  hwx1_6 : ∀ i : grid1.Coords, EltTy.bits .f32 = 32 ∨ (Rect.block (s := S2x1x1) S1x1x1.size (cc1_transform_6 i) (hinb1_6 i)).WholeWords (EltTy.packing .f32)

variable [Facts₀]

def dot_S512x512_S512x512_S512x512_0_0_1_1_n_n : DotDims S512x512 S512x512 S512x512 where
  lhsContracting := [0]
  rhsContracting := [0]
  lhsNonContracting := [1]
  rhsNonContracting := [1]
  lhsBatch := []
  rhsBatch := []
  wf := dot_S512x512_S512x512_S512x512_0_0_1_1_n_n_wf
def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_v0) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S2x512x512.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x512.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v6) S1x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S512x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S1x1x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4096x512 : Shape := ⟨2, ![4096, 512]⟩
abbrev S395x512 : Shape := ⟨2, ![395, 512]⟩
abbrev S4096 : Shape := ⟨1, ![4096]⟩
abbrev S_ : Shape := ⟨0, ![]⟩
abbrev S4096x1 : Shape := ⟨2, ![4096, 1]⟩
abbrev S395 : Shape := ⟨1, ![395]⟩
abbrev S395x1 : Shape := ⟨2, ![395, 1]⟩
abbrev S1x4096 : Shape := ⟨2, ![1, 4096]⟩
abbrev S4096x4096 : Shape := ⟨2, ![4096, 4096]⟩
abbrev S512x4096 : Shape := ⟨2, ![512, 4096]⟩

abbrev nBuf : Space → Nat
  | .hbm => 150
  | .vmem => 0
  | .smem => 0
  | _ => 0

abbrev hbmTy0_0 (i : Nat) : BufTy := match i % 128 with
  | 0 => ⟨S4096x512, .f32⟩
  | 1 => ⟨S4096x512, .f32⟩
  | 2 => ⟨S395x512, .f32⟩
  | 3 => ⟨S4096, .i32⟩
  | 4 => ⟨S_, .i32⟩
  | 5 => ⟨S4096, .i32⟩
  | 6 => ⟨S4096, .i1⟩
  | 7 => ⟨S_, .i32⟩
  | 8 => ⟨S4096, .i32⟩
  | 9 => ⟨S4096, .i32⟩
  | 10 => ⟨S4096, .i32⟩
  | 11 => ⟨S4096x1, .i32⟩
  | 12 => ⟨S4096x512, .f32⟩
  | 13 => ⟨S_, .f32⟩
  | 14 => ⟨S395x512, .f32⟩
  | 15 => ⟨S4096x1, .i32⟩
  | 16 => ⟨S395x512, .f32⟩
  | 17 => ⟨S_, .f32⟩
  | 18 => ⟨S4096, .f32⟩
  | 19 => ⟨S_, .f32⟩
  | 20 => ⟨S395, .f32⟩
  | 21 => ⟨S4096x1, .i32⟩
  | 22 => ⟨S395, .f32⟩
  | 23 => ⟨S_, .f32⟩
  | 24 => ⟨S395, .f32⟩
  | 25 => ⟨S395, .f32⟩
  | 26 => ⟨S395x1, .f32⟩
  | 27 => ⟨S395x512, .f32⟩
  | 28 => ⟨S395x512, .f32⟩
  | 29 => ⟨S_, .i32⟩
  | 30 => ⟨S4096, .i32⟩
  | 31 => ⟨S4096, .i1⟩
  | 32 => ⟨S_, .i32⟩
  | 33 => ⟨S4096, .i32⟩
  | 34 => ⟨S4096, .i32⟩
  | 35 => ⟨S4096, .i32⟩
  | 36 => ⟨S4096x1, .i32⟩
  | 37 => ⟨S4096x512, .f32⟩
  | 38 => ⟨S_, .f32⟩
  | 39 => ⟨S395x512, .f32⟩
  | 40 => ⟨S4096x1, .i32⟩
  | 41 => ⟨S395x512, .f32⟩
  | 42 => ⟨S_, .f32⟩
  | 43 => ⟨S4096, .f32⟩
  | 44 => ⟨S_, .f32⟩
  | 45 => ⟨S395, .f32⟩
  | 46 => ⟨S4096x1, .i32⟩
  | 47 => ⟨S395, .f32⟩
  | 48 => ⟨S_, .f32⟩
  | 49 => ⟨S395, .f32⟩
  | 50 => ⟨S395, .f32⟩
  | 51 => ⟨S395x1, .f32⟩
  | 52 => ⟨S395x512, .f32⟩
  | 53 => ⟨S395x512, .f32⟩
  | 54 => ⟨S_, .i32⟩
  | 55 => ⟨S4096, .i32⟩
  | 56 => ⟨S4096, .i1⟩
  | 57 => ⟨S_, .i32⟩
  | 58 => ⟨S4096, .i32⟩
  | 59 => ⟨S4096, .i32⟩
  | 60 => ⟨S4096, .i32⟩
  | 61 => ⟨S4096x1, .i32⟩
  | 62 => ⟨S4096x512, .f32⟩
  | 63 => ⟨S4096x1, .i32⟩
  | 64 => ⟨S1x4096, .i32⟩
  | 65 => ⟨S4096x4096, .i32⟩
  | 66 => ⟨S4096x4096, .i32⟩
  | 67 => ⟨S4096x4096, .i1⟩
  | 68 => ⟨S4096x4096, .f32⟩
  | 69 => ⟨S4096x512, .f32⟩
  | 70 => ⟨S_, .f32⟩
  | 71 => ⟨S4096, .f32⟩
  | 72 => ⟨S4096x1, .f32⟩
  | 73 => ⟨S4096x512, .f32⟩
  | 74 => ⟨S_, .f32⟩
  | 75 => ⟨S4096, .f32⟩
  | 76 => ⟨S1x4096, .f32⟩
  | 77 => ⟨S4096x4096, .f32⟩
  | 78 => ⟨S4096x4096, .f32⟩
  | 79 => ⟨S4096x4096, .f32⟩
  | 80 => ⟨S512x4096, .f32⟩
  | 81 => ⟨S4096x4096, .f32⟩
  | 82 => ⟨S_, .f32⟩
  | 83 => ⟨S4096x4096, .f32⟩
  | 84 => ⟨S4096x4096, .f32⟩
  | 85 => ⟨S4096x4096, .f32⟩
  | 86 => ⟨S_, .f32⟩
  | 87 => ⟨S_, .f32⟩
  | 88 => ⟨S4096x4096, .f32⟩
  | 89 => ⟨S4096x4096, .f32⟩
  | 90 => ⟨S4096x4096, .f32⟩
  | 91 => ⟨S_, .f32⟩
  | 92 => ⟨S4096x4096, .f32⟩
  | 93 => ⟨S4096x4096, .f32⟩
  | 94 => ⟨S_, .f32⟩
  | 95 => ⟨S4096x4096, .f32⟩
  | 96 => ⟨S4096x4096, .f32⟩
  | 97 => ⟨S4096x4096, .f32⟩
  | 98 => ⟨S4096x4096, .f32⟩
  | 99 => ⟨S_, .f32⟩
  | 100 => ⟨S4096x4096, .f32⟩
  | 101 => ⟨S4096x4096, .f32⟩
  | 102 => ⟨S4096x4096, .f32⟩
  | 103 => ⟨S4096x4096, .f32⟩
  | 104 => ⟨S4096x4096, .f32⟩
  | 105 => ⟨S_, .f32⟩
  | 106 => ⟨S_, .f32⟩
  | 107 => ⟨S_, .f32⟩
  | 108 => ⟨S_, .f32⟩
  | 109 => ⟨S4096x512, .f32⟩
  | 110 => ⟨S_, .f32⟩
  | 111 => ⟨S4096, .f32⟩
  | 112 => ⟨S4096x1, .f32⟩
  | 113 => ⟨S4096x512, .f32⟩
  | 114 => ⟨S_, .f32⟩
  | 115 => ⟨S4096, .f32⟩
  | 116 => ⟨S1x4096, .f32⟩
  | 117 => ⟨S4096x4096, .f32⟩
  | 118 => ⟨S4096x4096, .f32⟩
  | 119 => ⟨S4096x4096, .f32⟩
  | 120 => ⟨S512x4096, .f32⟩
  | 121 => ⟨S4096x4096, .f32⟩
  | 122 => ⟨S_, .f32⟩
  | 123 => ⟨S4096x4096, .f32⟩
  | 124 => ⟨S4096x4096, .f32⟩
  | 125 => ⟨S4096x4096, .f32⟩
  | 126 => ⟨S_, .f32⟩
  | 127 => ⟨S_, .f32⟩
  | _ => ⟨S4096x512, .f32⟩

abbrev hbmTy0_1 (i : Nat) : BufTy := match i % 128 with
  | 0 => ⟨S4096x4096, .f32⟩
  | 1 => ⟨S4096x4096, .f32⟩
  | 2 => ⟨S4096x4096, .f32⟩
  | 3 => ⟨S_, .f32⟩
  | 4 => ⟨S4096x4096, .f32⟩
  | 5 => ⟨S4096x4096, .f32⟩
  | 6 => ⟨S_, .f32⟩
  | 7 => ⟨S4096x4096, .f32⟩
  | 8 => ⟨S4096x4096, .f32⟩
  | 9 => ⟨S4096x4096, .f32⟩
  | 10 => ⟨S4096x4096, .f32⟩
  | 11 => ⟨S_, .f32⟩
  | 12 => ⟨S4096x4096, .f32⟩
  | 13 => ⟨S4096x4096, .f32⟩
  | 14 => ⟨S4096x4096, .f32⟩
  | 15 => ⟨S4096x4096, .f32⟩
  | 16 => ⟨S4096x4096, .f32⟩
  | 17 => ⟨S_, .f32⟩
  | 18 => ⟨S_, .f32⟩
  | 19 => ⟨S_, .f32⟩
  | 20 => ⟨S_, .f32⟩
  | 21 => ⟨S_, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_10 : Ref sig .tc := ⟨.hbm, 54, rfl⟩
abbrev main_v38 : Ref sig .tc := ⟨.hbm, 55, rfl⟩
abbrev main_v39 : Ref sig .tc := ⟨.hbm, 56, rfl⟩
abbrev main_c_11 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_12 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_13 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_14 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_15 : Ref sig .tc := ⟨.hbm, 86, rfl⟩
abbrev main_call0_v0 : Ref sig .tc := ⟨.hbm, 87, rfl⟩
abbrev main_call0_v1 : Ref sig .tc := ⟨.hbm, 88, rfl⟩
abbrev main_v65 : Ref sig .tc := ⟨.hbm, 89, rfl⟩
abbrev main_v66 : Ref sig .tc := ⟨.hbm, 90, rfl⟩
abbrev main_cst_16 : Ref sig .tc := ⟨.hbm, 91, rfl⟩
abbrev main_v67 : Ref sig .tc := ⟨.hbm, 92, rfl⟩
abbrev main_v68 : Ref sig .tc := ⟨.hbm, 93, rfl⟩
abbrev main_cst_17 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_18 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_19 : Ref sig .tc := ⟨.hbm, 105, rfl⟩
abbrev main_v78 : Ref sig .tc := ⟨.hbm, 106, rfl⟩
abbrev main_cst_20 : Ref sig .tc := ⟨.hbm, 107, rfl⟩
abbrev main_v79 : Ref sig .tc := ⟨.hbm, 108, rfl⟩
abbrev main_v80 : Ref sig .tc := ⟨.hbm, 109, rfl⟩
abbrev main_cst_21 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_22 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_23 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_24 : Ref sig .tc := ⟨.hbm, 126, rfl⟩
abbrev main_call1_v0 : Ref sig .tc := ⟨.hbm, 127, rfl⟩
abbrev main_call1_v1 : Ref sig .tc := ⟨.hbm, 128, rfl⟩
abbrev main_v94 : Ref sig .tc := ⟨.hbm, 129, rfl⟩
abbrev main_v95 : Ref sig .tc := ⟨.hbm, 130, rfl⟩
abbrev main_cst_25 : Ref sig .tc := ⟨.hbm, 131, rfl⟩
abbrev main_v96 : Ref sig .tc := ⟨.hbm, 132, rfl⟩
abbrev main_v97 : Ref sig .tc := ⟨.hbm, 133, rfl⟩
abbrev main_cst_26 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_27 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_28 : Ref sig .tc := ⟨.hbm, 145, rfl⟩
abbrev main_v107 : Ref sig .tc := ⟨.hbm, 146, rfl⟩
abbrev main_cst_29 : Ref sig .tc := ⟨.hbm, 147, rfl⟩
abbrev main_v108 : Ref sig .tc := ⟨.hbm, 148, rfl⟩
abbrev main_v109 : Ref sig .tc := ⟨.hbm, 149, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S395x512 : S_.BroadcastsInDim S395x512 (![] : Fin 0 → Fin S395x512.rank)
  bcast_S_S395 : S_.BroadcastsInDim S395 (![] : Fin 0 → Fin S395.rank)
  bcast_S395_S395x1_0 : S395.BroadcastsInDim S395x1 (![0] : Fin 1 → Fin S395x1.rank)
  bcast_S395x1_S395x512_0_1 : S395x1.BroadcastsInDim S395x512 (![0, 1] : Fin 2 → Fin S395x512.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  reducesTo_S4096x512_S4096_d1 : S4096x512.ReducesTo [1] S4096
  h_S_ : 0 < S_.numel
  transposes_S4096x512_S512x4096_1_0 : S4096x512.Transposes [1, 0] S512x4096
  bcast_S_S4096x4096 : S_.BroadcastsInDim S4096x4096 (![] : Fin 0 → Fin S4096x4096.rank)
  reducesTo_S4096x4096_S_d0_1 : S4096x4096.ReducesTo [0, 1] S_
  gather_S395x512_S4096x1_S4096x512_1_0_n_n_0_1_1512_wf : GatherDims.WF S395x512 S4096x1 S4096x512 [1] [0] [] [0] [] 1 ![1, 512]
  scatter_S395x512_S4096x1_S4096x512_1_0_0_1_wf : ScatterDims.WF S395x512 S4096x1 S4096x512 [1] [0] [0] 1
  scatter_S395_S4096x1_S4096_n_0_0_1_wf : ScatterDims.WF S395 S4096x1 S4096 [] [0] [0] 1
  dot_S4096x512_S512x4096_S4096x4096_1_0_0_1_n_n_wf : DotDims.WF S4096x512 S512x4096 S4096x4096 [1] [0] [0] [1] [] []

variable [Facts₀]

def gather_S395x512_S4096x1_S4096x512_1_0_n_n_0_1_1512 : GatherDims S395x512 S4096x1 S4096x512 where
  offsetDims := [1]
  collapsedSliceDims := [0]
  operandBatchingDims := []
  startIndicesBatchingDims := []
  startIndexMap := [0]
  indexVectorDim := 1
  sliceSizes := ![1, 512]
  wf := gather_S395x512_S4096x1_S4096x512_1_0_n_n_0_1_1512_wf
def scatter_S395x512_S4096x1_S4096x512_1_0_0_1 : ScatterDims S395x512 S4096x1 S4096x512 where
  updateWindowDims := [1]
  insertedWindowDims := [0]
  scatterDimsToOperandDims := [0]
  indexVectorDim := 1
  wf := scatter_S395x512_S4096x1_S4096x512_1_0_0_1_wf
def scatter_S395_S4096x1_S4096_n_0_0_1 : ScatterDims S395 S4096x1 S4096 where
  updateWindowDims := []
  insertedWindowDims := [0]
  scatterDimsToOperandDims := [0]
  indexVectorDim := 1
  wf := scatter_S395_S4096x1_S4096_n_0_0_1_wf
def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.Spec.lean ====
/-
  The mathematics both programs compute, stated once over plain functions of coordinates, at the
  extended reals.

  Inputs: a label `T i` (a 32-bit word) for each of 4096 samples, two feature matrices `X w`
  (4096 × 512, one per modality `w`), and 395 class centres `Cp` (395 × 512).

  Per modality the loss is the mean over all ordered sample pairs `(i, j)` of a contrastive
  term between the MEAN FEATURE ROW of sample `i`'s class and the CENTRE of sample `j`'s class:
  the clamped squared distance when the two labels agree, the squared hinge of the distance
  otherwise. The term depends on `(i, j)` only through the pair of classes, so the sum over sample
  pairs regroups as a sum over class pairs weighted by the product of the class counts. One side
  (`resR`) is written over sample pairs, the other (`resK`) over a 512 × 512 grid of class pairs
  (the classes padded with empty ones up to 512).
-/
import Idealize.ShloMosaic.PureOps.Ideal
import Idealize.ShloMosaic.PureOps.Ideal.Laws

noncomputable section

namespace Cert.ClassPair

open Idealize.ShloMosaic

/-! ## The constants both programs carry, as the same words -/

/-- The clamp under the square root. -/
abbrev eps : EReal := Ideal.ofBits .f32 0x2B8CBCCC#32
/-- The margin of the hinge. -/
abbrev half : EReal := Ideal.ofBits .f32 0x3F000000#32
/-- The factor of the cross term. -/
abbrev two : EReal := Ideal.ofBits .f32 0x40000000#32
/-- The number of ordered sample pairs, 4096². -/
abbrev nn : EReal := Ideal.ofBits .f32 0x4B800000#32

/-! ## One pair's term -/

/-- The clamped squared distance from the two squared norms and the inner product. -/
def sqc (a2 b2 ab : EReal) : EReal := max eps ((a2 + b2) - two * ab)

/-- The hinge `max (margin - √x) 0`. -/
def hinge (x : EReal) : EReal := max (half - Ideal.sqrt x) 0

/-- The term chosen by cases: the clamped squared distance itself for a pair of one class, the
    squared hinge of the distance otherwise. -/
def tile (same : Prop) [Decidable same] (x : EReal) : EReal := if same then x else hinge x * hinge x

/-- The same term as an arithmetic blend by a 0/1 label: `lab · √x · √x + (1 - lab) · hinge² `. -/
def blend (lab x : EReal) : EReal := lab * Ideal.sqrt x * Ideal.sqrt x + (1 - lab) * hinge x * hinge x

section
variable (T : Fin 4096 → BitVec 32) (X : Fin 2 → Fin 4096 → Fin 512 → EReal) (Cp : Fin 395 → Fin 512 → EReal)

/-! ## Over class pairs: sums per class accumulated block of rows by block of rows -/

/-- Row `r` of the `n`-th block of 512 rows. -/
def row (n : ℕ) (r : Fin 512) : Fin 4096 := ⟨(512 * n + r.val) % 4096, Nat.mod_lt _ (by decide)⟩

/-- The indicator that sample `i` carries the label `a`. -/
def oh (i : Fin 4096) (a : Fin 512) : EReal := if T i = BitVec.ofNat 32 a.val then 1 else 0

/-- How many samples carry label `a`: eight blocks of rows, one after the other. -/
def cntK (a : Fin 512) : EReal := ∑ n ∈ Finset.range 8, ∑ r : Fin 512, oh T (row n r) a

/-- The sum of the feature rows of the samples labelled `a`, coordinate `d`. -/
def sumK (w : Fin 2) (a d : Fin 512) : EReal :=
  ∑ n ∈ Finset.range 8, ∑ r : Fin 512, oh T (row n r) a * X w (row n r) d

/-- The class mean: the sum over the count, an empty class counted as one. -/
def meanK (w : Fin 2) (a d : Fin 512) : EReal := Ideal.div (sumK T X w a d) (max (cntK T a) 1)

/-- The centres, padded with zero rows up to 512 classes. -/
def padK (b d : Fin 512) : EReal := if h : b.val < 395 then Cp ⟨b.val, h⟩ d else 0

def a2K (w : Fin 2) (a : Fin 512) : EReal := 0 + ∑ d : Fin 512, meanK T X w a d * meanK T X w a d
def b2K (b : Fin 512) : EReal := 0 + ∑ d : Fin 512, padK Cp b d * padK Cp b d
def abK (w : Fin 2) (a b : Fin 512) : EReal := ∑ d : Fin 512, meanK T X w a d * padK Cp b d

/-- One modality's loss before the division: over the 512 × 512 class pairs, each term weighted by
    the product of the two counts. -/
def outK (w : Fin 2) : EReal :=
  ∑ a : Fin 512, ∑ b : Fin 512,
    (cntK T a * cntK T b) * tile (a = b) (sqc (a2K T X w a) (b2K Cp b) (abK T X Cp w a b))

/-- The result over class pairs. -/
def resK : EReal := Ideal.div (outK T X Cp 0) nn + Ideal.div (outK T X Cp 1) nn

/-! ## Over sample pairs -/

variable (hT : ∀ i, (T i).toNat < 395)

/-- The class of sample `i`, its label read as a number below 395. -/
def cls (i : Fin 4096) : Fin 395 := ⟨(T i).toNat, hT i⟩

def cntR (c : Fin 395) : EReal := 0 + ∑ i : Fin 4096, if (T i).toNat = c.val then (1 : EReal) else 0
def sumR (w : Fin 2) (c : Fin 395) (d : Fin 512) : EReal :=
  0 + ∑ i : Fin 4096, if (T i).toNat = c.val then X w i d else 0
def meanR (w : Fin 2) (c : Fin 395) (d : Fin 512) : EReal := Ideal.div (sumR T X w c d) (max (cntR T c) 1)

/-- The term of the ordered sample pair `(i, j)`. -/
def fR (w : Fin 2) (i j : Fin 4096) : EReal :=
  blend (if T i = T j then 1 else 0)
    (sqc (0 + ∑ d : Fin 512, meanR T X w (cls T hT i) d * meanR T X w (cls T hT i) d)
         (0 + ∑ d : Fin 512, Cp (cls T hT j) d * Cp (cls T hT j) d)
         (∑ d : Fin 512, meanR T X w (cls T hT i) d * Cp (cls T hT j) d))

def lossR (w : Fin 2) : EReal := 0 + ∑ i : Fin 4096, ∑ j : Fin 4096, fR T X Cp hT w i j

/-- The result over sample pairs. -/
def resR : EReal := Ideal.div (lossR T X Cp hT 0) nn + Ideal.div (lossR T X Cp hT 1) nn

end

end Cert.ClassPair

end
-- ==== Proof.Bridge.lean ====
/-
  The regrouping: a sum over ordered sample pairs of a term that depends only on the pair of
  classes is the sum over class pairs of that term times the product of the two class counts. All
  terms and counts are non-negative extended reals, where multiplication distributes over sums,
  so nothing has to be finite. Beside it the two small facts that make the two spellings of one
  pair's term agree: blending by a 0/1 label is choosing by cases, and the square root of a value
  at or above the (positive) clamp squares back to the value.
-/
import proofs.«412364_j36618891166027_3_alg».proof.Proof.Spec
import Mathlib.Data.EReal.Operations
import Mathlib.Data.EReal.Inv
import Mathlib.Algebra.BigOperators.Fin
import Mathlib.Logic.Equiv.Fin.Basic

noncomputable section

namespace Cert.ClassPair

open Idealize.ShloMosaic
open scoped BigOperators

namespace Bridge

/-! ## Sums of non-negative extended reals

Multiplication by any extended real distributes over a sum of two NON-NEGATIVE ones (no
"infinity minus infinity" can arise), hence over any finite sum of non-negative ones. -/

theorem sum_mul_of_nonneg {ι : Type*} (s : Finset ι) (f : ι → EReal) (hf : ∀ i ∈ s, 0 ≤ f i)
    (c : EReal) : (∑ i ∈ s, f i) * c = ∑ i ∈ s, f i * c := by
  classical
  induction s using Finset.induction_on with
  | empty => simp
  | insert a s ha ih =>
    rw [Finset.sum_insert ha, Finset.sum_insert ha,
      EReal.right_distrib_of_nonneg (hf a (Finset.mem_insert_self a s))
        (Finset.sum_nonneg fun i hi => hf i (Finset.mem_insert_of_mem hi)),
      ih fun i hi => hf i (Finset.mem_insert_of_mem hi)]

theorem mul_sum_of_nonneg {ι : Type*} (s : Finset ι) (f : ι → EReal) (hf : ∀ i ∈ s, 0 ≤ f i)
    (c : EReal) : c * (∑ i ∈ s, f i) = ∑ i ∈ s, c * f i := by
  rw [mul_comm, sum_mul_of_nonneg s f hf c]
  exact Finset.sum_congr rfl fun i _ => mul_comm _ _

/-! ## The eight blocks of 512 rows are all 4096 rows

The pair (block n, row r) is sent to 512·n + r, a bijection of 8 × 512 onto 4096. -/

theorem sum_rows {M : Type*} [AddCommMonoid M] (f : Fin 4096 → M) :
    ∑ n ∈ Finset.range 8, ∑ r : Fin 512, f (row n r) = ∑ i : Fin 4096, f i := by
  rw [Finset.sum_range fun n => ∑ r : Fin 512, f (row n r)]
  rw [← Fintype.sum_prod_type' (fun (n : Fin 8) (r : Fin 512) => f (row n.val r))]
  rw [← Equiv.sum_comp (finProdFinEquiv (m := 8) (n := 512)) f]
  refine Fintype.sum_congr _ _ ?_
  rintro ⟨n, r⟩
  congr 1
  apply Fin.ext
  show (512 * n.val + r.val) % 4096 = r.val + 512 * n.val
  have := n.isLt
  have := r.isLt
  omega

section
variable (T : Fin 4096 → BitVec 32) (X : Fin 2 → Fin 4096 → Fin 512 → EReal) (Cp : Fin 395 → Fin 512 → EReal)

/-! ## Labels as numbers -/

/-- A 32-bit word is the word of a number below 512 exactly when its value is that number. -/
theorem label_eq_iff (t : BitVec 32) (a : Fin 512) : t = BitVec.ofNat 32 a.val ↔ t.toNat = a.val := by
  rw [← BitVec.toNat_inj, BitVec.toNat_ofNat, Nat.mod_eq_of_lt (by have := a.isLt; omega)]

theorem oh_eq (i : Fin 4096) (a : Fin 512) : oh T i a = if (T i).toNat = a.val then 1 else 0 := by
  unfold oh
  exact if_congr (label_eq_iff (T i) a) rfl rfl

theorem oh_nonneg (i : Fin 4096) (a : Fin 512) : 0 ≤ oh T i a := by
  unfold oh
  split
  · exact zero_le_one
  · exact le_rfl

theorem cntK_eq_sum (a : Fin 512) : cntK T a = ∑ i : Fin 4096, oh T i a :=
  sum_rows fun i => oh T i a

theorem sumK_eq_sum (w : Fin 2) (a d : Fin 512) : sumK T X w a d = ∑ i : Fin 4096, oh T i a * X w i d :=
  sum_rows fun i => oh T i a * X w i d

theorem cntK_nonneg (a : Fin 512) : 0 ≤ cntK T a := by
  rw [cntK_eq_sum]
  exact Finset.sum_nonneg fun i _ => oh_nonneg T i a

end

section
variable (T : Fin 4096 → BitVec 32) (X : Fin 2 → Fin 4096 → Fin 512 → EReal) (Cp : Fin 395 → Fin 512 → EReal)
variable (hT : ∀ i, (T i).toNat < 395)

/-! ## A weighted sum over classes is a sum over samples -/

/-- The class of sample i among the 512 padded classes. -/
def cls512 (i : Fin 4096) : Fin 512 := ⟨(T i).toNat, lt_trans (hT i) (by decide)⟩

/-- Each sample carries exactly one label, so weighting a function of the class by the class
    count and summing over the classes sums the function over the samples. The function may take
    any extended-real values: only the indicators, which are non-negative, are distributed over. -/
theorem sum_cnt_mul (F : Fin 512 → EReal) :
    ∑ a : Fin 512, cntK T a * F a = ∑ i : Fin 4096, F (cls512 T hT i) := by
  have h1 : ∀ a : Fin 512, cntK T a * F a = ∑ i : Fin 4096, oh T i a * F a := fun a => by
    rw [cntK_eq_sum, sum_mul_of_nonneg _ _ (fun i _ => oh_nonneg T i a)]
  rw [Fintype.sum_congr _ _ h1, Finset.sum_comm]
  refine Finset.sum_congr rfl fun i _ => ?_
  rw [Finset.sum_eq_single (cls512 T hT i)]
  · rw [oh_eq, if_pos (show (T i).toNat = (cls512 T hT i).val from rfl), one_mul]
  · intro a _ hne
    rw [oh_eq, if_neg, zero_mul]
    intro h
    exact hne (Fin.ext h.symm)
  · intro h
    exact absurd (Finset.mem_univ _) h

/-! ## One pair's term -/

theorem eps_nonneg : (0 : EReal) ≤ eps := by
  have h : eps = (((9223372 : ℝ) * ((2 : ℝ) ^ 63)⁻¹ : ℝ) : EReal) := by
    simp [eps, Ideal.ofBits, Ideal.ieee]
  rw [h]
  exact EReal.coe_nonneg.2 (by positivity)

theorem sqc_nonneg (a2 b2 ab : EReal) : 0 ≤ sqc a2 b2 ab := le_trans eps_nonneg (le_max_left _ _)

theorem hinge_nonneg (x : EReal) : 0 ≤ hinge x := le_max_right _ _

theorem tile_nonneg (p : Prop) [Decidable p] {x : EReal} (hx : 0 ≤ x) : 0 ≤ tile p x := by
  unfold tile
  split
  · exact hx
  · exact mul_nonneg (hinge_nonneg x) (hinge_nonneg x)

theorem tile_congr {p q : Prop} [Decidable p] [Decidable q] (h : p ↔ q) (x : EReal) :
    tile p x = tile q x := by
  unfold tile
  exact if_congr h rfl rfl

/-- The square root of a non-negative extended real squares back to it: at infinity both sides
    are infinity, at a real r ≥ 0 it is √r · √r = r. -/
theorem sqrt_mul_self {x : EReal} (hx : 0 ≤ x) : Ideal.sqrt x * Ideal.sqrt x = x := by
  induction x using EReal.rec with
  | bot => exact absurd hx (by simp)
  | top => simp
  | coe r =>
    have hr : 0 ≤ r := EReal.coe_nonneg.1 hx
    rw [Ideal.sqrt_coe, if_neg (not_lt.2 hr), ← EReal.coe_mul, Real.mul_self_sqrt hr]

/-- Blending by a 0/1 label is choosing by cases. -/
theorem blend_ite (p : Prop) [Decidable p] {x : EReal} (hx : 0 ≤ x) :
    blend (if p then 1 else 0) x = tile p x := by
  unfold blend tile
  split
  · have h0 : (1 : EReal) - 1 = 0 := by
      rw [← EReal.coe_one, ← EReal.coe_sub, sub_self, EReal.coe_zero]
    rw [one_mul, sqrt_mul_self hx, h0, zero_mul, zero_mul, add_zero]
  · rw [zero_mul, zero_mul, zero_add, sub_zero, one_mul]

end

section
variable (T : Fin 4096 → BitVec 32) (X : Fin 2 → Fin 4096 → Fin 512 → EReal) (Cp : Fin 395 → Fin 512 → EReal)
variable (hT : ∀ i, (T i).toNat < 395)

/-! ## At a class below 395 the two sides' ingredients are the same numbers -/

theorem cntK_cls (a : Fin 512) (c : Fin 395) (h : a.val = c.val) : cntK T a = cntR T c := by
  rw [cntK_eq_sum, cntR, zero_add]
  refine Finset.sum_congr rfl fun i _ => ?_
  rw [oh_eq, h]

/-- An indicator times a value is the value where the label matches and zero elsewhere (zero
    times any extended real is zero). -/
theorem sumK_cls (w : Fin 2) (a : Fin 512) (c : Fin 395) (h : a.val = c.val) (d : Fin 512) :
    sumK T X w a d = sumR T X w c d := by
  rw [sumK_eq_sum, sumR, zero_add]
  refine Finset.sum_congr rfl fun i _ => ?_
  rw [oh_eq, h]
  split
  · exact one_mul _
  · exact zero_mul _

theorem meanK_cls (w : Fin 2) (a : Fin 512) (c : Fin 395) (h : a.val = c.val) (d : Fin 512) :
    meanK T X w a d = meanR T X w c d := by
  unfold meanK meanR
  rw [sumK_cls T X w a c h d, cntK_cls T a c h]

theorem padK_cls (a : Fin 512) (c : Fin 395) (h : a.val = c.val) (d : Fin 512) :
    padK Cp a d = Cp c d := by
  unfold padK
  have hlt : a.val < 395 := h ▸ c.isLt
  rw [dif_pos hlt]
  congr 1
  exact Fin.ext h

/-! ## The regrouping -/

/-- The term of the class pair (a, b). -/
def termK (w : Fin 2) (a b : Fin 512) : EReal :=
  tile (a = b) (sqc (a2K T X w a) (b2K Cp b) (abK T X Cp w a b))

theorem termK_nonneg (w : Fin 2) (a b : Fin 512) : 0 ≤ termK T X Cp w a b :=
  tile_nonneg _ (sqc_nonneg _ _ _)

/-- Two samples have the same padded class exactly when they carry the same label. -/
theorem cls512_eq_iff (i j : Fin 4096) : cls512 T hT i = cls512 T hT j ↔ T i = T j := by
  rw [Fin.ext_iff, ← BitVec.toNat_inj]
  rfl

/-- At the classes of the samples i and j the class-pair term is the sample-pair term. -/
theorem termK_cls (w : Fin 2) (i j : Fin 4096) :
    termK T X Cp w (cls512 T hT i) (cls512 T hT j) = fR T X Cp hT w i j := by
  unfold fR termK
  rw [blend_ite _ (sqc_nonneg _ _ _), tile_congr (cls512_eq_iff T hT i j)]
  unfold a2K b2K abK
  simp only [meanK_cls T X w (cls512 T hT i) (cls T hT i) rfl, padK_cls Cp (cls512 T hT j) (cls T hT j) rfl]

/-- The loss over class pairs is the loss over sample pairs: pull the count of b into the inner
    sum (all its terms are non-negative), turn each weighted sum over classes into a sum over
    samples, and read the term at the samples' classes. -/
theorem outK_eq (w : Fin 2) : outK T X Cp w = ∑ i : Fin 4096, ∑ j : Fin 4096, fR T X Cp hT w i j := by
  have h0 : outK T X Cp w
      = ∑ a : Fin 512, ∑ b : Fin 512, (cntK T a * cntK T b) * termK T X Cp w a b := rfl
  have h1 : ∀ a : Fin 512, ∑ b : Fin 512, (cntK T a * cntK T b) * termK T X Cp w a b
      = cntK T a * ∑ j : Fin 4096, termK T X Cp w a (cls512 T hT j) := fun a => by
    rw [← sum_cnt_mul T hT (fun b => termK T X Cp w a b),
      mul_sum_of_nonneg _ _ (fun b _ => mul_nonneg (cntK_nonneg T b) (termK_nonneg T X Cp w a b))]
    exact Finset.sum_congr rfl fun b _ => mul_assoc _ _ _
  rw [h0, Fintype.sum_congr _ _ h1,
    sum_cnt_mul T hT (fun a => ∑ j : Fin 4096, termK T X Cp w a (cls512 T hT j))]
  exact Finset.sum_congr rfl fun i _ => Finset.sum_congr rfl fun j _ => termK_cls T X Cp hT w i j

end

end Bridge

/-- Over class pairs and over sample pairs the result is the same number. -/
theorem bridge (T : Fin 4096 → BitVec 32) (X : Fin 2 → Fin 4096 → Fin 512 → EReal) (Cp : Fin 395 → Fin 512 → EReal)
    (hT : ∀ i, (T i).toNat < 395) : resK T X Cp = resR T X Cp hT := by
  unfold resK resR lossR
  rw [zero_add, zero_add, Bridge.outK_eq T X Cp hT 0, Bridge.outK_eq T X Cp hT 1]

end Cert.ClassPair

end
-- ==== Proof.PreRange.lean ====
/-
  The precondition, decoded: its last conjunct says every label is at least 0 and below 395 as a
  signed word, so read unsigned it is below 395.
-/
import proofs.«412364_j36618891166027_3_alg».proof.Pre_finite_inputs
import Idealize.ShloMosaic.Lib.ValueIdx
import Idealize.ShloMosaic.Lib.ReduceAll
import Idealize.ShloMosaic.Lib.StableHlo.Predicate

noncomputable section

namespace Cert.Pre_finite_inputs.Range

open Idealize.ShloMosaic Idealize.ShloMosaic.ValueIdx

theorem targets_in_range [Cert.Pre_finite_inputs.Facts] (x0 x1 : FVec Ideal Cert.Pre_finite_inputs.S4096x512 .f32)
    (x2 : FVec Ideal Cert.Pre_finite_inputs.S395x512 .f32) (x3 : IVec Cert.Pre_finite_inputs.S4096 32)
    (h : Cert.Pre_finite_inputs.fn (F := Ideal) x0 x1 x2 x3 = fun _ => 1#1) :
    ∀ i : Fin 4096, (x3 (ix1 i)).toNat < 395 := by
  intro i
  -- the printed conjunction at the one index of the result: its last conjunct is the labels' `all`
  have h0 := congrFun h ValueIdx.ix0
  dsimp only [Cert.Pre_finite_inputs.fn, Cert.Pre_finite_inputs.fn_part1] at h0
  obtain ⟨-, hall⟩ := IntOp.andi_eq_one.1 h0
  -- an `all` that came out 1 met a 1 at every label
  haveI : Subsingleton Cert.Pre_finite_inputs.S_.Idx := ⟨fun a b => funext fun d => d.elim0⟩
  have hi := Host.reduce_andi_all _ _ _ _ _ hall (ix1 i)
  -- at label `i`: both compares are 1, each against its broadcast constant
  obtain ⟨hge, hlt⟩ := IntOp.andi_eq_one.1 hi
  have hge' : (0#32 : BitVec 32).toInt ≤ (x3 (ix1 i)).toInt := IntOp.cmpi_sge.1 hge
  have hlt' : (x3 (ix1 i)).toInt < (395#32 : BitVec 32).toInt := IntOp.cmpi_slt.1 hlt
  -- a word that reads non-negative signed reads the same unsigned
  rw [show (0#32 : BitVec 32).toInt = 0 from by decide] at hge'
  rw [show (395#32 : BitVec 32).toInt = 395 from by decide] at hlt'
  have hlt32 := (x3 (ix1 i)).isLt
  rw [BitVec.toInt_eq_toNat_cond] at hge' hlt'
  split at hge' <;> omega

end Cert.Pre_finite_inputs.Range

end
-- ==== Proof.KArrays.lean ====
/-
  The arrays of the program that the value statements speak of, each named once at its literal
  type (a function from the array's index to an extended real, or to a 32-bit word for the labels),
  at any valuation `V` of the TensorCore's buffers; and the three arrays the two regions write, as
  their proof data have them after the last grid point.
-/
import proofs.«412364_j36618891166027_3_alg».proof.Proof.Gen.KernelIdeal.Frame
import Idealize.ShloMosaic.PureOps.Ideal

noncomputable section

namespace Cert.KernelIdeal.Arr

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-- The labels as a column. -/
abbrev v0 (c : Dev nD) : S4096x1.Idx → BitVec 32 := V c main_v0
/-- The two feature matrices and the centres. -/
abbrev arg0 (c : Dev nD) : S4096x512.Idx → EReal := V c main_arg0
abbrev arg1 (c : Dev nD) : S4096x512.Idx → EReal := V c main_arg1
abbrev arg2 (c : Dev nD) : S395x512.Idx → EReal := V c main_arg2
/-- The labels as launched. -/
abbrev arg3 (c : Dev nD) : S4096.Idx → BitVec 32 := V c main_arg3
/-- The first region's outputs: per-label sums and counts. -/
abbrev v1_0 (c : Dev nD) : S2x512x512.Idx → EReal := V c main_v1_0
abbrev v1_1 (c : Dev nD) : S1x512.Idx → EReal := V c main_v1_1
/-- The class means, the padded centres, their squared norms, the counts as a column. -/
abbrev v6 (c : Dev nD) : S2x512x512.Idx → EReal := V c main_v6
abbrev v7 (c : Dev nD) : S512x512.Idx → EReal := V c main_v7
abbrev v10 (c : Dev nD) : S2x512x1.Idx → EReal := V c main_v10
abbrev v13 (c : Dev nD) : S1x512.Idx → EReal := V c main_v13
abbrev v14 (c : Dev nD) : S512x1.Idx → EReal := V c main_v14
/-- The second region's output. -/
abbrev v15 (c : Dev nD) : S2x1x1.Idx → EReal := V c main_v15

/-- What the first region's proof data hold in the sums array after the last point. -/
abbrev sumsOut (c : Dev nD) : S2x512x512.Idx → EReal := (dat0 (F := Ideal) V c).arrAt 3 cfg0.N
/-- … and in the counts array. -/
abbrev cntOut (c : Dev nD) : S1x512.Idx → EReal := (dat0 (F := Ideal) V c).arrAt 4 cfg0.N
/-- What the second region's proof data hold in its output array after the last point. -/
abbrev lossOut (c : Dev nD) : S2x1x1.Idx → EReal := (dat1 (F := Ideal) V c).arrAt 6 cfg1.N

end Cert.KernelIdeal.Arr

end
-- ==== Proof.KSums.lean ====
/-
  What the first kernel region leaves in its sums array: for every label `a` below 512 and each
  modality, the sum of the feature rows of the samples carrying `a`. The region walks the 4096
  samples in eight blocks of 512 rows; at each block it adds to what the block before left the
  product of the block's indicator matrix (sample × label), transposed, with the block's features;
  at the first block it starts from zero.
-/
import proofs.«412364_j36618891166027_3_alg».proof.Proof.Gen.KernelIdeal.Frame
import proofs.«412364_j36618891166027_3_alg».proof.Proof.KArrays
import proofs.«412364_j36618891166027_3_alg».proof.Proof.Spec
import Idealize.ShloMosaic.Lib.ValueIdx
import Idealize.ShloMosaic.Lib.Pipeline.Value
import Idealize.ShloMosaic.PureOps.Ideal.Laws

noncomputable section

namespace Cert.KernelIdeal.SumsValue

open Idealize.ShloMosaic Idealize.ShloMosaic.TcCoe Idealize.SL.Sem Idealize.ShloMosaic.ValueIdx
open Cert.KernelIdeal Cert.KernelIdeal.Gen Cert.ClassPair

variable (V : (c : Dev nD) → (b : Ref sig .tc) → Buf (Elt Ideal) ((c : Thread nD τ).loc b))

/-- The label column as the region finds it. -/
abbrev Tof (c : Dev nD) : Fin 4096 → BitVec 32 := fun i => Arr.v0 V c (ix2 i 0)
/-- The two feature matrices as the region finds them. -/
abbrev Xof (c : Dev nD) : Fin 2 → Fin 4096 → Fin 512 → EReal := fun w i d =>
  if w = 0 then Arr.arg0 V c (ix2 i d) else Arr.arg1 V c (ix2 i d)

/-! The auxiliary facts of the sums array live in their own namespace. -/
namespace Sums

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The three rectangles of the sums block the body stores through: the whole block, slab 0, slab 1. -/
abbrev rW : Rect S2x512x512 := Rect.unit (s := S2x512x512) ![0, 0, 0] S2x512x512.size inb_S2x512x512_S2x512x512_0_0_0
abbrev r0 : Rect S2x512x512 := Rect.unit (s := S2x512x512) ![0, 0, 0] S1x512x512.size inb_S2x512x512_S1x512x512_0_0_0
abbrev r1 : Rect S2x512x512 := Rect.unit (s := S2x512x512) ![1, 0, 0] S1x512x512.size inb_S2x512x512_S1x512x512_1_0_0

/-- The zero slab a freshly reset sums block shows to the first accumulation. -/
abbrev zslab : FVec F S1x512x512 .f32 := broadcast S1x512x512 (Scalar.ofBits .f32 0x00000000#32)

/-- Slab `w` of a sums block: what a load of the `1 × 512 × 512` rectangle at row `w` reads of it. -/
abbrev slab0 (X : Vec F S2x512x512 .f32) : Vec F S1x512x512 .f32 := View.ld X r0
abbrev slab1 (X : Vec F S2x512x512 .f32) : Vec F S1x512x512 .f32 := View.ld X r1

/-- An index of the sums block in slab 0 is the slab's own index placed by the rectangle at row 0. -/
theorem emb0 (a d : Fin 512) : r0.emb (ix3 (0 : Fin 1) a d) = (ix3 (0 : Fin 2) a d : S2x512x512.Idx) :=
  funext fun b => Fin.ext (by
    match b with
    | ⟨0, _⟩ => rfl
    | ⟨1, _⟩ => show 0 + 1 * a.val = a.val; omega
    | ⟨2, _⟩ => show 0 + 1 * d.val = d.val; omega)
theorem emb1 (a d : Fin 512) : r1.emb (ix3 (0 : Fin 1) a d) = (ix3 (1 : Fin 2) a d : S2x512x512.Idx) :=
  funext fun b => Fin.ext (by
    match b with
    | ⟨0, _⟩ => rfl
    | ⟨1, _⟩ => show 0 + 1 * a.val = a.val; omega
    | ⟨2, _⟩ => show 0 + 1 * d.val = d.val; omega)

/-- Row 0 of the block is off the rectangle at row 1. -/
theorem not_mem1 (a d : Fin 512) : (ix3 (0 : Fin 2) a d : S2x512x512.Idx) ∉ r1.set := by
  rw [Rect.mem_set_unit]
  intro h
  have h0 := (h 0).1
  change 1 ≤ 0 at h0
  omega

/-- Row 1 of the block is off the rectangle at row 0. -/
theorem not_mem0 (y : S1x512x512.Idx) : r1.idx y ∉ r0.set := by
  rw [Rect.mem_set_unit]
  intro h
  have h0 := (h 0).2
  change 1 + 1 * (y 0).val < 0 + 1 at h0
  omega

/-- Two slab stores over anything: row 0 of the block reads the store at slab 0, row 1 the store at slab 1. -/
theorem canon_row0 (P7 P6 : FVec F S1x512x512 .f32) (L : List (View.Piece (Elt F) S2x512x512 .f32)) (a d : Fin 512) :
    View.canon ((⟨r1, P7⟩ : View.Piece (Elt F) S2x512x512 .f32) :: ⟨r0, P6⟩ :: L) (ix3 (0 : Fin 2) a d) = P6 (ix3 (0 : Fin 1) a d) := by
  rw [View.canon_cons_of_not_mem (⟨r1, P7⟩ : View.Piece (Elt F) S2x512x512 .f32) (⟨r0, P6⟩ :: L) (not_mem1 a d), ← emb0 a d]
  exact View.canon_cons_emb r0 P6 L (ix3 (0 : Fin 1) a d)
theorem canon_row1 (P7 : FVec F S1x512x512 .f32) (L : List (View.Piece (Elt F) S2x512x512 .f32)) (a d : Fin 512) :
    View.canon ((⟨r1, P7⟩ : View.Piece (Elt F) S2x512x512 .f32) :: L) (ix3 (1 : Fin 2) a d) = P7 (ix3 (0 : Fin 1) a d) := by
  rw [← emb1 a d]
  exact View.canon_cons_emb r1 P7 L (ix3 (0 : Fin 1) a d)

/-- After the reset, the load of slab 0 reads zeros. -/
theorem readZ0 (v : View sig .tc .vmem S2x512x512 .f32) :
    v.readCov [(⟨rW, k0_pay2 (F := F)⟩ : View.Piece (Elt F) S2x512x512 .f32)] r0.toLoadRect = zslab := by
  rw [View.readCov_eq_canon_ld v [(⟨rW, k0_pay2 (F := F)⟩ : View.Piece (Elt F) S2x512x512 .f32)] r0
      (fun y => ⟨_, List.mem_singleton_self _, View.mem_set_unit_zero (S := S2x512x512) hz3 inb_S2x512x512_S2x512x512_0_0_0 y⟩),
    View.canon_unit_zero (S := S2x512x512) hz3 inb_S2x512x512_S2x512x512_0_0_0]
  rfl

/-- After the reset and the store of slab 0, the load of slab 1 still reads zeros. -/
theorem readZ1 (v : View sig .tc .vmem S2x512x512 .f32) (P : FVec F S1x512x512 .f32) :
    v.readCov [(⟨r0, P⟩ : View.Piece (Elt F) S2x512x512 .f32), ⟨rW, k0_pay2 (F := F)⟩] r1.toLoadRect = zslab := by
  rw [View.readCov_eq_canon_ld v [(⟨r0, P⟩ : View.Piece (Elt F) S2x512x512 .f32), ⟨rW, k0_pay2 (F := F)⟩] r1
      (fun y => ⟨_, List.mem_cons_of_mem _ (List.mem_singleton_self _), View.mem_set_unit_zero (S := S2x512x512) hz3 inb_S2x512x512_S2x512x512_0_0_0 y⟩)]
  funext y
  show View.canon [(⟨r0, P⟩ : View.Piece (Elt F) S2x512x512 .f32), ⟨rW, k0_pay2 (F := F)⟩] (r1.idx y) = _
  rw [View.canon_cons_of_not_mem (⟨r0, P⟩ : View.Piece (Elt F) S2x512x512 .f32) [⟨rW, k0_pay2 (F := F)⟩] (not_mem0 y),
    View.canon_unit_zero (S := S2x512x512) hz3 inb_S2x512x512_S2x512x512_0_0_0]
  rfl

/-- CASE B, the sums: slab `w` of the block leaves what it held plus the product with modality `w`'s features. -/
theorem outB3 (c : Dev nD) (i : grid0.Coords) (a1 : Memref sig .tc .vmem S512x1 .i32) (h1 : a1.IsWhole) (a2 : Memref sig .tc .vmem S512x512 .f32) (h2 : a2.IsWhole) (a3 : Memref sig .tc .vmem S512x512 .f32) (h3 : a3.IsWhole) (a4 : Memref sig .tc .vmem S2x512x512 .f32) (h4 : a4.IsWhole) (a5 : Memref sig .tc .vmem S1x512 .f32) (h5 : a5.IsWhole) (hc : ¬cond0_0 i)
    (x0 : Vec F S512x1 .i32) (x1 : Vec F S512x512 .f32) (x2 : Vec F S512x512 .f32) (xo3 : Vec F S2x512x512 .f32) (xo4 : Vec F S1x512 .f32) (a d : Fin 512) :
    out0_B_3 c i a1 h1 a2 h2 a3 h3 a4 h4 a5 h5 hc x0 x1 x2 xo3 xo4 (ix3 (0 : Fin 2) a d) = k0_pay6 x0 x1 (slab0 xo3) (ix3 (0 : Fin 1) a d)
    ∧ out0_B_3 c i a1 h1 a2 h2 a3 h3 a4 h4 a5 h5 hc x0 x1 x2 xo3 xo4 (ix3 (1 : Fin 2) a d) = k0_pay7 x0 x2 (slab1 xo3) (ix3 (0 : Fin 1) a d) := by
  unfold out0_B_3
  rw [View.read_writes_eq_canon _ _ _ (cover0_B_3 c i a1 h1 a2 h2 a3 h3 a4 h4 a5 h5 hc x0 x1 x2 xo3 xo4)]
  unfold kernelRun0_B
  dsimp only
  sl_unfold_words
  simp only [View.readAt_eq_ld, h1.read_unread, h2.read_unread, h3.read_unread, h4.read_unread, View.ld_unit_zero (S := S512x1) hz2, View.ld_unit_zero (S := S512x512) hz2]
  exact ⟨canon_row0 _ _ _ a d, canon_row1 _ _ a d⟩

/-- CASE A, the sums: the block is reset, then slab `w` leaves zero plus the product with modality `w`'s features. -/
theorem outA3 (c : Dev nD) (i : grid0.Coords) (a1 : Memref sig .tc .vmem S512x1 .i32) (h1 : a1.IsWhole) (a2 : Memref sig .tc .vmem S512x512 .f32) (h2 : a2.IsWhole) (a3 : Memref sig .tc .vmem S512x512 .f32) (h3 : a3.IsWhole) (a4 : Memref sig .tc .vmem S2x512x512 .f32) (h4 : a4.IsWhole) (a5 : Memref sig .tc .vmem S1x512 .f32) (h5 : a5.IsWhole) (hc : cond0_0 i)
    (x0 : Vec F S512x1 .i32) (x1 : Vec F S512x512 .f32) (x2 : Vec F S512x512 .f32) (a d : Fin 512) :
    out0_A_3 c i a1 h1 a2 h2 a3 h3 a4 h4 a5 h5 hc x0 x1 x2 (ix3 (0 : Fin 2) a d) = k0_pay6 x0 x1 zslab (ix3 (0 : Fin 1) a d)
    ∧ out0_A_3 c i a1 h1 a2 h2 a3 h3 a4 h4 a5 h5 hc x0 x1 x2 (ix3 (1 : Fin 2) a d) = k0_pay7 x0 x2 zslab (ix3 (0 : Fin 1) a d) := by
  unfold out0_A_3
  rw [View.read_writes_eq_canon _ _ _ (cover0_A_3 c i a1 h1 a2 h2 a3 h3 a4 h4 a5 h5 hc x0 x1 x2)]
  unfold kernelRun0_A
  dsimp only
  sl_unfold_words
  simp only [View.readAt_eq_ld, h1.read_unread, h2.read_unread, h3.read_unread, View.ld_unit_zero (S := S512x1) hz2, View.ld_unit_zero (S := S512x512) hz2]
  rw [readZ0 a4.view]
  rw [readZ1 a4.view]
  exact ⟨canon_row0 _ _ _ a d, canon_row1 _ _ a d⟩

end Pieces

section Payloads

/-- The indicator block at (row `r`, label `a`): one when row `r`'s label is the word `a`, zero otherwise. -/
theorem pay4_apply (x0 : Vec Ideal S512x1 .i32) (r a : Fin 512) :
    k0_pay4 (F := Ideal) x0 (ix2 r a) = if x0 (ix2 r (0 : Fin 1)) = BitVec.ofNat 32 a.val then (1 : EReal) else 0 := by
  have e1 : broadcastTo S512x512 (shapeCast S512x1 x0 shapeCasts_S512x1_S512x1) broadcasts_S512x1_S512x512 (ix2 r a) = x0 (ix2 r (0 : Fin 1)) := by
    rw [shapeCast_self]
    exact broadcastTo_apply x0 broadcasts_S512x1_S512x512 (ix2 r a) (ix2 r (0 : Fin 1)) (fun b => by
      match b with
      | ⟨0, _⟩ => rfl
      | ⟨1, _⟩ => rfl)
  have e2 : iota .tc S512x512 32 [1] iota_S512x512_d1_w32 (ix2 r a) = BitVec.ofNat 32 a.val :=
    iota_single_apply .tc S512x512 32 1 iota_S512x512_d1_w32 (ix2 r a)
  show ((((IntOp.cmpi .eq (broadcastTo S512x512 (shapeCast S512x1 x0 shapeCasts_S512x1_S512x1) broadcasts_S512x1_S512x512 (ix2 r a)) (iota .tc S512x512 32 [1] iota_S512x512_d1_w32 (ix2 r a))).setWidth 32).toInt : ℝ) : EReal) = _
  rw [e1, e2]
  by_cases h : x0 (ix2 r (0 : Fin 1)) = BitVec.ofNat 32 a.val
  · rw [if_pos h]; simp [IntOp.cmpi, h]
  · have hb : (x0 (ix2 r (0 : Fin 1)) == BitVec.ofNat 32 a.val) = false := beq_eq_false_iff_ne.mpr h
    rw [if_neg h]; simp [IntOp.cmpi, hb]

/-- The product's dimension numbers contract axis 0 of both operands; the free axis of the left operand is the result's axis 0, that of the right its axis 1. -/
theorem lhs_ax0 (j : S512x512.Idx) (q : dot_S512x512_S512x512_S512x512_0_0_1_1_n_n.contr.Idx) :
    (dot_S512x512_S512x512_S512x512_0_0_1_1_n_n.lhsIdx j q 0).val = (q ⟨0, by decide⟩).val :=
  dot_S512x512_S512x512_S512x512_0_0_1_1_n_n.lhsIdx_val_of_single rfl j q
theorem lhs_ax1 (j : S512x512.Idx) (q : dot_S512x512_S512x512_S512x512_0_0_1_1_n_n.contr.Idx) :
    (dot_S512x512_S512x512_S512x512_0_0_1_1_n_n.lhsIdx j q 1).val = (j 0).val := by
  unfold DotDims.lhsIdx
  rw [dif_neg (show ¬(1 : Fin S512x512.rank) ∈ dot_S512x512_S512x512_S512x512_0_0_1_1_n_n.lhsBatch by decide), dif_pos (show (1 : Fin S512x512.rank) ∈ dot_S512x512_S512x512_S512x512_0_0_1_1_n_n.lhsNonContracting by decide)]
  rfl
theorem rhs_ax0 (j : S512x512.Idx) (q : dot_S512x512_S512x512_S512x512_0_0_1_1_n_n.contr.Idx) :
    (dot_S512x512_S512x512_S512x512_0_0_1_1_n_n.rhsIdx j q 0).val = (q ⟨0, by decide⟩).val :=
  dot_S512x512_S512x512_S512x512_0_0_1_1_n_n.rhsIdx_val_of_single rfl j q
theorem rhs_ax1 (j : S512x512.Idx) (q : dot_S512x512_S512x512_S512x512_0_0_1_1_n_n.contr.Idx) :
    (dot_S512x512_S512x512_S512x512_0_0_1_1_n_n.rhsIdx j q 1).val = (j 1).val := by
  unfold DotDims.rhsIdx
  rw [dif_neg (show ¬(1 : Fin S512x512.rank) ∈ dot_S512x512_S512x512_S512x512_0_0_1_1_n_n.rhsBatch by decide), dif_pos (show (1 : Fin S512x512.rank) ∈ dot_S512x512_S512x512_S512x512_0_0_1_1_n_n.rhsNonContracting by decide)]
  rfl

/-- The product into a zero accumulator at (label `a`, coordinate `d`): the sum over the block's rows of the left operand at
    (row, `a`) times the right operand at (row, `d`). -/
theorem mm_apply (L : FVec Ideal S512x512 .bf16) (R : FVec Ideal S512x512 .bf16) (a d : Fin 512) :
    matmul dot_S512x512_S512x512_S512x512_0_0_1_1_n_n none L R (constant S512x512 .f32 0x00000000#32) (ix2 a d)
      = ∑ r : Fin 512, L (ix2 r a) * R (ix2 r d) := by
  simp only [matmul]
  rw [Ideal.matmul_constant_zero_apply, ← Equiv.sum_comp (ValueIdx.contrEquiv1 dot_S512x512_S512x512_S512x512_0_0_1_1_n_n 512 rfl rfl).symm]
  refine Finset.sum_congr rfl fun r _ => ?_
  have hk := ValueIdx.contrEquiv1_symm_val dot_S512x512_S512x512_S512x512_0_0_1_1_n_n 512 rfl rfl r
  have el : dot_S512x512_S512x512_S512x512_0_0_1_1_n_n.lhsIdx (ix2 a d) ((ValueIdx.contrEquiv1 dot_S512x512_S512x512_S512x512_0_0_1_1_n_n 512 rfl rfl).symm r) = ix2 r a := funext fun b => Fin.ext (by
    match b with
    | ⟨0, _⟩ => exact (lhs_ax0 _ _).trans hk
    | ⟨1, _⟩ => exact lhs_ax1 _ _)
  have er : dot_S512x512_S512x512_S512x512_0_0_1_1_n_n.rhsIdx (ix2 a d) ((ValueIdx.contrEquiv1 dot_S512x512_S512x512_S512x512_0_0_1_1_n_n 512 rfl rfl).symm r) = ix2 r d := funext fun b => Fin.ext (by
    match b with
    | ⟨0, _⟩ => exact (rhs_ax0 _ _).trans hk
    | ⟨1, _⟩ => exact rhs_ax1 _ _)
  rw [el, er]

/-- Dropping the leading unit axis of a slab index. -/
theorem tail3 (a d : Fin 512) : (fun b : Fin 2 => (ix3 (0 : Fin 1) a d : S1x512x512.Idx) b.succ) = (ix2 a d : S512x512.Idx) :=
  funext fun b => by
    match b with
    | ⟨0, _⟩ => rfl
    | ⟨1, _⟩ => rfl
theorem cons3 (a d : Fin 512) : (Fin.cons ⟨0, Nat.one_pos⟩ (ix2 a d : S512x512.Idx) : S1x512x512.Idx) = ix3 (0 : Fin 1) a d :=
  funext fun b => by
    match b with
    | ⟨0, _⟩ => rfl
    | ⟨1, _⟩ => rfl
    | ⟨2, _⟩ => rfl

/-- One accumulation of a slab, at (label `a`, coordinate `d`): what the slab held there plus the sum over the block's rows of
    the indicator at (row, `a`) times the feature at (row, `d`). -/
theorem acc_apply (x0 : Vec Ideal S512x1 .i32) (x : Vec Ideal S512x512 .f32) (v : Vec Ideal S1x512x512 .f32) (a d : Fin 512) :
    shapeCast S1x512x512 (addf (shapeCast S512x512 v shapeCasts_S1x512x512_S512x512)
        (matmul dot_S512x512_S512x512_S512x512_0_0_1_1_n_n none (k0_pay5 (F := Ideal) x0) (truncf .bf16 x bitsLt_bf16_f32) (constant S512x512 .f32 0x00000000#32)))
      shapeCasts_S512x512_S1x512x512 (ix3 (0 : Fin 1) a d)
      = v (ix3 (0 : Fin 1) a d) + ∑ r : Fin 512, (if x0 (ix2 r (0 : Fin 1)) = BitVec.ofNat 32 a.val then (1 : EReal) else 0) * x (ix2 r d) := by
  refine (shapeCast_addUnit_apply ![512, 512] _ shapeCasts_S512x512_S1x512x512 (ix3 (0 : Fin 1) a d)).trans ?_
  rw [tail3 a d]
  show shapeCast S512x512 v shapeCasts_S1x512x512_S512x512 (ix2 a d) + matmul dot_S512x512_S512x512_S512x512_0_0_1_1_n_n none (k0_pay5 (F := Ideal) x0) (truncf .bf16 x bitsLt_bf16_f32) (constant S512x512 .f32 0x00000000#32) (ix2 a d) = _
  rw [mm_apply, shapeCast_dropUnit_apply ![512, 512] v shapeCasts_S1x512x512_S512x512 (ix2 a d), cons3 a d]
  refine congrArg (v (ix3 (0 : Fin 1) a d) + ·) (Finset.sum_congr rfl fun r _ => ?_)
  show k0_pay4 (F := Ideal) x0 (ix2 r a) * x (ix2 r d) = _
  rw [pay4_apply]

theorem pay6_apply (x0 : Vec Ideal S512x1 .i32) (x : Vec Ideal S512x512 .f32) (v : Vec Ideal S1x512x512 .f32) (a d : Fin 512) :
    k0_pay6 (F := Ideal) x0 x v (ix3 (0 : Fin 1) a d)
      = v (ix3 (0 : Fin 1) a d) + ∑ r : Fin 512, (if x0 (ix2 r (0 : Fin 1)) = BitVec.ofNat 32 a.val then (1 : EReal) else 0) * x (ix2 r d) :=
  acc_apply x0 x v a d
theorem pay7_apply (x0 : Vec Ideal S512x1 .i32) (x : Vec Ideal S512x512 .f32) (v : Vec Ideal S1x512x512 .f32) (a d : Fin 512) :
    k0_pay7 (F := Ideal) x0 x v (ix3 (0 : Fin 1) a d)
      = v (ix3 (0 : Fin 1) a d) + ∑ r : Fin 512, (if x0 (ix2 r (0 : Fin 1)) = BitVec.ofNat 32 a.val then (1 : EReal) else 0) * x (ix2 r d) :=
  acc_apply x0 x v a d

end Payloads

section Blocks

/-- At point `t` each input window sits at row block `t`, column block 0. -/
theorem idx_in : ∀ t : Fin cfg0.N, (win0_0.index t 0 = t.val ∧ win0_0.index t 1 = 0)
    ∧ (win0_1.index t 0 = t.val ∧ win0_1.index t 1 = 0) ∧ (win0_2.index t 0 = t.val ∧ win0_2.index t 1 = 0) :=
  (by decide +kernel : ∀ t : Fin grid0.N, (win0_0.index t 0 = t.val ∧ win0_0.index t 1 = 0)
    ∧ (win0_1.index t 0 = t.val ∧ win0_1.index t 1 = 0) ∧ (win0_2.index t 0 = t.val ∧ win0_2.index t 1 = 0))

/-- The three input blocks of point `t`, at their literal types: the labels and the two modalities' features. -/
abbrev lblk (c : Dev nD) (t : Fin cfg0.N) : Vec Ideal S512x1 .i32 := iblk0 V c 0 t
abbrev fblk0 (c : Dev nD) (t : Fin cfg0.N) : Vec Ideal S512x512 .f32 := iblk0 V c 1 t
abbrev fblk1 (c : Dev nD) (t : Fin cfg0.N) : Vec Ideal S512x512 .f32 := iblk0 V c 2 t

/-- Row `r` of block `t` is sample `512 t + r`. -/
theorem lblk_apply (c : Dev nD) (t : Fin cfg0.N) (r : Fin 512) :
    lblk V c t (ix2 r (0 : Fin 1)) = Tof V c (row t.val r) := by
  obtain ⟨⟨h0, h1⟩, -, -⟩ := idx_in t
  have hN : t.val < 8 := lt_of_lt_of_eq t.isLt (show cfg0.N = 8 from N_0)
  unfold lblk iblk0
  rw [View.read_apply]
  show V c main_v0 _ = V c main_v0 _
  congr 1
  funext b
  apply Fin.ext
  match b with
  | ⟨0, _⟩ => show win0_0.index t 0 * 512 + 1 * r.val = (512 * t.val + r.val) % 4096; rw [h0]; omega
  | ⟨1, _⟩ => show win0_0.index t 1 * 1 + 1 * 0 = 0; rw [h1]
theorem fblk0_apply (c : Dev nD) (t : Fin cfg0.N) (r d : Fin 512) :
    fblk0 V c t (ix2 r d) = Arr.arg0 V c (ix2 (row t.val r) d) := by
  obtain ⟨-, ⟨h0, h1⟩, -⟩ := idx_in t
  have hN : t.val < 8 := lt_of_lt_of_eq t.isLt (show cfg0.N = 8 from N_0)
  unfold fblk0 iblk0
  rw [View.read_apply]
  show V c main_arg0 _ = V c main_arg0 _
  congr 1
  funext b
  apply Fin.ext
  match b with
  | ⟨0, _⟩ => show win0_1.index t 0 * 512 + 1 * r.val = (512 * t.val + r.val) % 4096; rw [h0]; omega
  | ⟨1, _⟩ => show win0_1.index t 1 * 512 + 1 * d.val = d.val; rw [h1]; omega
theorem fblk1_apply (c : Dev nD) (t : Fin cfg0.N) (r d : Fin 512) :
    fblk1 V c t (ix2 r d) = Arr.arg1 V c (ix2 (row t.val r) d) := by
  obtain ⟨-, -, ⟨h0, h1⟩⟩ := idx_in t
  have hN : t.val < 8 := lt_of_lt_of_eq t.isLt (show cfg0.N = 8 from N_0)
  unfold fblk1 iblk0
  rw [View.read_apply]
  show V c main_arg1 _ = V c main_arg1 _
  congr 1
  funext b
  apply Fin.ext
  match b with
  | ⟨0, _⟩ => show win0_2.index t 0 * 512 + 1 * r.val = (512 * t.val + r.val) % 4096; rw [h0]; omega
  | ⟨1, _⟩ => show win0_2.index t 1 * 512 + 1 * d.val = d.val; rw [h1]; omega

/-- Block `t`'s term of a label's sum, per modality: the block's indicator column times its feature column is the samples'. -/
theorem term0 (c : Dev nD) (t : Fin cfg0.N) (a d : Fin 512) :
    ∑ r : Fin 512, (if lblk V c t (ix2 r (0 : Fin 1)) = BitVec.ofNat 32 a.val then (1 : EReal) else 0) * fblk0 V c t (ix2 r d)
      = ∑ r : Fin 512, oh (Tof V c) (row t.val r) a * Xof V c 0 (row t.val r) d :=
  Finset.sum_congr rfl fun r _ => by rw [lblk_apply, fblk0_apply]; rfl
theorem term1 (c : Dev nD) (t : Fin cfg0.N) (a d : Fin 512) :
    ∑ r : Fin 512, (if lblk V c t (ix2 r (0 : Fin 1)) = BitVec.ofNat 32 a.val then (1 : EReal) else 0) * fblk1 V c t (ix2 r d)
      = ∑ r : Fin 512, oh (Tof V c) (row t.val r) a * Xof V c 1 (row t.val r) d :=
  Finset.sum_congr rfl fun r _ => by rw [lblk_apply, fblk1_apply]; rfl

end Blocks

section Accumulation

/-- THE INVARIANT. After block `n` the carried sums block holds, at (modality `w`, label `a`, coordinate `d`), the sum over the
    blocks `0 … n` and their rows of the indicator times the feature: block 0 adds its product to the zeros of the reset, every
    later block to what the block before left. -/
theorem sums_inv (c : Dev nD) : ∀ (n : ℕ) (hn : n < cfg0.N) (w : Fin 2) (a d : Fin 512),
    (outsAt0 V c n hn).1 (ix3 w a d)
      = ∑ k ∈ Finset.range (n + 1), ∑ r : Fin 512, oh (Tof V c) (row k r) a * Xof V c w (row k r) d
  | 0, hn, w, a, d => by
    rw [outsAt0_A V c ⟨0, hn⟩ rfl]
    dsimp only
    rw [Finset.sum_range_one]
    have hA := outA3 (F := Ideal) c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) (ms0_3 ⟨0, hn⟩) (hs0_3 ⟨0, hn⟩) (ms0_4 ⟨0, hn⟩) (hs0_4 ⟨0, hn⟩)
      ((hcond0_0 ⟨0, hn⟩).mpr rfl) (lblk V c ⟨0, hn⟩) (fblk0 V c ⟨0, hn⟩) (fblk1 V c ⟨0, hn⟩) a d
    match w with
    | ⟨0, _⟩ =>
      refine hA.1.trans ?_
      rw [pay6_apply]
      show Ideal.ofBits .f32 0x00000000#32 + _ = _
      rw [Ideal.ofBits_zero_f32, zero_add]
      exact term0 V c ⟨0, hn⟩ a d
    | ⟨1, _⟩ =>
      refine hA.2.trans ?_
      rw [pay7_apply]
      show Ideal.ofBits .f32 0x00000000#32 + _ = _
      rw [Ideal.ofBits_zero_f32, zero_add]
      exact term1 V c ⟨0, hn⟩ a d
  | n + 1, hn, w, a, d => by
    have hN : cfg0.N = 8 := N_0
    have hB : ¬(⟨n + 1, hn⟩ : Fin cfg0.N).val % 8 = 0 := by dsimp only; omega
    have ih := sums_inv c n (Nat.lt_of_succ_lt hn)
    rw [outsAt0_B V c ⟨n + 1, hn⟩ hB]
    dsimp only
    rw [Finset.sum_range_succ]
    have hBp := outB3 (F := Ideal) c (grid0.coords ⟨n + 1, hn⟩) (ms0_0 ⟨n + 1, hn⟩) (hs0_0 ⟨n + 1, hn⟩) (ms0_1 ⟨n + 1, hn⟩) (hs0_1 ⟨n + 1, hn⟩)
      (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩)
      (fun h => hB ((hcond0_0 ⟨n + 1, hn⟩).mp h)) (lblk V c ⟨n + 1, hn⟩) (fblk0 V c ⟨n + 1, hn⟩) (fblk1 V c ⟨n + 1, hn⟩)
      (outsAt0 V c n (Nat.lt_of_succ_lt hn)).1 (outsAt0 V c n (Nat.lt_of_succ_lt hn)).2 a d
    match w with
    | ⟨0, _⟩ =>
      refine hBp.1.trans ?_
      rw [pay6_apply]
      show (outsAt0 V c n (Nat.lt_of_succ_lt hn)).1 (r0.emb (ix3 (0 : Fin 1) a d)) + _ = _
      rw [emb0 a d, ih 0 a d, term0 V c ⟨n + 1, hn⟩ a d]
      rfl
    | ⟨1, _⟩ =>
      refine hBp.2.trans ?_
      rw [pay7_apply]
      show (outsAt0 V c n (Nat.lt_of_succ_lt hn)).1 (r1.emb (ix3 (0 : Fin 1) a d)) + _ = _
      rw [emb1 a d, ih 1 a d, term1 V c ⟨n + 1, hn⟩ a d]
      rfl

end Accumulation

section Final

/-- What the sums array holds after the last block: the carried block as the eighth point leaves it. -/
abbrev result (c : Dev nD) : Buf (Elt Ideal) ((c : Thread nD τ).loc main_v1_0) :=
  (outsAt0 V c 7 (by rw [show cfg0.N = 8 from N_0]; decide)).1

/-- The sums window's one block is the whole array: at the last point it sits at offset zero with the array's own extents. -/
theorem blk3 : ∀ a : Fin 3, win0_3.index t0_7 a * win0_3.size a = 0 ∧ win0_3.xsize (grid0.coords t0_7) a = S2x512x512.size a := by
  decide +kernel

/-- The one write-back, at the last point, writes the carried block as that point leaves it. -/
theorem flushed_eq (c : Dev nD) (t : Fin cfg0.N) (hf : (cfg0.win 3).flush t = true) :
    (dat0 V c).flushed 3 t = ((cfg0.win 3).blk t).view.read (Elt Ideal) (result V c) := by
  have hN : cfg0.N = 8 := N_0
  have h7 : t.val = 7 := by have := (flush0_3 t).mp hf; have := t.isLt; omega
  obtain rfl : t = t0_7 := Fin.ext h7
  show (cfg0.win 3).cut (grid0.coords t0_7) ((dat0 V c).after 3 t0_7) = _
  rw [after0_3]
  have hz' : (fun a => win0_3.index t0_7 a * main_v1_0.ty.shape.size a) = fun _ => 0 := funext fun a => (blk3 a).1
  exact (Memref.read_access_unit_zero (Elt Ideal) main_v1_0 hz' (fun a => by rw [congrFun hz' a]; simp) (result V c)).symm

/-- So the sums array ends holding it: the last point's block covers every index. -/
theorem final_sums (c : Dev nD) : (dat0 V c).arrAt 3 cfg0.N = result V c :=
  (dat0 V c).arrAt_eq_of_cover 3 (result V c) (flushed_eq V c) fun i =>
    ⟨t0_7, (flush0_3 t0_7).mpr rfl, by
      show i ∈ ((View.whole main_v1_0).slice (win0_3.rect t0_7)).set
      rw [View.set_slice_whole, Rect.mem_set_unit]
      intro a
      obtain ⟨e0, e1⟩ := blk3 a
      show win0_3.index t0_7 a * win0_3.size a ≤ (i a : ℕ) ∧ (i a : ℕ) < win0_3.index t0_7 a * win0_3.size a + win0_3.xsize (grid0.coords t0_7) a
      rw [e0, e1]
      exact ⟨Nat.zero_le _, by rw [Nat.zero_add]; exact (i a).isLt⟩⟩

end Final

end Sums

/-- After the last block the sums array holds the per-label sums of feature rows. -/
theorem sums_final (c : Dev nD) (w : Fin 2) (a d : Fin 512) :
    Arr.sumsOut V c (ix3 w a d) = sumK (Tof V c) (Xof V c) w a d := by
  refine (congrFun (Sums.final_sums V c) (ix3 w a d)).trans ?_
  exact Sums.sums_inv V c 7 _ w a d

end Cert.KernelIdeal.SumsValue

end
-- ==== Proof.KCnt.lean ====
/-
  What the first kernel region leaves in its counts array: for every label `a` below 512 the number
  of samples carrying `a`. The region walks the 4096 samples in eight blocks of 512 rows; at each
  block it adds to what the block before left the column sums of the block's indicator matrix
  (sample × label); at the first block it starts from zero.
-/
import proofs.«412364_j36618891166027_3_alg».proof.Proof.Gen.KernelIdeal.Frame
import proofs.«412364_j36618891166027_3_alg».proof.Proof.KArrays
import proofs.«412364_j36618891166027_3_alg».proof.Proof.Spec
import Idealize.ShloMosaic.Lib.ValueIdx
import Idealize.ShloMosaic.Lib.Pipeline.Value
import Idealize.ShloMosaic.PureOps.Ideal.Laws
import Idealize.ShloMosaic.Lib.Tactic
import Idealize.ShloMosaic.Lib.ValueLayout

noncomputable section

namespace Cert.KernelIdeal.CntValue

open Idealize.ShloMosaic Idealize.ShloMosaic.TcCoe Idealize.SL.Sem Idealize.ShloMosaic.ValueIdx
open Cert.KernelIdeal Cert.KernelIdeal.Gen Cert.ClassPair

section Pieces
variable {F : FTy → Type} [FloatOps F]

/-- The zero offsets of a whole-block access. -/
theorem hz : (![0, 0] : Fin 2 → Nat) = fun _ => 0 := funext fun a => by fin_cases a <;> rfl

/-- At a point after the first the body leaves, in the counts block holding `xo4`, the block plus
    the column sums of the indicator matrix of the labels block `x0`. -/
theorem out_B (c : Dev nD) (i : grid0.Coords) (a1 : Memref sig .tc .vmem S512x1 .i32) (h1 : a1.IsWhole)
    (a2 : Memref sig .tc .vmem S512x512 .f32) (h2 : a2.IsWhole) (a3 : Memref sig .tc .vmem S512x512 .f32) (h3 : a3.IsWhole)
    (a4 : Memref sig .tc .vmem S2x512x512 .f32) (h4 : a4.IsWhole) (a5 : Memref sig .tc .vmem S1x512 .f32) (h5 : a5.IsWhole)
    (hc : ¬cond0_0 i) (x0 : Vec F S512x1 .i32) (x1 : Vec F S512x512 .f32) (x2 : Vec F S512x512 .f32)
    (xo3 : Vec F S2x512x512 .f32) (xo4 : Vec F S1x512 .f32) :
    out0_B_4 c i a1 h1 a2 h2 a3 h3 a4 h4 a5 h5 hc x0 x1 x2 xo3 xo4 = k0_pay1 (k0_pay8 xo4) (k0_pay9 x0) := by
  unfold out0_B_4
  rw [View.read_writes_eq_canon _ _ _ (cover0_B_4 c i a1 h1 a2 h2 a3 h3 a4 h4 a5 h5 hc x0 x1 x2 xo3 xo4)]
  unfold kernelRun0_B
  dsimp only
  sl_unfold_words
  rw [View.canon_unit_zero hz]
  simp only [View.readAt_eq_ld, h5.read_unread, h1.read_unread, View.ld_unit_zero (S := S1x512) hz, View.ld_unit_zero (S := S512x1) hz]

/-- At the first point the body first stores the zero block, reads it back, and leaves zero plus
    the column sums of the indicator matrix of the labels block `x0`. -/
theorem out_A (c : Dev nD) (i : grid0.Coords) (a1 : Memref sig .tc .vmem S512x1 .i32) (h1 : a1.IsWhole)
    (a2 : Memref sig .tc .vmem S512x512 .f32) (h2 : a2.IsWhole) (a3 : Memref sig .tc .vmem S512x512 .f32) (h3 : a3.IsWhole)
    (a4 : Memref sig .tc .vmem S2x512x512 .f32) (h4 : a4.IsWhole) (a5 : Memref sig .tc .vmem S1x512 .f32) (h5 : a5.IsWhole)
    (hc : cond0_0 i) (x0 : Vec F S512x1 .i32) (x1 : Vec F S512x512 .f32) (x2 : Vec F S512x512 .f32) :
    out0_A_4 c i a1 h1 a2 h2 a3 h3 a4 h4 a5 h5 hc x0 x1 x2 = k0_pay1 (k0_pay8 k0_pay3) (k0_pay9 x0) := by
  unfold out0_A_4
  rw [View.read_writes_eq_canon _ _ _ (cover0_A_4 c i a1 h1 a2 h2 a3 h3 a4 h4 a5 h5 hc x0 x1 x2)]
  unfold kernelRun0_A
  dsimp only
  sl_unfold_words
  rw [View.canon_cons_unit_zero (S := S1x512) hz, View.readCov_unit_zero (S := S1x512) _ hz]
  simp only [View.readAt_eq_ld, h1.read_unread, View.ld_unit_zero (S := S512x1) hz]

end Pieces

section Payload

/-- The word of a comparison for equality, widened and read as a signed integer, is 1 where the
    two words agree and 0 where they differ. -/
theorem onehot_scalar (u v : BitVec 32) :
    FloatOps.sitofp (F := Ideal) .f32 ((IntOp.cmpi .eq u v).setWidth 32) = if u = v then (1 : EReal) else 0 := by
  show (((((IntOp.cmpi .eq u v).setWidth 32).toInt : ℤ) : ℝ) : EReal) = _
  by_cases h : u = v
  · rw [IntOp.cmpi_eq.2 h, if_pos h]
    norm_num
  · rw [eq_zero_of_ne_one (fun h' => h (IntOp.cmpi_eq.1 h')), if_neg h]
    norm_num

/-- The index that the sum over the rows inserts at the label a is (row, a). -/
theorem lift_eq (a r : Fin 512) : reduces_S512x512_S512.lift (ix1 a) r = ix2 r a := by
  funext b
  match b with
  | ⟨0, _⟩ => exact Fin.ext rfl
  | ⟨1, _⟩ => exact Fin.ext rfl

/-- The stored block at the label a: the carried value plus the number of rows of the labels block
    that carry a (the indicator is the comparison of the row's label, broadcast along the lanes,
    with the lane number; the sum runs over the rows). -/
theorem pay_apply (xo : Vec Ideal S1x512 .f32) (x0 : Vec Ideal S512x1 .i32) (a : Fin 512) :
    k0_pay1 (F := Ideal) (k0_pay8 xo) (k0_pay9 x0) (ix2 0 a)
      = xo (ix2 0 a) + ∑ r : Fin 512, (if x0 (ix2 r 0) = BitVec.ofNat 32 a.val then (1 : EReal) else 0) := by
  unfold k0_pay1 k0_pay8 k0_pay9 k0_pay4
  dsimp only
  refine (addf_apply _ _ _).trans ?_
  refine congrArg₂ (fun p q : EReal => p + q) ?_ ?_
  · exact congrFun (shapeCast_self xo shapeCasts_S1x512_S1x512) (ix2 0 a)
  · refine (shapeCast_a_1a_apply _ shapeCasts_S512_S1x512 0 a).trans ?_
    refine (Ideal.multiReduction_add_single (φ := .f32) _ _ reduces_S512x512_S512 _ _ (ix1 a)).trans ?_
    refine Finset.sum_congr rfl fun r _ => ?_
    have hB : broadcastTo S512x512 (shapeCast S512x1 x0 shapeCasts_S512x1_S512x1) broadcasts_S512x1_S512x512 (ix2 r a)
        = x0 (ix2 r 0) :=
      (broadcastTo_apply _ broadcasts_S512x1_S512x512 (ix2 r a) (ix2 r 0)
        (fun b => by match b with | ⟨0, _⟩ => rfl | ⟨1, _⟩ => rfl)).trans
        (congrFun (shapeCast_self x0 shapeCasts_S512x1_S512x1) (ix2 r 0))
    have hI : iota Kind.tc S512x512 32 [1] iota_S512x512_d1_w32 (ix2 r a) = BitVec.ofNat 32 a.val :=
      iota_single_apply .tc S512x512 32 1 iota_S512x512_d1_w32 (ix2 r a)
    rw [lift_eq a r]
    show FloatOps.sitofp (F := Ideal) .f32 ((IntOp.cmpi .eq
      (broadcastTo S512x512 (shapeCast S512x1 x0 shapeCasts_S512x1_S512x1) broadcasts_S512x1_S512x512 (ix2 r a))
      (iota Kind.tc S512x512 32 [1] iota_S512x512_d1_w32 (ix2 r a))).setWidth 32) = _
    rw [hB, hI]
    exact onehot_scalar _ _

end Payload

variable (V : (c : Dev nD) → (b : Ref sig .tc) → Buf (Elt Ideal) ((c : Thread nD τ).loc b))

/-- The label column as the region finds it. -/
abbrev Tof (c : Dev nD) : Fin 4096 → BitVec 32 := fun i => Arr.v0 V c (ix2 i 0)

/-- The block of labels at a point, at its literal type. -/
abbrev lblk (c : Dev nD) (t : Fin cfg0.N) : Vec Ideal S512x1 .i32 := iblk0 V c 0 t

/-- The labels window's block index at point t is (t, 0). -/
theorem idx_facts : ∀ t : Fin cfg0.N, win0_0.index t 0 = t.val ∧ win0_0.index t 1 = 0 :=
  (by decide +kernel : ∀ t : Fin grid0.N, win0_0.index t 0 = t.val ∧ win0_0.index t 1 = 0)

/-- Row r of the block at point t is row 512·t + r of the label column. -/
theorem lblk_apply (c : Dev nD) (t : Fin cfg0.N) (r : Fin 512) :
    lblk V c t (ix2 r 0) = Tof V c (row t.val r) := by
  have hi := idx_facts t
  have hN : t.val < 8 := lt_of_lt_of_eq t.isLt (show cfg0.N = 8 from N_0)
  unfold lblk iblk0
  rw [View.read_apply]
  show V c main_v0 _ = V c main_v0 _
  congr 1
  funext b
  apply Fin.ext
  match b with
  | ⟨0, _⟩ =>
    show win0_0.index t 0 * 512 + 1 * r.val = (512 * t.val + r.val) % 4096
    rw [hi.1]; have := r.isLt; omega
  | ⟨1, _⟩ =>
    show win0_0.index t 1 * 1 + 1 * 0 = 0
    rw [hi.2]

/-- The zero block read at an index. -/
theorem pay3_apply (j : S1x512.Idx) : k0_pay3 (F := Ideal) j = 0 := by
  unfold k0_pay3
  exact Ideal.ofBits_zero_f32

/-- The column sum of a block's indicator matrix, over the label column. -/
theorem col_sum (c : Dev nD) (t : Fin cfg0.N) (a : Fin 512) :
    ∑ r : Fin 512, (if lblk V c t (ix2 r 0) = BitVec.ofNat 32 a.val then (1 : EReal) else 0)
      = ∑ r : Fin 512, oh (Tof V c) (row t.val r) a :=
  Finset.sum_congr rfl fun r _ => by rw [lblk_apply]; rfl

/-- After point n the carried block holds, at the label a, the column sums of the blocks 0 … n. -/
theorem outsAt_eq (c : Dev nD) (a : Fin 512) : ∀ (n : ℕ) (h : n < cfg0.N),
    (outsAt0 V c n h).2 (ix2 0 a) = ∑ k ∈ Finset.range (n + 1), ∑ r : Fin 512, oh (Tof V c) (row k r) a
  | 0, h => by
    rw [outsAt0_A V c ⟨0, h⟩ rfl]
    dsimp only
    rw [out_A]
    refine (pay_apply (k0_pay3 (F := Ideal)) (lblk V c ⟨0, h⟩) a).trans ?_
    rw [pay3_apply, zero_add, col_sum, Finset.sum_range_one]
  | n + 1, h => by
    have hN : cfg0.N = 8 := N_0
    have hB : ¬(⟨n + 1, h⟩ : Fin cfg0.N).val % 8 = 0 := by dsimp only; omega
    rw [outsAt0_B V c ⟨n + 1, h⟩ hB]
    dsimp only
    rw [out_B]
    refine (pay_apply ((outsAt0 V c n (Nat.lt_of_succ_lt h)).2) (lblk V c ⟨n + 1, h⟩) a).trans ?_
    rw [outsAt_eq c a n (Nat.lt_of_succ_lt h), col_sum, Finset.sum_range_succ _ (n + 1)]

/-- The block the last point leaves. -/
abbrev result (c : Dev nD) : Buf (Elt Ideal) ((c : Thread nD τ).loc main_v1_1) :=
  (outsAt0 V c 7 (by rw [show cfg0.N = 8 from N_0]; decide)).2

/-- The one write-back, at the last point, writes that block: block (0, 0) of the one-block array
    read through zero offsets is the array. -/
theorem flushed_eq (c : Dev nD) (t : Fin cfg0.N) (hf : (cfg0.win 4).flush t = true) :
    (dat0 V c).flushed 4 t = ((cfg0.win 4).blk t).view.read (Elt Ideal) (result V c) := by
  have hN : cfg0.N = 8 := N_0
  have h7 : t.val = 7 := by have := (flush0_4 t).mp hf; have := t.isLt; omega
  obtain rfl : t = t0_7 := Fin.ext h7
  show (cfg0.win 4).cut (grid0.coords t0_7) ((dat0 V c).after 4 t0_7) = _
  rw [after0_4]
  have hz' : (fun a => win0_4.index t0_7 a * main_v1_1.ty.shape.size a) = fun _ => 0 :=
    funext fun a => by fin_cases a <;> decide
  exact (Memref.read_access_unit_zero (Elt Ideal) main_v1_1 hz' (fun a => by rw [congrFun hz' a]; simp) (result V c)).symm

/-- So the counts array ends holding the block the last point leaves. -/
theorem final_cnt (c : Dev nD) : (dat0 V c).arrAt 4 cfg0.N = result V c :=
  (dat0 V c).arrAt_eq_of_cover 4 (result V c) (flushed_eq V c) fun i =>
    ⟨t0_7, (flush0_4 t0_7).mpr rfl, by
      show i ∈ ((View.whole main_v1_1).slice (win0_4.rect t0_7)).set
      rw [View.set_slice_whole, Rect.mem_set_unit]
      intro b
      have h0 : (i 0 : Nat) < 1 := (i 0).isLt
      have h1 : (i 1 : Nat) < 512 := (i 1).isLt
      match b with
      | ⟨0, _⟩ =>
        show win0_4.index t0_7 0 * win0_4.size 0 ≤ (i 0 : Nat) ∧ (i 0 : Nat) < win0_4.index t0_7 0 * win0_4.size 0 + win0_4.xsize (grid0.coords t0_7) 0
        rw [show win0_4.index t0_7 0 * win0_4.size 0 = 0 from by decide +kernel, show win0_4.xsize (grid0.coords t0_7) 0 = 1 from by decide +kernel]; omega
      | ⟨1, _⟩ =>
        show win0_4.index t0_7 1 * win0_4.size 1 ≤ (i 1 : Nat) ∧ (i 1 : Nat) < win0_4.index t0_7 1 * win0_4.size 1 + win0_4.xsize (grid0.coords t0_7) 1
        rw [show win0_4.index t0_7 1 * win0_4.size 1 = 0 from by decide +kernel, show win0_4.xsize (grid0.coords t0_7) 1 = 512 from by decide +kernel]; omega⟩

/-- After the last block the counts array holds the per-label sample counts. -/
theorem cnt_final (c : Dev nD) (a : Fin 512) : Arr.cntOut V c (ix2 0 a) = cntK (Tof V c) a := by
  show (dat0 V c).arrAt 4 cfg0.N (ix2 0 a) = _
  rw [final_cnt V c]
  exact outsAt_eq V c a 7 _

end Cert.KernelIdeal.CntValue

end
-- ==== Proof.KLoss.lean ====
/-
  What the second kernel region leaves in its output array: for each modality `w` the sum over the
  512 × 512 class pairs `(a, b)` of the product of the two counts times the pair's term — the clamped
  squared distance between mean row `a` and centre `b` on the diagonal, the squared hinge of the
  distance off it — the squared norms read from the two precomputed vectors, the inner product
  taken in the region.
-/
import proofs.«412364_j36618891166027_3_alg».proof.Proof.Gen.KernelIdeal.Frame
import proofs.«412364_j36618891166027_3_alg».proof.Proof.KArrays
import proofs.«412364_j36618891166027_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.LossValue

open Idealize.ShloMosaic Idealize.ShloMosaic.TcCoe Idealize.SL.Sem Idealize.ShloMosaic.ValueIdx
open Cert.KernelIdeal Cert.KernelIdeal.Gen Cert.ClassPair

/-! ## Layout operations of the region at an index -/

/-- A column `[512, 1]` broadcast along the lanes reads, at `(a, b)`, the column at row `a`. -/
theorem bcast_col (v : S512x1.Idx → EReal) (h : S512x1.Broadcasts S512x512) (a b : Fin 512) :
    broadcastTo S512x512 v h (ix2 a b) = v (ix2 a (0 : Fin 1)) := by
  refine broadcastTo_apply v h (ix2 a b) (ix2 a (0 : Fin 1)) fun ax => ?_
  match ax with
  | ⟨0, _⟩ =>
    show a.val = if (512 : ℕ) = 1 then 0 else a.val
    rw [if_neg (by decide)]
  | ⟨1, _⟩ => rfl

/-- A vector `[512]` cast to a column `[512, 1]` reads, at `(a, u)`, the vector at `a`. -/
theorem cast_vec_col (v : S512.Idx → EReal) (h : S512.ShapeCasts S512x1) (a : Fin 512) (u : Fin 1) :
    shapeCast S512x1 v h (ix2 a u) = v (ix1 a) :=
  shapeCast_apply v h _ _ (by
    have hu : u.val = 0 := by omega
    rw [Shape.rowMajor_val_two, Shape.rowMajor_val_one]
    show a.val = a.val * 1 + u.val
    rw [hu, Nat.mul_one, Nat.add_zero])

/-- A block `[1, 512, 1]` cast to a column `[512, 1]` reads, at `(a, u)`, the block at `(0, a, 0)`. -/
theorem cast_blk_col (v : S1x512x1.Idx → EReal) (h : S1x512x1.ShapeCasts S512x1) (a : Fin 512) (u : Fin 1) :
    shapeCast S512x1 v h (ix2 a u) = v (ix3 (0 : Fin 1) a (0 : Fin 1)) :=
  shapeCast_apply v h _ _ (by
    have hu : u.val = 0 := by omega
    rw [Shape.rowMajor_val_two, Shape.rowMajor_val_three]
    show (0 * 512 + a.val) * 1 + 0 = a.val * 1 + u.val
    rw [hu, Nat.zero_mul, Nat.zero_add])

/-! ## The inner product taken in the region -/

/-- The operand indices of the product at an output index `i` and a contraction position `q`: each operand is read at
    its own row (`i`'s first coordinate for the means, its second for the centres) and at lane `q`. -/
theorem lhs_dot_0 (i : S512x512.Idx) (q : dot_S512x512_S512x512_S512x512_1_1_0_0_n_n.contr.Idx) :
    (dot_S512x512_S512x512_S512x512_1_1_0_0_n_n.lhsIdx i q 0).val = (i 0).val := by
  unfold DotDims.lhsIdx
  rw [dif_neg (show ¬(0 : Fin S512x512.rank) ∈ dot_S512x512_S512x512_S512x512_1_1_0_0_n_n.lhsBatch by decide), dif_pos (show (0 : Fin S512x512.rank) ∈ dot_S512x512_S512x512_S512x512_1_1_0_0_n_n.lhsNonContracting by decide)]
  rfl
theorem lhs_dot_1 (i : S512x512.Idx) (q : dot_S512x512_S512x512_S512x512_1_1_0_0_n_n.contr.Idx) :
    (dot_S512x512_S512x512_S512x512_1_1_0_0_n_n.lhsIdx i q 1).val = (q ⟨0, by decide⟩).val :=
  dot_S512x512_S512x512_S512x512_1_1_0_0_n_n.lhsIdx_val_of_single rfl i q
theorem rhs_dot_0 (i : S512x512.Idx) (q : dot_S512x512_S512x512_S512x512_1_1_0_0_n_n.contr.Idx) :
    (dot_S512x512_S512x512_S512x512_1_1_0_0_n_n.rhsIdx i q 0).val = (i 1).val := by
  unfold DotDims.rhsIdx
  rw [dif_neg (show ¬(0 : Fin S512x512.rank) ∈ dot_S512x512_S512x512_S512x512_1_1_0_0_n_n.rhsBatch by decide), dif_pos (show (0 : Fin S512x512.rank) ∈ dot_S512x512_S512x512_S512x512_1_1_0_0_n_n.rhsNonContracting by decide)]
  rfl
theorem rhs_dot_1 (i : S512x512.Idx) (q : dot_S512x512_S512x512_S512x512_1_1_0_0_n_n.contr.Idx) :
    (dot_S512x512_S512x512_S512x512_1_1_0_0_n_n.rhsIdx i q 1).val = (q ⟨0, by decide⟩).val :=
  dot_S512x512_S512x512_S512x512_1_1_0_0_n_n.rhsIdx_val_of_single rfl i q

/-- The product of the mean rows with the centres, both contracted along the lanes, into a zero accumulator: at
    `(a, b)` the inner product of row `a` of the one with row `b` of the other. -/
theorem dot_rows_apply (L R : FVec Ideal S512x512 .bf16) (a b : Fin 512) :
    matmul dot_S512x512_S512x512_S512x512_1_1_0_0_n_n none L R (constant (F := Ideal) S512x512 .f32 0x00000000#32) (ix2 a b)
      = ∑ d : Fin 512, L (ix2 a d) * R (ix2 b d) := by
  simp only [matmul]
  rw [Ideal.matmul_constant_zero_apply, ← Equiv.sum_comp (ValueIdx.contrEquiv1 dot_S512x512_S512x512_S512x512_1_1_0_0_n_n 512 rfl rfl).symm]
  refine Finset.sum_congr rfl fun k _ => ?_
  have hk := ValueIdx.contrEquiv1_symm_val dot_S512x512_S512x512_S512x512_1_1_0_0_n_n 512 rfl rfl k
  have el : dot_S512x512_S512x512_S512x512_1_1_0_0_n_n.lhsIdx (ix2 a b) ((ValueIdx.contrEquiv1 dot_S512x512_S512x512_S512x512_1_1_0_0_n_n 512 rfl rfl).symm k) = ix2 a k := funext fun x => Fin.ext (by
    match x with
    | ⟨0, _⟩ => exact lhs_dot_0 _ _
    | ⟨1, _⟩ => exact (lhs_dot_1 _ _).trans hk)
  have er : dot_S512x512_S512x512_S512x512_1_1_0_0_n_n.rhsIdx (ix2 a b) ((ValueIdx.contrEquiv1 dot_S512x512_S512x512_S512x512_1_1_0_0_n_n 512 rfl rfl).symm k) = ix2 b k := funext fun x => Fin.ext (by
    match x with
    | ⟨0, _⟩ => exact rhs_dot_0 _ _
    | ⟨1, _⟩ => exact (rhs_dot_1 _ _).trans hk)
  rw [el, er]

/-! ## The two sums -/

/-- The sum along the lanes of a `[512, 512]` array, at row `a`. -/
theorem lane_sum_apply (v : FVec Ideal S512x512 .f32) (h : S512x512.Reduces [1] S512) (hφ : FKind.Formats .f32)
    (hacc : (0x00000000#32 : BitVec FTy.f32.bits) = FKind.add.neutral .f32 hφ) (a : Fin 512) :
    multiReduction (F := Ideal) .add [1] S512 v 0x00000000#32 h hφ hacc (ix1 a) = ∑ b : Fin 512, v (ix2 a b) :=
  (Ideal.multiReduction_add_single v _ h hφ hacc (ix1 a)).trans
    (Finset.sum_congr rfl fun b _ => congrArg v (funext fun x => match x with
      | ⟨0, _⟩ => rfl
      | ⟨1, _⟩ => rfl))

/-- The sum down the one column of a `[512, 1]` array. -/
theorem col_sum_apply (v : FVec Ideal S512x1 .f32) (h : S512x1.Reduces [0] S1) (hφ : FKind.Formats .f32)
    (hacc : (0x00000000#32 : BitVec FTy.f32.bits) = FKind.add.neutral .f32 hφ) (j : S1.Idx) :
    multiReduction (F := Ideal) .add [0] S1 v 0x00000000#32 h hφ hacc j = ∑ a : Fin 512, v (ix2 a (0 : Fin 1)) :=
  (Ideal.multiReduction_add_single v _ h hφ hacc j).trans
    (Finset.sum_congr rfl fun a _ => congrArg v (funext fun x => match x with
      | ⟨0, _⟩ => rfl
      | ⟨1, _⟩ => Fin.ext (by show (j 0).val = 0; have hj : (j 0).val < 1 := (j 0).isLt; omega)))

/-! ## The diagonal mask -/

/-- The comparison of the row number with the lane number is the bit of `a = b`. -/
theorem diag_mask_apply (h0 : S512x512.Iotas .tc 32 [0]) (h1 : S512x512.Iotas .tc 32 [1]) (a b : Fin 512) :
    cmpi .eq (iota .tc S512x512 32 [0] h0) (iota .tc S512x512 32 [1] h1) (ix2 a b) = if a = b then 1#1 else 0#1 := by
  show IntOp.cmpi .eq (iota .tc S512x512 32 [0] h0 (ix2 a b)) (iota .tc S512x512 32 [1] h1 (ix2 a b)) = _
  rw [iota_single_apply, iota_single_apply]
  show IntOp.cmpi .eq (BitVec.ofNat 32 a.val) (BitVec.ofNat 32 b.val) = _
  by_cases h : a = b
  · subst h; rw [if_pos rfl]; simp [IntOp.cmpi]
  · rw [if_neg h]
    have hne : BitVec.ofNat 32 a.val ≠ BitVec.ofNat 32 b.val := fun e => h (Fin.ext (by
      have e' := congrArg BitVec.toNat e
      simp only [BitVec.toNat_ofNat] at e'
      have ha := a.isLt; have hb := b.isLt; omega))
    show BitVec.ofBool (BitVec.ofNat 32 a.val == BitVec.ofNat 32 b.val) = 0#1
    rw [beq_eq_false_iff_ne.mpr hne]; rfl

/-! ## The region's payload at an index -/

theorem sqrt_apply {s : Shape} {φ : FTy} (x : FVec Ideal s φ) (i : s.Idx) : sqrt x i = Ideal.sqrt (x i) := rfl

/-- Row `a` of the per-row sums: over the classes `b`, the product of the two counts times the pair's term. -/
theorem row_sums_apply (x0 : Vec Ideal S1x512x512 .f32) (x1 : Vec Ideal S512x512 .f32) (x2 : Vec Ideal S1x512x1 .f32)
    (x3 : Vec Ideal S1x512 .f32) (x5 : Vec Ideal S512x1 .f32) (x4 : Vec Ideal S1x512 .f32) (a : Fin 512) (u : Fin 1) :
    k1_pay2 (F := Ideal) x0 x1 x2 x3 x5 x4 (ix2 a u)
      = ∑ b : Fin 512, (x5 (ix2 a (0 : Fin 1)) * x4 (ix2 (0 : Fin 1) b))
          * tile (a = b) (sqc (x2 (ix3 (0 : Fin 1) a (0 : Fin 1))) (x3 (ix2 (0 : Fin 1) b))
              (∑ d : Fin 512, x0 (ix3 (0 : Fin 1) a d) * x1 (ix2 b d))) := by
  unfold k1_pay2
  dsimp only
  refine (cast_vec_col _ _ a u).trans ?_
  refine (lane_sum_apply _ _ _ _ a).trans ?_
  refine Finset.sum_congr rfl fun b _ => ?_
  simp only [mulf_apply, select_apply, maximumf_apply, subf_apply, addf_apply, broadcast_apply, sqrt_apply,
    diag_mask_apply, bcast_col, broadcastTo_1b_ab_apply, cast_blk_col, shapeCast_self, dot_rows_apply, truncf_apply,
    shapeCast_1ab_ab_apply]
  refine congrArg (x5 (ix2 a (0 : Fin 1)) * x4 (ix2 (0 : Fin 1) b) * ·) ?_
  rw [diag_mask_apply]
  simp only [Ideal.ofBits_def, Ideal.ofBits_zero_f32]
  unfold tile sqc hinge
  by_cases h : a = b
  · rw [if_pos h, if_pos h, select_one]
  · rw [if_neg h, if_neg h, select_zero]

/-- The whole region's payload: the per-row sums added down the rows. -/
theorem total_apply (v : FVec Ideal S512x1 .f32) (j : S1x1x1.Idx) :
    k1_pay1 (F := Ideal) v j = ∑ a : Fin 512, v (ix2 a (0 : Fin 1)) := by
  unfold k1_pay1
  dsimp only
  unfold shapeCast
  exact col_sum_apply v _ _ _ _

/-! ## From the blocks to the arrays -/

variable (V : (c : Dev nD) → (b : Ref sig .tc) → Buf (Elt Ideal) ((c : Thread nD τ).loc b))

/-- The modality a grid point works on. -/
def wOf (t : Fin cfg1.N) : Fin 2 := ⟨t.val, Nat.lt_of_lt_of_eq t.isLt N_1⟩

/-- Where each window's block sits at point `t`: the three blocked windows move with the point along their leading axis,
    the whole-array windows stay. -/
theorem idx_facts : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 3) = t.val ∧ win1_2.index t (1 : Fin 3) = 0 ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 3) = t.val ∧ win1_6.index t (1 : Fin 3) = 0 ∧ win1_6.index t (2 : Fin 3) = 0 :=
  (by decide +kernel : ∀ t : Fin grid1.N, _)

/-- The means block at point `t` is modality `t`'s slab of the means. -/
theorem blk0_apply (c : Dev nD) (t : Fin cfg1.N) (a d : Fin 512) :
    (iblk1 V c 0 t : Vec Ideal S1x512x512 .f32) (ix3 (0 : Fin 1) a d) = Arr.v6 V c (ix3 (wOf t) a d) := by
  obtain ⟨e0, e1, e2, -⟩ := idx_facts t
  unfold iblk1
  rw [View.read_apply]
  show V c main_v6 _ = V c main_v6 _
  congr 1
  funext x; apply Fin.ext
  match x with
  | ⟨0, _⟩ => show win1_0.index t (0 : Fin 3) * 1 + 1 * 0 = t.val; omega
  | ⟨1, _⟩ => show win1_0.index t (1 : Fin 3) * 512 + 1 * a.val = a.val; omega
  | ⟨2, _⟩ => show win1_0.index t (2 : Fin 3) * 512 + 1 * d.val = d.val; omega

/-- The centres block is the whole array of centres. -/
theorem blk1_apply (c : Dev nD) (t : Fin cfg1.N) (b d : Fin 512) :
    (iblk1 V c 1 t : Vec Ideal S512x512 .f32) (ix2 b d) = Arr.v7 V c (ix2 b d) := by
  obtain ⟨-, -, -, e0, e1, -⟩ := idx_facts t
  unfold iblk1
  rw [View.read_apply]
  show V c main_v7 _ = V c main_v7 _
  congr 1
  funext x; apply Fin.ext
  match x with
  | ⟨0, _⟩ => show win1_1.index t (0 : Fin 2) * 512 + 1 * b.val = b.val; omega
  | ⟨1, _⟩ => show win1_1.index t (1 : Fin 2) * 512 + 1 * d.val = d.val; omega

/-- The block of the means' squared norms at point `t` is modality `t`'s column. -/
theorem blk2_apply (c : Dev nD) (t : Fin cfg1.N) (a : Fin 512) :
    (iblk1 V c 2 t : Vec Ideal S1x512x1 .f32) (ix3 (0 : Fin 1) a (0 : Fin 1)) = Arr.v10 V c (ix3 (wOf t) a (0 : Fin 1)) := by
  obtain ⟨-, -, -, -, -, e0, e1, e2, -⟩ := idx_facts t
  unfold iblk1
  rw [View.read_apply]
  show V c main_v10 _ = V c main_v10 _
  congr 1
  funext x; apply Fin.ext
  match x with
  | ⟨0, _⟩ => show win1_2.index t (0 : Fin 3) * 1 + 1 * 0 = t.val; omega
  | ⟨1, _⟩ => show win1_2.index t (1 : Fin 3) * 512 + 1 * a.val = a.val; omega
  | ⟨2, _⟩ => show win1_2.index t (2 : Fin 3) * 1 + 1 * 0 = 0; omega

/-- The block of the centres' squared norms is the whole row. -/
theorem blk3_apply (c : Dev nD) (t : Fin cfg1.N) (b : Fin 512) :
    (iblk1 V c 3 t : Vec Ideal S1x512 .f32) (ix2 (0 : Fin 1) b) = Arr.v13 V c (ix2 (0 : Fin 1) b) := by
  obtain ⟨-, -, -, -, -, -, -, -, e0, e1, -⟩ := idx_facts t
  unfold iblk1
  rw [View.read_apply]
  show V c main_v13 _ = V c main_v13 _
  congr 1
  funext x; apply Fin.ext
  match x with
  | ⟨0, _⟩ => show win1_3.index t (0 : Fin 2) * 1 + 1 * 0 = 0; omega
  | ⟨1, _⟩ => show win1_3.index t (1 : Fin 2) * 512 + 1 * b.val = b.val; omega

/-- The block of the counts as a row is the whole row. -/
theorem blk4_apply (c : Dev nD) (t : Fin cfg1.N) (b : Fin 512) :
    (iblk1 V c 4 t : Vec Ideal S1x512 .f32) (ix2 (0 : Fin 1) b) = Arr.v1_1 V c (ix2 (0 : Fin 1) b) := by
  obtain ⟨-, -, -, -, -, -, -, -, -, -, e0, e1, -⟩ := idx_facts t
  unfold iblk1
  rw [View.read_apply]
  show V c main_v1_1 _ = V c main_v1_1 _
  congr 1
  funext x; apply Fin.ext
  match x with
  | ⟨0, _⟩ => show win1_4.index t (0 : Fin 2) * 1 + 1 * 0 = 0; omega
  | ⟨1, _⟩ => show win1_4.index t (1 : Fin 2) * 512 + 1 * b.val = b.val; omega

/-- The block of the counts as a column is the whole column. -/
theorem blk5_apply (c : Dev nD) (t : Fin cfg1.N) (a : Fin 512) :
    (iblk1 V c 5 t : Vec Ideal S512x1 .f32) (ix2 a (0 : Fin 1)) = Arr.v14 V c (ix2 a (0 : Fin 1)) := by
  obtain ⟨-, -, -, -, -, -, -, -, -, -, -, -, e0, e1, -⟩ := idx_facts t
  unfold iblk1
  rw [View.read_apply]
  show V c main_v14 _ = V c main_v14 _
  congr 1
  funext x; apply Fin.ext
  match x with
  | ⟨0, _⟩ => show win1_5.index t (0 : Fin 2) * 512 + 1 * a.val = a.val; omega
  | ⟨1, _⟩ => show win1_5.index t (1 : Fin 2) * 1 + 1 * 0 = 0; omega

/-! ## What the region leaves in its output array -/

/-- The weighted sum of the class pairs' terms for modality `w`, from the arrays as the region finds them. -/
def pairSum (c : Dev nD) (w : Fin 2) : EReal :=
  ∑ a : Fin 512, ∑ b : Fin 512,
    (Arr.v14 V c (ix2 a (0 : Fin 1)) * Arr.v1_1 V c (ix2 (0 : Fin 1) b))
      * tile (a = b) (sqc (Arr.v10 V c (ix3 w a (0 : Fin 1))) (Arr.v13 V c (ix2 (0 : Fin 1) b))
          (∑ d : Fin 512, Arr.v6 V c (ix3 w a d) * Arr.v7 V c (ix2 b d)))

/-- The output array as one function of its index: entry `(w, 0, 0)` is modality `w`'s sum. -/
def lossArr (c : Dev nD) : S2x1x1.Idx → EReal := fun i => pairSum V c ⟨(i 0).val, (i 0).isLt⟩

theorem hz3 : (![0, 0, 0] : Fin 3 → Nat) = fun _ => 0 := funext fun a => by fin_cases a <;> rfl
theorem hz2 : (![0, 0] : Fin 2 → Nat) = fun _ => 0 := funext fun a => by fin_cases a <;> rfl

/-- Every index of point `t`'s block lies in modality `t`'s entry of the output. -/
theorem lossArr_emb (c : Dev nD) (t : Fin cfg1.N) (j : ((cfg1.win 6).xblock (grid1.coords t)).Idx) :
    lossArr V c (((cfg1.win 6).blk t).view.emb j) = pairSum V c (wOf t) := by
  obtain ⟨-, -, -, -, -, -, -, -, -, -, -, -, -, -, e0, -⟩ := idx_facts t
  unfold lossArr
  refine congrArg (pairSum V c) (Fin.ext ?_)
  show win1_6.index t (0 : Fin 3) * 1 + 1 * (j 0).val = t.val
  have hj : (j 0).val < 1 := (j 0).isLt
  omega

/-- What point `t` writes back is its block of `lossArr`. -/
theorem flushed_eq (c : Dev nD) (t : Fin cfg1.N) :
    (dat1 V c).flushed 6 t = ((cfg1.win 6).blk t).view.read (Elt Ideal) (lossArr V c) := by
  show (cfg1.win 6).cut (grid1.coords t) ((dat1 V c).after 6 t) = _
  rw [after1_6]
  unfold out1_6
  rw [View.canon_unit_zero hz3]
  simp only [View.ld_unit_zero (S := S1x512x512) hz3, View.ld_unit_zero (S := S512x512) hz2,
    View.ld_unit_zero (S := S1x512x1) hz3, View.ld_unit_zero (S := S1x512) hz2, View.ld_unit_zero (S := S512x1) hz2]
  funext j
  show k1_pay1 (F := Ideal) (k1_pay2 (iblk1 V c 0 t) (iblk1 V c 1 t) (iblk1 V c 2 t) (iblk1 V c 3 t) (iblk1 V c 5 t) (iblk1 V c 4 t)) j
      = lossArr V c (((cfg1.win 6).blk t).view.emb j)
  refine Eq.trans ?_ (lossArr_emb V c t j).symm
  unfold pairSum
  refine (total_apply _ j).trans (Finset.sum_congr rfl fun a _ => ?_)
  refine (row_sums_apply (iblk1 V c 0 t) (iblk1 V c 1 t) (iblk1 V c 2 t) (iblk1 V c 3 t) (iblk1 V c 5 t) (iblk1 V c 4 t) a 0).trans
    (Finset.sum_congr rfl fun b _ => ?_)
  simp only [blk0_apply V, blk1_apply V, blk2_apply V, blk3_apply V, blk4_apply V, blk5_apply V]

/-- An index of the output is in point `t`'s block iff each coordinate is in the block's range on its axis. -/
theorem mem_blk (t : Fin cfg1.N) (i : S2x1x1.Idx) :
    i ∈ ((cfg1.win 6).blk t).view.set ↔ ∀ a : Fin 3, win1_6.index t a * S1x1x1.size a ≤ (i a).val ∧ (i a).val < win1_6.index t a * S1x1x1.size a + S1x1x1.size a := by
  show i ∈ ((View.whole main_v15).slice (win1_6.rect t)).set ↔ _
  rw [View.set_slice_whole, Rect.mem_set_unit]
  exact Iff.rfl

/-- The two points' blocks are the two entries of the output: together they cover it. -/
theorem covered (i : S2x1x1.Idx) : ∃ t : Fin cfg1.N, (cfg1.win 6).flush t = true ∧ i ∈ ((cfg1.win 6).blk t).view.set := by
  have hi0 : (i 0).val < 2 := (i 0).isLt
  have hi1 : (i 1).val < 1 := (i 1).isLt
  have hi2 : (i 2).val < 1 := (i 2).isLt
  obtain ⟨t, ht⟩ : ∃ t : Fin cfg1.N, t.val = (i 0).val := ⟨⟨(i 0).val, Nat.lt_of_lt_of_eq hi0 N_1.symm⟩, rfl⟩
  refine ⟨t, flush1_6 t, ?_⟩
  rw [mem_blk]
  obtain ⟨-, -, -, -, -, -, -, -, -, -, -, -, -, -, e0, e1, e2⟩ := idx_facts t
  intro a
  match a with
  | ⟨0, _⟩ => show win1_6.index t (0 : Fin 3) * 1 ≤ (i 0).val ∧ (i 0).val < win1_6.index t (0 : Fin 3) * 1 + 1; rw [e0]; omega
  | ⟨1, _⟩ => show win1_6.index t (1 : Fin 3) * 1 ≤ (i 1).val ∧ (i 1).val < win1_6.index t (1 : Fin 3) * 1 + 1; rw [e1]; omega
  | ⟨2, _⟩ => show win1_6.index t (2 : Fin 3) * 1 ≤ (i 2).val ∧ (i 2).val < win1_6.index t (2 : Fin 3) * 1 + 1; rw [e2]; omega

/-- The output array after the last point. -/
theorem lossOut_eq (c : Dev nD) : Arr.lossOut V c = lossArr V c :=
  (dat1 V c).arrAt_eq_of_cover 6 (lossArr V c) (fun t _ => flushed_eq V c t) covered

/-- Entry `w` of the output: the weighted sum of the class pairs' terms. -/
theorem out_final (c : Dev nD) (w : Fin 2) :
    Arr.lossOut V c (ix3 w 0 0)
      = ∑ a : Fin 512, ∑ b : Fin 512,
          (Arr.v14 V c (ix2 a 0) * Arr.v1_1 V c (ix2 0 b))
            * tile (a = b) (sqc (Arr.v10 V c (ix3 w a 0)) (Arr.v13 V c (ix2 0 b))
                (∑ d : Fin 512, Arr.v6 V c (ix3 w a d) * Arr.v7 V c (ix2 b d))) := by
  rw [lossOut_eq]
  rfl

end Cert.KernelIdeal.LossValue

end
-- ==== Proof.KHost.lean ====
/-
  The host operations between the two kernel regions, read at an index, from what the first region
  left: the class means (sums over counts, an empty class counted as one), the centres padded with
  zero rows up to 512, the squared norms of both (the zero word plus the sum of squares along the
  last axis), and the counts turned from a row into a column.
-/
import proofs.«412364_j36618891166027_3_alg».proof.Proof.Gen.KernelIdeal.Frame
import proofs.«412364_j36618891166027_3_alg».proof.Proof.KArrays
import proofs.«412364_j36618891166027_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost
import Idealize.ShloMosaic.PureOps.Ideal.Laws

noncomputable section

namespace Cert.KernelIdeal.HostValue

open Idealize.ShloMosaic Idealize.ShloMosaic.TcCoe Idealize.SL.Sem Idealize.ShloMosaic.ValueIdx
open Cert.KernelIdeal Cert.KernelIdeal.Gen Cert.ClassPair

variable (m : (ℓ : Loc nD τ sig) → Buf (Elt Ideal) ℓ) (ρ : Dev nD → PrngReg)

/-- The launch memory read at the TensorCore's references. -/
abbrev V0 : (c : Dev nD) → (b : Ref sig .tc) → Buf (Elt Ideal) ((c : Thread nD τ).loc b) := fun c b => m ((c : Thread nD τ).loc b)

/-! ## Between the regions, from what the first region left (`V2`) -/

namespace Between

/-! ### Each stretch of host operations, over any contents `W` at its start -/

section Stretches
variable (W : Valuation τ sig (Elt Ideal))

theorem s0_arg2 : StableHlo.after hostOps0 W (Proc.devRef .tc main_arg2) = W (Proc.devRef .tc main_arg2) := by
  after_results

theorem s1_v6 : (StableHlo.after hostOps1 W (Proc.devRef .tc main_v6) : S2x512x512.Idx → EReal)
    = Host.divf (W (Proc.devRef .tc main_v1_0) : S2x512x512.Idx → EReal)
        (broadcastInDim S2x512x512 ![0, 1, 2] bcast_S1x512x1_S2x512x512_0_1_2
          (broadcastInDim S1x512x1 ![0, 1] bcast_S1x512_S1x512x1_0_1
            (maximumf (W (Proc.devRef .tc main_v1_1) : S1x512.Idx → EReal)
              (broadcastInDim S1x512 ![] bcast_S_S1x512 (constant (F := Ideal) S_ .f32 0x3F800000#32))))) := by
  after_results
theorem s1_c : (StableHlo.after hostOps1 W (Proc.devRef .tc main_c) : S_.Idx → BitVec 32) = constantI S_ 32 0#32 := by
  after_results
theorem s1_arg2 : StableHlo.after hostOps1 W (Proc.devRef .tc main_arg2) = W (Proc.devRef .tc main_arg2) := by
  after_results
theorem s1_v1_1 : StableHlo.after hostOps1 W (Proc.devRef .tc main_v1_1) = W (Proc.devRef .tc main_v1_1) := by
  after_results

theorem s11_v6 : StableHlo.after hostOps1_1 W (Proc.devRef .tc main_v6) = W (Proc.devRef .tc main_v6) := by
  after_results
theorem s11_v1_1 : StableHlo.after hostOps1_1 W (Proc.devRef .tc main_v1_1) = W (Proc.devRef .tc main_v1_1) := by
  after_results
theorem s11_v7 : (StableHlo.after hostOps1_1 W (Proc.devRef .tc main_v7) : S512x512.Idx → EReal)
    = pad S512x512 ![0, 0] ![117, 0] ![0, 0] (W (Proc.devRef .tc main_arg2) : S395x512.Idx → EReal)
        (sitofp (F := Ideal) .f32 (W (Proc.devRef .tc main_c) : S_.Idx → BitVec 32)) pads_S395x512_S512x512_01170_000 h_S_ := by
  after_results
  rfl

theorem s12_v6 : StableHlo.after hostOps1_2 W (Proc.devRef .tc main_v6) = W (Proc.devRef .tc main_v6) := by
  after_results
theorem s12_v7 : StableHlo.after hostOps1_2 W (Proc.devRef .tc main_v7) = W (Proc.devRef .tc main_v7) := by
  after_results
theorem s12_v1_1 : StableHlo.after hostOps1_2 W (Proc.devRef .tc main_v1_1) = W (Proc.devRef .tc main_v1_1) := by
  after_results
theorem s12_v10 : (StableHlo.after hostOps1_2 W (Proc.devRef .tc main_v10) : S2x512x1.Idx → EReal)
    = broadcastInDim S2x512x1 ![0, 1] bcast_S2x512_S2x512x1_0_1
        (Host.reduceAdd (F := Ideal) (mulf (W (Proc.devRef .tc main_v6) : S2x512x512.Idx → EReal) (W (Proc.devRef .tc main_v6)))
          (constant (F := Ideal) S_ .f32 0x00000000#32) reducesTo_S2x512x512_S2x512_d2 h_S_) := by
  after_results
theorem s12_v13 : (StableHlo.after hostOps1_2 W (Proc.devRef .tc main_v13) : S1x512.Idx → EReal)
    = broadcastInDim S1x512 ![1] bcast_S512_S1x512_1
        (Host.reduceAdd (F := Ideal) (mulf (W (Proc.devRef .tc main_v7) : S512x512.Idx → EReal) (W (Proc.devRef .tc main_v7)))
          (constant (F := Ideal) S_ .f32 0x00000000#32) reducesTo_S512x512_S512_d1 h_S_) := by
  after_results
theorem s12_v14 : (StableHlo.after hostOps1_2 W (Proc.devRef .tc main_v14) : S512x1.Idx → EReal)
    = transpose S512x1 [1, 0] (W (Proc.devRef .tc main_v1_1) : S1x512.Idx → EReal) transposes_S1x512_S512x1_1_0 := by
  after_results

end Stretches

/-! ### The word of one -/

theorem ofBits_one_f32 : Ideal.ofBits .f32 0x3F800000#32 = 1 := by
  simp [Ideal.ofBits, Ideal.ieee]
  show ((8388608 : ℝ) : EReal) * (((2 : ℝ) ^ 23)⁻¹ : ℝ) = ((1 : ℝ) : EReal)
  rw [← EReal.coe_mul]
  norm_num

/-! ### Each composite of operations read at an index, over any operand arrays -/

/-- The quotient by the count broadcast over modality and coordinate, read at an index. -/
theorem mean_read (X : S2x512x512.Idx → EReal) (N : S1x512.Idx → EReal) (w : Fin 2) (a d : Fin 512) :
    Host.divf (F := Ideal) (φ := .f32) X
        (broadcastInDim S2x512x512 ![0, 1, 2] bcast_S1x512x1_S2x512x512_0_1_2
          (broadcastInDim S1x512x1 ![0, 1] bcast_S1x512_S1x512x1_0_1
            (maximumf N (broadcastInDim S1x512 ![] bcast_S_S1x512 (constant (F := Ideal) S_ .f32 0x3F800000#32)))))
        (ix3 w a d)
      = Ideal.div (X (ix3 w a d)) (max (N (ix2 0 a)) 1) := by
  show Ideal.div (X (ix3 w a d)) _ = _
  congr 1
  rw [broadcastInDim_apply (s := S1x512x1) (t := S2x512x512) _ _ _ (ix3 w a d) (ix3 (0 : Fin 1) a (0 : Fin 1)) (fun q => match q with
      | ⟨0, _⟩ => by show (0 : ℕ) = if (1 : ℕ) = 1 then 0 else w.val; rw [if_pos rfl]
      | ⟨1, _⟩ => by show a.val = if (512 : ℕ) = 1 then 0 else a.val; rw [if_neg (by decide)]
      | ⟨2, _⟩ => by show (0 : ℕ) = if (1 : ℕ) = 1 then 0 else d.val; rw [if_pos rfl]),
    broadcastInDim_apply (s := S1x512) (t := S1x512x1) _ _ _ (ix3 (0 : Fin 1) a (0 : Fin 1)) (ix2 (0 : Fin 1) a) (fun q => match q with
      | ⟨0, _⟩ => by show (0 : ℕ) = if (1 : ℕ) = 1 then 0 else 0; rw [if_pos rfl]
      | ⟨1, _⟩ => by show a.val = if (512 : ℕ) = 1 then 0 else a.val; rw [if_neg (by decide)]),
    maximumf_apply,
    broadcastInDim_apply (s := S_) (t := S1x512) _ _ _ (ix2 (0 : Fin 1) a) ix0 (fun q => q.elim0),
    constant_apply, ofBits_one_f32]

/-- The padded centres read at an index: the centre's row below 395, the padding value (the integer zero
    converted) from there on. -/
theorem pad_read (C : S395x512.Idx → EReal) (b d : Fin 512) :
    pad S512x512 ![0, 0] ![117, 0] ![0, 0] C (sitofp (F := Ideal) .f32 (constantI S_ 32 0#32)) pads_S395x512_S512x512_01170_000 h_S_ (ix2 b d)
      = if h : b.val < 395 then C (ix2 ⟨b.val, h⟩ d) else 0 := by
  by_cases h : b.val < 395
  · rw [dif_pos h]
    exact pad_apply_of_inside (s := S395x512) (t := S512x512) _ _ _ C _ _ h_S_ (ix2 b d) (ix2 ⟨b.val, h⟩ d) (fun q => match q with
      | ⟨0, _⟩ => by show b.val = 0 + b.val * (0 + 1); omega
      | ⟨1, _⟩ => by show d.val = 0 + d.val * (0 + 1); omega)
  · rw [dif_neg h,
      pad_apply_of_not_inside (s := S395x512) (t := S512x512) _ _ _ C _ _ h_S_ (ix2 b d) (0 : Fin 2) (by
        show ¬(0 ≤ b.val ∧ (b.val - 0) % (0 + 1) = 0 ∧ (b.val - 0) / (0 + 1) < 395)
        omega)]
    show ((((0#32 : BitVec 32).toInt : ℝ)) : EReal) = 0
    simp

/-- The squared norm of each class mean: the zero word plus the sum of squares along the last axis, kept as a
    unit axis. -/
theorem sqnorm_mean_read (Y : S2x512x512.Idx → EReal) (w : Fin 2) (a : Fin 512) :
    broadcastInDim S2x512x1 ![0, 1] bcast_S2x512_S2x512x1_0_1
        (Host.reduceAdd (F := Ideal) (mulf (F := Ideal) (φ := .f32) Y Y) (constant (F := Ideal) S_ .f32 0x00000000#32) reducesTo_S2x512x512_S2x512_d2 h_S_)
        (ix3 w a 0)
      = 0 + ∑ d : Fin 512, Y (ix3 w a d) * Y (ix3 w a d) := by
  rw [broadcastInDim_apply (s := S2x512) (t := S2x512x1) _ _ _ (ix3 w a (0 : Fin 1)) (ix2 w a) (fun q => match q with
      | ⟨0, _⟩ => by show w.val = if (2 : ℕ) = 1 then 0 else w.val; rw [if_neg (by decide)]
      | ⟨1, _⟩ => by show a.val = if (512 : ℕ) = 1 then 0 else a.val; rw [if_neg (by decide)])]
  simp only [Host.reduceAdd, Ideal.hostReduceAdd_def]
  rw [Ideal.hostReduceAdd_single reducesTo_S2x512x512_S2x512_d2 (by decide), constant_apply, Ideal.ofBits_zero_f32]
  refine congrArg (_ + ·) (Finset.sum_congr rfl fun k _ => ?_)
  rw [mulf_apply]
  have ek : ∀ h : Shape.Reduces S2x512x512 [2] S2x512, h.lift (ix2 w a) k = ix3 w a k := fun h =>
    funext fun q => Fin.ext (by match q with | ⟨0, _⟩ => rfl | ⟨1, _⟩ => rfl | ⟨2, _⟩ => rfl)
  rw [ek]
  rfl

/-- The squared norm of each padded centre, laid as a row. -/
theorem sqnorm_centre_read (Z : S512x512.Idx → EReal) (b : Fin 512) :
    broadcastInDim S1x512 ![1] bcast_S512_S1x512_1
        (Host.reduceAdd (F := Ideal) (mulf (F := Ideal) (φ := .f32) Z Z) (constant (F := Ideal) S_ .f32 0x00000000#32) reducesTo_S512x512_S512_d1 h_S_)
        (ix2 0 b)
      = 0 + ∑ d : Fin 512, Z (ix2 b d) * Z (ix2 b d) := by
  rw [broadcastInDim_apply (s := S512) (t := S1x512) _ _ _ (ix2 (0 : Fin 1) b) (ix1 b) (fun q => match q with
      | ⟨0, _⟩ => by show b.val = if (512 : ℕ) = 1 then 0 else b.val; rw [if_neg (by decide)])]
  simp only [Host.reduceAdd, Ideal.hostReduceAdd_def]
  rw [Ideal.hostReduceAdd_single reducesTo_S512x512_S512_d1 (by decide), constant_apply, Ideal.ofBits_zero_f32]
  refine congrArg (_ + ·) (Finset.sum_congr rfl fun k _ => ?_)
  rw [mulf_apply]
  have ek : ∀ h : Shape.Reduces S512x512 [1] S512, h.lift (ix1 b) k = ix2 b k := fun h =>
    funext fun q => Fin.ext (by match q with | ⟨0, _⟩ => rfl | ⟨1, _⟩ => rfl)
  rw [ek]
  rfl

end Between

open Between

theorem V5_v6 (c : Dev nD) (w : Fin 2) (a d : Fin 512) :
    Arr.v6 (V5 m ρ) c (ix3 w a d) = Ideal.div (Arr.v1_0 (V2 m ρ) c (ix3 w a d)) (max (Arr.v1_1 (V2 m ρ) c (ix2 0 a)) 1) := by
  have e : (V5 m ρ c main_v6 : S2x512x512.Idx → EReal)
      = Host.divf (W2 m ρ c (Proc.devRef .tc main_v1_0) : S2x512x512.Idx → EReal)
        (broadcastInDim S2x512x512 ![0, 1, 2] bcast_S1x512x1_S2x512x512_0_1_2
          (broadcastInDim S1x512x1 ![0, 1] bcast_S1x512_S1x512x1_0_1
            (maximumf (W2 m ρ c (Proc.devRef .tc main_v1_1) : S1x512.Idx → EReal)
              (broadcastInDim S1x512 ![] bcast_S_S1x512 (constant (F := Ideal) S_ .f32 0x3F800000#32))))) := by
    show StableHlo.after hostOps1_2 (W4 m ρ c) (Proc.devRef .tc main_v6) = _
    rw [s12_v6]
    show StableHlo.after hostOps1_1 (W3 m ρ c) (Proc.devRef .tc main_v6) = _
    rw [s11_v6]
    show StableHlo.after hostOps1 (W2 m ρ c) (Proc.devRef .tc main_v6) = _
    rw [s1_v6]
  show (V5 m ρ c main_v6 : S2x512x512.Idx → EReal) (ix3 w a d) = _
  rw [e]
  exact mean_read _ _ w a d

theorem V5_v7 (c : Dev nD) (b d : Fin 512) :
    Arr.v7 (V5 m ρ) c (ix2 b d) = if h : b.val < 395 then Arr.arg2 (V0 m) c (ix2 ⟨b.val, h⟩ d) else 0 := by
  have e : (V5 m ρ c main_v7 : S512x512.Idx → EReal)
      = pad S512x512 ![0, 0] ![117, 0] ![0, 0] (V0 m c main_arg2 : S395x512.Idx → EReal)
          (sitofp (F := Ideal) .f32 (constantI S_ 32 0#32)) pads_S395x512_S512x512_01170_000 h_S_ := by
    show StableHlo.after hostOps1_2 (W4 m ρ c) (Proc.devRef .tc main_v7) = _
    rw [s12_v7]
    show StableHlo.after hostOps1_1 (W3 m ρ c) (Proc.devRef .tc main_v7) = _
    rw [s11_v7]
    have e2 : W3 m ρ c (Proc.devRef .tc main_arg2) = V0 m c main_arg2 := by
      show StableHlo.after hostOps1 (W2 m ρ c) (Proc.devRef .tc main_arg2) = _
      rw [s1_arg2, W2_of_ne m ρ c main_arg2 (by decide)]
      show StableHlo.after hostOps0 (W0 m ρ c) (Proc.devRef .tc main_arg2) = _
      rw [s0_arg2]
    have ec : (W3 m ρ c (Proc.devRef .tc main_c) : S_.Idx → BitVec 32) = constantI S_ 32 0#32 := by
      show StableHlo.after hostOps1 (W2 m ρ c) (Proc.devRef .tc main_c) = _
      rw [s1_c]
    rw [e2, ec]
  show (V5 m ρ c main_v7 : S512x512.Idx → EReal) (ix2 b d) = _
  rw [e]
  exact pad_read _ b d

theorem V5_v10 (c : Dev nD) (w : Fin 2) (a : Fin 512) :
    Arr.v10 (V5 m ρ) c (ix3 w a 0) = 0 + ∑ d : Fin 512, Arr.v6 (V5 m ρ) c (ix3 w a d) * Arr.v6 (V5 m ρ) c (ix3 w a d) := by
  have e6 : V5 m ρ c main_v6 = W4 m ρ c (Proc.devRef .tc main_v6) := by
    show StableHlo.after hostOps1_2 (W4 m ρ c) (Proc.devRef .tc main_v6) = _
    rw [s12_v6]
  have e : (V5 m ρ c main_v10 : S2x512x1.Idx → EReal)
      = broadcastInDim S2x512x1 ![0, 1] bcast_S2x512_S2x512x1_0_1
        (Host.reduceAdd (F := Ideal) (mulf (F := Ideal) (φ := .f32) (V5 m ρ c main_v6 : S2x512x512.Idx → EReal) (V5 m ρ c main_v6))
          (constant (F := Ideal) S_ .f32 0x00000000#32) reducesTo_S2x512x512_S2x512_d2 h_S_) := by
    rw [e6]
    show StableHlo.after hostOps1_2 (W4 m ρ c) (Proc.devRef .tc main_v10) = _
    rw [s12_v10]
  show (V5 m ρ c main_v10 : S2x512x1.Idx → EReal) (ix3 w a 0) = _
  rw [e]
  exact sqnorm_mean_read _ w a

theorem V5_v13 (c : Dev nD) (b : Fin 512) :
    Arr.v13 (V5 m ρ) c (ix2 0 b) = 0 + ∑ d : Fin 512, Arr.v7 (V5 m ρ) c (ix2 b d) * Arr.v7 (V5 m ρ) c (ix2 b d) := by
  have e7 : V5 m ρ c main_v7 = W4 m ρ c (Proc.devRef .tc main_v7) := by
    show StableHlo.after hostOps1_2 (W4 m ρ c) (Proc.devRef .tc main_v7) = _
    rw [s12_v7]
  have e : (V5 m ρ c main_v13 : S1x512.Idx → EReal)
      = broadcastInDim S1x512 ![1] bcast_S512_S1x512_1
        (Host.reduceAdd (F := Ideal) (mulf (F := Ideal) (φ := .f32) (V5 m ρ c main_v7 : S512x512.Idx → EReal) (V5 m ρ c main_v7))
          (constant (F := Ideal) S_ .f32 0x00000000#32) reducesTo_S512x512_S512_d1 h_S_) := by
    rw [e7]
    show StableHlo.after hostOps1_2 (W4 m ρ c) (Proc.devRef .tc main_v13) = _
    rw [s12_v13]
  show (V5 m ρ c main_v13 : S1x512.Idx → EReal) (ix2 0 b) = _
  rw [e]
  exact sqnorm_centre_read _ b

theorem V5_v14 (c : Dev nD) (a : Fin 512) : Arr.v14 (V5 m ρ) c (ix2 a 0) = Arr.v1_1 (V2 m ρ) c (ix2 0 a) := by
  have e : (V5 m ρ c main_v14 : S512x1.Idx → EReal)
      = transpose S512x1 [1, 0] (W2 m ρ c (Proc.devRef .tc main_v1_1) : S1x512.Idx → EReal) transposes_S1x512_S512x1_1_0 := by
    show StableHlo.after hostOps1_2 (W4 m ρ c) (Proc.devRef .tc main_v14) = _
    rw [s12_v14]
    show transpose S512x1 [1, 0] (StableHlo.after hostOps1_1 (W3 m ρ c) (Proc.devRef .tc main_v1_1) : S1x512.Idx → EReal) _ = _
    rw [s11_v1_1]
    show transpose S512x1 [1, 0] (StableHlo.after hostOps1 (W2 m ρ c) (Proc.devRef .tc main_v1_1) : S1x512.Idx → EReal) _ = _
    rw [s1_v1_1]
  show (V5 m ρ c main_v14 : S512x1.Idx → EReal) (ix2 a 0) = _
  rw [e]
  exact transpose_ix2_apply (a := 1) (b := 512) _ _ a 0

theorem V5_v1_1 (c : Dev nD) : Arr.v1_1 (V5 m ρ) c = Arr.v1_1 (V2 m ρ) c := by
  show StableHlo.after hostOps1_2 (W4 m ρ c) (Proc.devRef .tc main_v1_1) = W2 m ρ c (Proc.devRef .tc main_v1_1)
  rw [s12_v1_1]
  show StableHlo.after hostOps1_1 (W3 m ρ c) (Proc.devRef .tc main_v1_1) = _
  rw [s11_v1_1]
  show StableHlo.after hostOps1 (W2 m ρ c) (Proc.devRef .tc main_v1_1) = _
  rw [s1_v1_1]

end Cert.KernelIdeal.HostValue

end
-- ==== Proof.KHostEnds.lean ====
/-
  The host operations at the two ends of the program, read at an index: before the first kernel
  region the labels are reshaped to a column and nothing else is touched; after the second region
  its two entries are each divided by the number of sample pairs and added.
-/
import proofs.«412364_j36618891166027_3_alg».proof.Proof.Gen.KernelIdeal.Frame
import proofs.«412364_j36618891166027_3_alg».proof.Proof.KArrays
import proofs.«412364_j36618891166027_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.HostEnds

open Idealize.ShloMosaic Idealize.ShloMosaic.TcCoe Idealize.SL.Sem Idealize.ShloMosaic.ValueIdx
open Cert.KernelIdeal Cert.KernelIdeal.Gen Cert.ClassPair

variable (m : (ℓ : Loc nD τ sig) → Buf (Elt Ideal) ℓ) (ρ : Dev nD → PrngReg)

/-- The launch memory read at the TensorCore's references. -/
abbrev V0 : (c : Dev nD) → (b : Ref sig .tc) → Buf (Elt Ideal) ((c : Thread nD τ).loc b) := fun c b => m ((c : Thread nD τ).loc b)

/-! ## Before the first region -/

theorem V1_v0 (c : Dev nD) (i : Fin 4096) : Arr.v0 (V1 m ρ) c (ix2 i 0) = Arr.arg3 (V0 m) c (ix1 i) := by
  -- the column is the launched labels reshaped; row-major, entry (i, 0) of a 4096 × 1 array is entry i of the vector
  have e : (W1 m ρ c (Proc.devRef .tc main_v0) : S4096x1.Idx → BitVec 32)
      = shapeCast S4096x1 (W0 m ρ c (Proc.devRef .tc main_arg3) : S4096.Idx → BitVec 32) shapeCasts_S4096_S4096x1 := by
    show StableHlo.after hostOps0 _ (Proc.devRef .tc main_v0) = _
    after_results
    rfl
  show (W1 m ρ c (Proc.devRef .tc main_v0) : S4096x1.Idx → BitVec 32) (ix2 i 0) = _
  rw [e]
  refine (shapeCast_apply _ _ _ (ix1 i) ?_).trans rfl
  rw [Shape.rowMajor_val_one, Shape.rowMajor_val_two]
  show i.val = i.val * 1 + 0
  omega
/-- The one operation before the first region writes the column only: a feature matrix is as launched. -/
theorem V1_arg0 (c : Dev nD) : Arr.arg0 (V1 m ρ) c = Arr.arg0 (V0 m) c :=
  calc W1 m ρ c (Proc.devRef .tc main_arg0)
    _ = W0 m ρ c (Proc.devRef .tc main_arg0) := StableHlo.after_of_forall_not_mem (b := Proc.devRef .tc main_arg0) _ _ (List.forall_iff_forall_mem.mp (by
      simp only [hostOps0, List.Forall, StableHlo.reshape_writes, Finset.mem_singleton]
      exact StableHlo.devRef_ne_of_ne (by decide)))
    _ = m ((c : Thread nD τ).loc main_arg0) := rfl
theorem V1_arg1 (c : Dev nD) : Arr.arg1 (V1 m ρ) c = Arr.arg1 (V0 m) c :=
  calc W1 m ρ c (Proc.devRef .tc main_arg1)
    _ = W0 m ρ c (Proc.devRef .tc main_arg1) := StableHlo.after_of_forall_not_mem (b := Proc.devRef .tc main_arg1) _ _ (List.forall_iff_forall_mem.mp (by
      simp only [hostOps0, List.Forall, StableHlo.reshape_writes, Finset.mem_singleton]
      exact StableHlo.devRef_ne_of_ne (by decide)))
    _ = m ((c : Thread nD τ).loc main_arg1) := rfl

/-! ## After the second region, from what it left (`V6`) -/

/-- The program's result buffer at the last boundary. -/
abbrev result (c : Dev nD) : S_.Idx → EReal := W7 m ρ c (Proc.devRef .tc main_v22)

theorem W7_v22 (c : Dev nD) :
    result m ρ c ix0 = Ideal.div (Arr.v15 (V6 m ρ) c (ix3 0 0 0)) nn + Ideal.div (Arr.v15 (V6 m ρ) c (ix3 1 0 0)) nn := by
  -- the result buffer holds the last operation's value: the sum of the two quotients
  have e : (W7 m ρ c (Proc.devRef .tc main_v22) : S_.Idx → EReal)
      = addf (F := Ideal)
          (Host.divf (F := Ideal)
            (shapeCast S_ (extractStridedSlice S1x1x1 ![0, 0, 0]
              (W6 m ρ c (Proc.devRef .tc main_v15) : S2x1x1.Idx → EReal) slices_S2x1x1_S1x1x1_0_0_0) shapeCasts_S1x1x1_S_)
            (constant (F := Ideal) S_ .f32 0x4B800000#32))
          (Host.divf (F := Ideal)
            (shapeCast S_ (extractStridedSlice S1x1x1 ![1, 0, 0]
              (W6 m ρ c (Proc.devRef .tc main_v15) : S2x1x1.Idx → EReal) slices_S2x1x1_S1x1x1_1_0_0) shapeCasts_S1x1x1_S_)
            (constant (F := Ideal) S_ .f32 0x4B800000#32)) := by
    show StableHlo.after hostOps2 _ (Proc.devRef .tc main_v22) = _
    after_results
    rfl
  -- each entry of the region's output, cut out and read as a scalar
  have r0 : shapeCast S_ (extractStridedSlice S1x1x1 ![0, 0, 0]
        (W6 m ρ c (Proc.devRef .tc main_v15) : S2x1x1.Idx → EReal) slices_S2x1x1_S1x1x1_0_0_0) shapeCasts_S1x1x1_S_ ix0
      = (W6 m ρ c (Proc.devRef .tc main_v15) : S2x1x1.Idx → EReal) (ix3 0 0 0) := by
    refine (shapeCast_apply _ _ ix0 (ix3 0 0 0) ?_).trans ?_
    · rfl
    · exact extractStridedSlice_apply _ _ _ (ix3 0 0 0) (ix3 0 0 0) fun a =>
        match a with | ⟨0, _⟩ => rfl | ⟨1, _⟩ => rfl | ⟨2, _⟩ => rfl
  have r1 : shapeCast S_ (extractStridedSlice S1x1x1 ![1, 0, 0]
        (W6 m ρ c (Proc.devRef .tc main_v15) : S2x1x1.Idx → EReal) slices_S2x1x1_S1x1x1_1_0_0) shapeCasts_S1x1x1_S_ ix0
      = (W6 m ρ c (Proc.devRef .tc main_v15) : S2x1x1.Idx → EReal) (ix3 1 0 0) := by
    refine (shapeCast_apply _ _ ix0 (ix3 0 0 0) ?_).trans ?_
    · rfl
    · exact extractStridedSlice_apply _ _ _ (ix3 0 0 0) (ix3 1 0 0) fun a =>
        match a with | ⟨0, _⟩ => rfl | ⟨1, _⟩ => rfl | ⟨2, _⟩ => rfl
  -- at the extended reals the two quotients and the sum are the operations themselves, the divisor the word of 4096²
  show (W7 m ρ c (Proc.devRef .tc main_v22) : S_.Idx → EReal) ix0 = _
  rw [e]
  show Ideal.div (shapeCast S_ _ shapeCasts_S1x1x1_S_ ix0) nn + Ideal.div (shapeCast S_ _ shapeCasts_S1x1x1_S_ ix0) nn = _
  rw [r0, r1]

end Cert.KernelIdeal.HostEnds

end
-- ==== Proof.KValue.lean ====
/-
  The idealized kernel's result as the specification over class pairs: the host stretches and the
  two regions chained. The first region's sums and counts, divided, are the class means; the
  padded centres and both squared norms follow; the second region weighs each class pair's term by
  the two counts; the tail divides both modalities' sums by the number of sample pairs and adds.
-/
import proofs.«412364_j36618891166027_3_alg».proof.Proof.KArrays
import proofs.«412364_j36618891166027_3_alg».proof.Proof.KSums
import proofs.«412364_j36618891166027_3_alg».proof.Proof.KCnt
import proofs.«412364_j36618891166027_3_alg».proof.Proof.KLoss
import proofs.«412364_j36618891166027_3_alg».proof.Proof.KHost
import proofs.«412364_j36618891166027_3_alg».proof.Proof.KHostEnds
import proofs.«412364_j36618891166027_3_alg».proof.Proof.Spec

noncomputable section

namespace Cert.KernelIdeal.KValue

open Idealize.ShloMosaic Idealize.ShloMosaic.TcCoe Idealize.SL.Sem Idealize.ShloMosaic.ValueIdx
open Cert.KernelIdeal Cert.KernelIdeal.Gen Cert.ClassPair Cert.KernelIdeal.HostValue Cert.KernelIdeal.HostEnds

variable (m : (ℓ : Loc nD τ sig) → Buf (Elt Ideal) ℓ) (ρ : Dev nD → PrngReg)

/-- The labels, the two feature matrices and the centres as launched, by coordinates. -/
abbrev Tm (c : Dev nD) : Fin 4096 → BitVec 32 := fun i => Arr.arg3 (HostEnds.V0 m) c (ix1 i)
abbrev Xm (c : Dev nD) : Fin 2 → Fin 4096 → Fin 512 → EReal := fun w i d =>
  if w = 0 then Arr.arg0 (HostEnds.V0 m) c (ix2 i d) else Arr.arg1 (HostEnds.V0 m) c (ix2 i d)
abbrev Cm (c : Dev nD) : Fin 395 → Fin 512 → EReal := fun k d => Arr.arg2 (HostEnds.V0 m) c (ix2 k d)

/-- The first region finds the launched labels (as a column) and features. -/
theorem Tof_V1 (c : Dev nD) : SumsValue.Tof (V1 m ρ) c = Tm m c := funext fun i => HostEnds.V1_v0 m ρ c i
theorem Tof_V1' (c : Dev nD) : CntValue.Tof (V1 m ρ) c = Tm m c := funext fun i => HostEnds.V1_v0 m ρ c i
theorem Xof_V1 (c : Dev nD) : SumsValue.Xof (V1 m ρ) c = Xm m c := by
  funext w i d
  show (if w = 0 then Arr.arg0 (V1 m ρ) c (ix2 i d) else Arr.arg1 (V1 m ρ) c (ix2 i d)) = _
  rw [HostEnds.V1_arg0, HostEnds.V1_arg1]

/-- What the first region left: counts and sums per label. -/
theorem cnt_V2 (c : Dev nD) (a : Fin 512) : Arr.v1_1 (V2 m ρ) c (ix2 0 a) = cntK (Tm m c) a := by
  have e : Arr.v1_1 (V2 m ρ) c = Arr.cntOut (V1 m ρ) c := (hF0 m ρ c 4).symm
  rw [e, CntValue.cnt_final, Tof_V1']
theorem sum_V2 (c : Dev nD) (w : Fin 2) (a d : Fin 512) :
    Arr.v1_0 (V2 m ρ) c (ix3 w a d) = sumK (Tm m c) (Xm m c) w a d := by
  have e : Arr.v1_0 (V2 m ρ) c = Arr.sumsOut (V1 m ρ) c := (hF0 m ρ c 3).symm
  rw [e, SumsValue.sums_final, Tof_V1, Xof_V1]

/-- Between the regions: the class means, the padded centres and the squared norms. -/
theorem mean_V5 (c : Dev nD) (w : Fin 2) (a d : Fin 512) :
    Arr.v6 (V5 m ρ) c (ix3 w a d) = meanK (Tm m c) (Xm m c) w a d := by
  rw [V5_v6, sum_V2, cnt_V2]; rfl
theorem pad_V5 (c : Dev nD) (b d : Fin 512) : Arr.v7 (V5 m ρ) c (ix2 b d) = padK (Cm m c) b d := by
  rw [V5_v7]; rfl
theorem a2_V5 (c : Dev nD) (w : Fin 2) (a : Fin 512) :
    Arr.v10 (V5 m ρ) c (ix3 w a 0) = a2K (Tm m c) (Xm m c) w a := by
  rw [V5_v10]; unfold a2K
  refine congrArg (fun s => (0 : EReal) + s) (Finset.sum_congr rfl fun d _ => ?_)
  rw [mean_V5]
theorem b2_V5 (c : Dev nD) (b : Fin 512) : Arr.v13 (V5 m ρ) c (ix2 0 b) = b2K (Cm m c) b := by
  rw [V5_v13]; unfold b2K
  refine congrArg (fun s => (0 : EReal) + s) (Finset.sum_congr rfl fun d _ => ?_)
  rw [pad_V5]

/-- What the second region left: one modality's weighted sum over class pairs. -/
theorem out_V6 (c : Dev nD) (w : Fin 2) :
    Arr.v15 (V6 m ρ) c (ix3 w 0 0) = outK (Tm m c) (Xm m c) (Cm m c) w := by
  have e : Arr.v15 (V6 m ρ) c = Arr.lossOut (V5 m ρ) c := (hF1 m ρ c 6).symm
  rw [e, LossValue.out_final]
  unfold outK
  refine Finset.sum_congr rfl fun a _ => Finset.sum_congr rfl fun b _ => ?_
  rw [V5_v14, V5_v1_1, cnt_V2, cnt_V2, a2_V5, b2_V5]
  refine congrArg (fun s => (cntK (Tm m c) a * cntK (Tm m c) b) * tile (a = b) (sqc (a2K (Tm m c) (Xm m c) w a) (b2K (Cm m c) b) s)) ?_
  unfold abK
  refine Finset.sum_congr rfl fun d _ => ?_
  rw [mean_V5, pad_V5]

/-- The result buffer after the last host stretch is the specification over class pairs. -/
theorem kernel_value (c : Dev nD) : HostEnds.result m ρ c ix0 = resK (Tm m c) (Xm m c) (Cm m c) := by
  rw [HostEnds.W7_v22, out_V6, out_V6]; rfl

end Cert.KernelIdeal.KValue

end
-- ==== Proof.RefValue.lean ====
/-
  The reference program's result, read off its run one operation at a time: per modality the mean
  over all ordered sample pairs of the contrastive term between the gathered class mean of the
  first sample and the gathered centre of the second. The class means come from two accumulating
  scatters (feature rows, and ones) over the labels; rows are fetched back by gathers at the
  labels. With every label in range each scatter lands every update and each gather fetches the
  row its label names.
-/
import proofs.«412364_j36618891166027_3_alg».proof.Proof.Gen.ReferenceIdeal.Run
import proofs.«412364_j36618891166027_3_alg».proof.Proof.Gen.ReferenceIdeal.Read
import proofs.«412364_j36618891166027_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate
import Idealize.ShloMosaic.Lib.IdealHost

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read Cert.ClassPair

variable (x0 x1 : S4096x512.Idx → EReal) (x2 : S395x512.Idx → EReal) (x3 : S4096.Idx → BitVec 32)

/-- The labels, the two feature matrices and the centres by coordinates. -/
abbrev Tof : Fin 4096 → BitVec 32 := fun i => x3 (ix1 i)
abbrev Xof : Fin 2 → Fin 4096 → Fin 512 → EReal := fun w i d => if w = 0 then x0 (ix2 i d) else x1 (ix2 i d)
abbrev Cof : Fin 395 → Fin 512 → EReal := fun c d => x2 (ix2 c d)

/-! ## The gathers and the accumulating scatters read at an index -/

/-- The gather of whole rows read at `(i, d)`. -/
theorem gather_row {α : Type} (x : S395x512.Idx → α) (idx : IVec S4096x1 32) (i : Fin 4096) (d : Fin 512) :
    Host.gather gather_S395x512_S4096x1_S4096x512_1_0_n_n_0_1_1512 x idx (ix2 i d)
      = x (ix2 ⟨min (idx (ix2 i 0)).toInt.toNat 394, by omega⟩ d) := by
  unfold Host.gather
  congr 1
  funext a
  refine Fin.ext ?_
  match a with
  | ⟨0, _⟩ =>
    show gather_S395x512_S4096x1_S4096x512_1_0_n_n_0_1_1512.start (ix2 i d) idx 0
      + gather_S395x512_S4096x1_S4096x512_1_0_n_n_0_1_1512.batchCoord (ix2 i d) 0
      + gather_S395x512_S4096x1_S4096x512_1_0_n_n_0_1_1512.offCoord (ix2 i d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S395x512_S4096x1_S4096x512_1_0_n_n_0_1_1512.startIndexMap from List.mem_singleton.mpr rfl)]
    have hsi : gather_S395x512_S4096x1_S4096x512_1_0_n_n_0_1_1512.siIdx (ix2 i d)
        ⟨List.idxOf (0 : Fin 2) gather_S395x512_S4096x1_S4096x512_1_0_n_n_0_1_1512.startIndexMap,
          List.idxOf_lt_length_iff.2 (List.mem_singleton.mpr rfl)⟩ = ix2 i 0 := by
      funext b; refine Fin.ext ?_
      match b with
      | ⟨0, _⟩ => rfl
      | ⟨1, _⟩ => rfl
    rw [hsi]
    rfl
  | ⟨1, _⟩ =>
    show gather_S395x512_S4096x1_S4096x512_1_0_n_n_0_1_1512.start (ix2 i d) idx 1
      + gather_S395x512_S4096x1_S4096x512_1_0_n_n_0_1_1512.batchCoord (ix2 i d) 1
      + gather_S395x512_S4096x1_S4096x512_1_0_n_n_0_1_1512.offCoord (ix2 i d) 1 = d.val
    rw [GatherDims.batchCoord_eq_zero _ _ _ List.not_mem_nil]
    have hs : gather_S395x512_S4096x1_S4096x512_1_0_n_n_0_1_1512.start (ix2 i d) idx 1 = 0 := by
      unfold GatherDims.start
      rw [dif_neg (show ¬ (1 : Fin 2) ∈ gather_S395x512_S4096x1_S4096x512_1_0_n_n_0_1_1512.startIndexMap by decide)]
    rw [hs]
    simp only [Nat.add_zero, Nat.zero_add]
    rfl

/-- A rank-1 index set is its coordinate range, so a sum over it is the sum over the coordinate. -/
def idxEquiv1 {n : Nat} : (⟨1, ![n]⟩ : Shape).Idx ≃ Fin n where
  toFun i := i 0
  invFun p := ix1 p
  left_inv i := (eq_ix1 i).symm
  right_inv _ := rfl
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Where the scatter of scalars lands update `i`: at its label, when the label is in range. -/
theorem scatter1_result (idx : IVec S4096x1 32) (i : Fin 4096) (h : (idx (ix2 i 0)).toNat < 395) :
    scatter_S395_S4096x1_S4096_n_0_0_1.resultIdx? (ix1 i) idx = some (ix1 ⟨(idx (ix2 i 0)).toNat, h⟩) := by
  have hsi : scatter_S395_S4096x1_S4096_n_0_0_1.siIdx (ix1 i)
      ⟨List.idxOf (0 : Fin 1) scatter_S395_S4096x1_S4096_n_0_0_1.scatterDimsToOperandDims,
        List.idxOf_lt_length_iff.2 (List.mem_singleton.mpr rfl)⟩ = ix2 i 0 := by
    funext b; refine Fin.ext ?_
    match b with
    | ⟨0, _⟩ => rfl
    | ⟨1, _⟩ => rfl
  have hst : scatter_S395_S4096x1_S4096_n_0_0_1.start (ix1 i) idx 0 = ((idx (ix2 i 0)).toNat : Int) := by
    unfold ScatterDims.start
    rw [dif_pos (show (0 : Fin 1) ∈ scatter_S395_S4096x1_S4096_n_0_0_1.scatterDimsToOperandDims from List.mem_singleton.mpr rfl), hsi]
    exact StableHlo.Predicate.toInt_eq_toNat_of_lt (by omega)
  have hw : scatter_S395_S4096x1_S4096_n_0_0_1.window (ix1 i) 0 = 0 := by
    unfold ScatterDims.window
    rw [dif_neg (by decide)]
  have hall : ∀ a, 0 ≤ scatter_S395_S4096x1_S4096_n_0_0_1.start (ix1 i) idx a + scatter_S395_S4096x1_S4096_n_0_0_1.window (ix1 i) a
      ∧ scatter_S395_S4096x1_S4096_n_0_0_1.start (ix1 i) idx a + scatter_S395_S4096x1_S4096_n_0_0_1.window (ix1 i) a < S395.size a := by
    intro a
    match a with
    | ⟨0, _⟩ =>
      show 0 ≤ scatter_S395_S4096x1_S4096_n_0_0_1.start (ix1 i) idx 0 + (scatter_S395_S4096x1_S4096_n_0_0_1.window (ix1 i) 0 : Int)
        ∧ scatter_S395_S4096x1_S4096_n_0_0_1.start (ix1 i) idx 0 + (scatter_S395_S4096x1_S4096_n_0_0_1.window (ix1 i) 0 : Int) < ((395 : Nat) : Int)
      rw [hst, hw]
      constructor <;> omega
  unfold ScatterDims.resultIdx?
  rw [dif_pos hall]
  congr 1
  funext a
  refine Fin.ext ?_
  match a with
  | ⟨0, _⟩ =>
    show (scatter_S395_S4096x1_S4096_n_0_0_1.start (ix1 i) idx 0 + (scatter_S395_S4096x1_S4096_n_0_0_1.window (ix1 i) 0 : Int)).toNat = (idx (ix2 i 0)).toNat
    rw [hst, hw]
    omega

/-- Where the scatter of rows lands update `(i, d)`: in row its label, column `d`, when the label is in range. -/
theorem scatter2_result (idx : IVec S4096x1 32) (i : Fin 4096) (d : Fin 512) (h : (idx (ix2 i 0)).toNat < 395) :
    scatter_S395x512_S4096x1_S4096x512_1_0_0_1.resultIdx? (ix2 i d) idx = some (ix2 ⟨(idx (ix2 i 0)).toNat, h⟩ d) := by
  have hsi : scatter_S395x512_S4096x1_S4096x512_1_0_0_1.siIdx (ix2 i d)
      ⟨List.idxOf (0 : Fin 2) scatter_S395x512_S4096x1_S4096x512_1_0_0_1.scatterDimsToOperandDims,
        List.idxOf_lt_length_iff.2 (List.mem_singleton.mpr rfl)⟩ = ix2 i 0 := by
    funext b; refine Fin.ext ?_
    match b with
    | ⟨0, _⟩ => rfl
    | ⟨1, _⟩ => rfl
  have hst0 : scatter_S395x512_S4096x1_S4096x512_1_0_0_1.start (ix2 i d) idx 0 = ((idx (ix2 i 0)).toNat : Int) := by
    unfold ScatterDims.start
    rw [dif_pos (show (0 : Fin 2) ∈ scatter_S395x512_S4096x1_S4096x512_1_0_0_1.scatterDimsToOperandDims from List.mem_singleton.mpr rfl), hsi]
    exact StableHlo.Predicate.toInt_eq_toNat_of_lt (by omega)
  have hst1 : scatter_S395x512_S4096x1_S4096x512_1_0_0_1.start (ix2 i d) idx 1 = 0 := by
    unfold ScatterDims.start
    rw [dif_neg (by decide)]
  have hw0 : scatter_S395x512_S4096x1_S4096x512_1_0_0_1.window (ix2 i d) 0 = 0 := by
    unfold ScatterDims.window
    rw [dif_neg (by decide)]
  have hw1 : scatter_S395x512_S4096x1_S4096x512_1_0_0_1.window (ix2 i d) 1 = d.val := by
    unfold ScatterDims.window
    rw [dif_pos (by decide)]
    rfl
  have hall : ∀ a, 0 ≤ scatter_S395x512_S4096x1_S4096x512_1_0_0_1.start (ix2 i d) idx a + scatter_S395x512_S4096x1_S4096x512_1_0_0_1.window (ix2 i d) a
      ∧ scatter_S395x512_S4096x1_S4096x512_1_0_0_1.start (ix2 i d) idx a + scatter_S395x512_S4096x1_S4096x512_1_0_0_1.window (ix2 i d) a < S395x512.size a := by
    intro a
    match a with
    | ⟨0, _⟩ =>
      show 0 ≤ scatter_S395x512_S4096x1_S4096x512_1_0_0_1.start (ix2 i d) idx 0 + (scatter_S395x512_S4096x1_S4096x512_1_0_0_1.window (ix2 i d) 0 : Int)
        ∧ scatter_S395x512_S4096x1_S4096x512_1_0_0_1.start (ix2 i d) idx 0 + (scatter_S395x512_S4096x1_S4096x512_1_0_0_1.window (ix2 i d) 0 : Int) < ((395 : Nat) : Int)
      rw [hst0, hw0]
      constructor <;> omega
    | ⟨1, _⟩ =>
      show 0 ≤ scatter_S395x512_S4096x1_S4096x512_1_0_0_1.start (ix2 i d) idx 1 + (scatter_S395x512_S4096x1_S4096x512_1_0_0_1.window (ix2 i d) 1 : Int)
        ∧ scatter_S395x512_S4096x1_S4096x512_1_0_0_1.start (ix2 i d) idx 1 + (scatter_S395x512_S4096x1_S4096x512_1_0_0_1.window (ix2 i d) 1 : Int) < ((512 : Nat) : Int)
      rw [hst1, hw1]
      have := d.isLt
      constructor <;> omega
  unfold ScatterDims.resultIdx?
  rw [dif_pos hall]
  congr 1
  funext a
  refine Fin.ext ?_
  match a with
  | ⟨0, _⟩ =>
    show (scatter_S395x512_S4096x1_S4096x512_1_0_0_1.start (ix2 i d) idx 0 + (scatter_S395x512_S4096x1_S4096x512_1_0_0_1.window (ix2 i d) 0 : Int)).toNat = (idx (ix2 i 0)).toNat
    rw [hst0, hw0]
    omega
  | ⟨1, _⟩ =>
    show (scatter_S395x512_S4096x1_S4096x512_1_0_0_1.start (ix2 i d) idx 1 + (scatter_S395x512_S4096x1_S4096x512_1_0_0_1.window (ix2 i d) 1 : Int)).toNat = d.val
    rw [hst1, hw1]
    omega

/-- The accumulating scatter of scalars at class `c`: the operand there plus the updates of the samples labelled `c`. -/
theorem scatterAdd1_apply (x : S395.Idx → EReal) (idx : IVec S4096x1 32) (upd : S4096.Idx → EReal)
    (h : ∀ i : Fin 4096, (idx (ix2 i 0)).toNat < 395) (c : Fin 395) :
    Ideal.hostScatterAdd scatter_S395_S4096x1_S4096_n_0_0_1 x idx upd (ix1 c)
      = x (ix1 c) + ∑ i : Fin 4096, if (idx (ix2 i 0)).toNat = c.val then upd (ix1 i) else 0 := by
  unfold Ideal.hostScatterAdd
  refine congrArg (_ + ·) ?_
  rw [Finset.sum_filter, sum_idx1]
  refine Finset.sum_congr rfl fun i _ => ?_
  rw [scatter1_result idx i (h i)]
  refine if_congr ?_ rfl rfl
  constructor
  · intro e
    exact congrArg Fin.val (congrFun (Option.some.inj e) 0)
  · intro e
    have : (⟨(idx (ix2 i 0)).toNat, h i⟩ : Fin 395) = c := Fin.ext e
    rw [this]

/-- The accumulating scatter of rows at class `c`, column `d`: the operand there plus column `d` of the rows labelled `c`. -/
theorem scatterAdd2_apply (x : S395x512.Idx → EReal) (idx : IVec S4096x1 32) (upd : S4096x512.Idx → EReal)
    (h : ∀ i : Fin 4096, (idx (ix2 i 0)).toNat < 395) (c : Fin 395) (d : Fin 512) :
    Ideal.hostScatterAdd scatter_S395x512_S4096x1_S4096x512_1_0_0_1 x idx upd (ix2 c d)
      = x (ix2 c d) + ∑ i : Fin 4096, if (idx (ix2 i 0)).toNat = c.val then upd (ix2 i d) else 0 := by
  unfold Ideal.hostScatterAdd
  refine congrArg (_ + ·) ?_
  rw [Finset.sum_filter, sum_idx2]
  refine Finset.sum_congr rfl fun i _ => ?_
  have key : ∀ d' : Fin 512,
      (if scatter_S395x512_S4096x1_S4096x512_1_0_0_1.resultIdx? (ix2 i d') idx = some (ix2 c d) then upd (ix2 i d') else 0)
        = if d' = d then (if (idx (ix2 i 0)).toNat = c.val then upd (ix2 i d') else 0) else 0 := by
    intro d'
    rw [scatter2_result idx i d' (h i)]
    by_cases hd : d' = d
    · subst hd
      rw [if_pos rfl]
      refine if_congr ?_ rfl rfl
      constructor
      · intro e
        exact congrArg Fin.val (congrFun (Option.some.inj e) 0)
      · intro e
        have : (⟨(idx (ix2 i 0)).toNat, h i⟩ : Fin 395) = c := Fin.ext e
        rw [this]
    · rw [if_neg hd, if_neg]
      intro e
      exact hd (congrFun (Option.some.inj e) 1)
  rw [Finset.sum_congr rfl (fun d' _ => key d'), Finset.sum_ite_eq']
  simp only [Finset.mem_univ, if_true]

/-- The gather of whole rows at `(i, d)`, its start index known to be the row `r`. -/
theorem gather_row_of {α : Type} (x : S395x512.Idx → α) (idx : IVec S4096x1 32) (i : Fin 4096) (d : Fin 512) (r : Fin 395)
    (hr : (idx (ix2 i 0)).toNat = r.val) :
    Host.gather gather_S395x512_S4096x1_S4096x512_1_0_n_n_0_1_1512 x idx (ix2 i d) = x (ix2 r d) := by
  rw [gather_row]
  have h31 : (idx (ix2 i 0)).toNat < 2 ^ 31 := by have := r.isLt; omega
  have e : (⟨min (idx (ix2 i 0)).toInt.toNat 394, by omega⟩ : Fin 395) = r := by
    refine Fin.ext ?_
    show min (idx (ix2 i 0)).toInt.toNat 394 = r.val
    rw [StableHlo.Predicate.toInt_eq_toNat_of_lt h31, Int.toNat_natCast, hr]
    have := r.isLt
    omega
  rw [e]

/-- A label in range is not negative as a signed word, so the normalisation of a negative index (adding the class count) keeps it. -/
theorem norm_keep (w : BitVec 32) (h : w.toNat < 395) :
    Scalar.select (IntOp.cmpi .slt w 0#32) (IntOp.addi w 395#32) w = w := by
  have h0 : IntOp.cmpi .slt w 0#32 = 0#1 := by
    apply eq_zero_of_ne_one
    intro e
    have := (StableHlo.Predicate.slt_iff_toNat (a := w) (b := 0#32) (by omega) (by decide)).mp e
    simp at this
  rw [h0, select_zero]

/-- The 0/1 conversion of a word equality. -/
theorem uitofp_eq (a b : BitVec 32) :
    FloatOps.uitofp (F := Ideal) .f32 (IntOp.cmpi .eq a b) = if a = b then (1 : EReal) else 0 := by
  show (((IntOp.cmpi .eq a b).toNat : ℝ) : EReal) = _
  by_cases h : a = b
  · rw [if_pos h, StableHlo.Predicate.cmpi_eq_iff.mpr h]
    norm_num
  · rw [if_neg h, eq_zero_of_ne_one (fun e => h (StableHlo.Predicate.cmpi_eq_iff.mp e))]
    norm_num

/-! ## The reference's operations, stage by stage -/

section Stages

/-! ### The index operands: the label column, normalised or not -/

/-- The normalised label column reads the label. -/
theorem v5_at (hT : ∀ i : Fin 4096, (x3 (ix1 i)).toNat < 395) (i : Fin 4096) : val_main_v5 (F := Ideal) x3 (ix2 i 0) = x3 (ix1 i) := by
  have e : idx_main_v5 (ix2 i (0 : Fin 1)) = ix1 i := funext fun a => Fin.ext (by match a with | ⟨0, _⟩ => rfl)
  rw [val_main_v5_apply, e, val_main_v4_apply, val_main_v1_apply, val_main_v3_apply, val_main_v0_apply, val_main_v2_apply,
    val_main_c_apply, val_main_c_0_apply]
  exact norm_keep _ (hT i)

/-! ### The centres fetched at the labels -/

/-- The centre fetched at sample `j`'s label. -/
theorem v6_at (hT : ∀ i : Fin 4096, (x3 (ix1 i)).toNat < 395) (j : Fin 4096) (d : Fin 512) :
    val_main_v6 (F := Ideal) x2 x3 (ix2 j d) = Cof x2 (cls (Tof x3) hT j) d := by
  unfold val_main_v6
  exact gather_row_of _ _ j d (cls (Tof x3) hT j) (by rw [v5_at x3 hT j]; rfl)

/-! ### Modality 0: counts, sums, means -/

/-- The label column the row scatter is indexed by reads the label. -/
theorem v8_at (i : Fin 4096) : val_main_v8 (F := Ideal) x3 (ix2 i 0) = x3 (ix1 i) := by
  have e : idx_main_v8 (ix2 i (0 : Fin 1)) = ix1 i := funext fun a => Fin.ext (by match a with | ⟨0, _⟩ => rfl)
  rw [val_main_v8_apply, e]

/-- The label column the scalar scatter is indexed by reads the label. -/
theorem v12_at (i : Fin 4096) : val_main_v12 (F := Ideal) x3 (ix2 i 0) = x3 (ix1 i) := by
  have e : idx_main_v12 (ix2 i (0 : Fin 1)) = ix1 i := funext fun a => Fin.ext (by match a with | ⟨0, _⟩ => rfl)
  rw [val_main_v12_apply, e]

/-- The count of class `c`: the zero splat plus a one for every sample labelled `c`. -/
theorem v13_at (hT : ∀ i : Fin 4096, (x3 (ix1 i)).toNat < 395) (c : Fin 395) : val_main_v13 (F := Ideal) x3 (ix1 c) = cntR (Tof x3) c := by
  unfold val_main_v13 Host.scatterAdd
  rw [Ideal.hostScatterAdd_def, scatterAdd1_apply _ _ _ (fun i => by rw [v12_at]; exact hT i) c]
  unfold cntR
  rw [val_main_v11_apply, val_main_cst_2_apply, Ideal.ofBits_def, Ideal.ofBits_zero_f32]
  refine congrArg (_ + ·) (Finset.sum_congr rfl fun i _ => ?_)
  rw [v12_at, val_main_v10_apply, val_main_cst_1_apply, Ideal.ofBits_def, Ideal.ofBits_one_f32]

/-- Column `d` of the sum of the feature rows labelled `c`. -/
theorem v9_at (hT : ∀ i : Fin 4096, (x3 (ix1 i)).toNat < 395) (c : Fin 395) (d : Fin 512) :
    val_main_v9 (F := Ideal) x0 x3 (ix2 c d) = sumR (Tof x3) (Xof x0 x1) 0 c d := by
  unfold val_main_v9 Host.scatterAdd
  rw [Ideal.hostScatterAdd_def, scatterAdd2_apply _ _ _ (fun i => by rw [v8_at]; exact hT i) c d]
  unfold sumR
  rw [val_main_v7_apply, val_main_cst_apply, Ideal.ofBits_def, Ideal.ofBits_zero_f32]
  refine congrArg (_ + ·) (Finset.sum_congr rfl fun i _ => ?_)
  rw [v8_at]
  rfl

/-- The class mean: the sum over the count clamped below by one. -/
theorem v18_at (hT : ∀ i : Fin 4096, (x3 (ix1 i)).toNat < 395) (c : Fin 395) (d : Fin 512) :
    val_main_v18 (F := Ideal) x0 x3 (ix2 c d) = meanR (Tof x3) (Xof x0 x1) 0 c d := by
  have e17 : idx_main_v17 (ix2 c d) = ix2 c (0 : Fin 1) := funext fun a => Fin.ext (by match a with | ⟨0, _⟩ => rfl | ⟨1, _⟩ => rfl)
  have e16 : idx_main_v16 (ix2 c (0 : Fin 1)) = ix1 c := funext fun a => Fin.ext (by match a with | ⟨0, _⟩ => rfl)
  rw [val_main_v18_apply, val_main_v17_apply, e17, val_main_v16_apply, e16, val_main_v15_apply, v9_at x0 x1 x3 hT,
    v13_at x3 hT, val_main_v14_apply, val_main_cst_3_apply]
  simp only [Ideal.hostDivf_def, Ideal.maximumf_def, Ideal.ofBits_def, Ideal.ofBits_one_f32]
  rfl

/-! ### Modality 1: counts, sums, means -/

/-- The label column the row scatter is indexed by reads the label. -/
theorem v27_at (i : Fin 4096) : val_main_v27 (F := Ideal) x3 (ix2 i 0) = x3 (ix1 i) := by
  have e : idx_main_v27 (ix2 i (0 : Fin 1)) = ix1 i := funext fun a => Fin.ext (by match a with | ⟨0, _⟩ => rfl)
  rw [val_main_v27_apply, e]

/-- The label column the scalar scatter is indexed by reads the label. -/
theorem v31_at (i : Fin 4096) : val_main_v31 (F := Ideal) x3 (ix2 i 0) = x3 (ix1 i) := by
  have e : idx_main_v31 (ix2 i (0 : Fin 1)) = ix1 i := funext fun a => Fin.ext (by match a with | ⟨0, _⟩ => rfl)
  rw [val_main_v31_apply, e]

/-- The count of class `c`: the zero splat plus a one for every sample labelled `c`. -/
theorem v32_at (hT : ∀ i : Fin 4096, (x3 (ix1 i)).toNat < 395) (c : Fin 395) : val_main_v32 (F := Ideal) x3 (ix1 c) = cntR (Tof x3) c := by
  unfold val_main_v32 Host.scatterAdd
  rw [Ideal.hostScatterAdd_def, scatterAdd1_apply _ _ _ (fun i => by rw [v31_at]; exact hT i) c]
  unfold cntR
  rw [val_main_v30_apply, val_main_cst_8_apply, Ideal.ofBits_def, Ideal.ofBits_zero_f32]
  refine congrArg (_ + ·) (Finset.sum_congr rfl fun i _ => ?_)
  rw [v31_at, val_main_v29_apply, val_main_cst_7_apply, Ideal.ofBits_def, Ideal.ofBits_one_f32]

/-- Column `d` of the sum of the feature rows labelled `c`. -/
theorem v28_at (hT : ∀ i : Fin 4096, (x3 (ix1 i)).toNat < 395) (c : Fin 395) (d : Fin 512) :
    val_main_v28 (F := Ideal) x1 x3 (ix2 c d) = sumR (Tof x3) (Xof x0 x1) 1 c d := by
  unfold val_main_v28 Host.scatterAdd
  rw [Ideal.hostScatterAdd_def, scatterAdd2_apply _ _ _ (fun i => by rw [v27_at]; exact hT i) c d]
  unfold sumR
  rw [val_main_v26_apply, val_main_cst_6_apply, Ideal.ofBits_def, Ideal.ofBits_zero_f32]
  refine congrArg (_ + ·) (Finset.sum_congr rfl fun i _ => ?_)
  rw [v27_at]
  rfl

/-- The class mean: the sum over the count clamped below by one. -/
theorem v37_at (hT : ∀ i : Fin 4096, (x3 (ix1 i)).toNat < 395) (c : Fin 395) (d : Fin 512) :
    val_main_v37 (F := Ideal) x1 x3 (ix2 c d) = meanR (Tof x3) (Xof x0 x1) 1 c d := by
  have e17 : idx_main_v36 (ix2 c d) = ix2 c (0 : Fin 1) := funext fun a => Fin.ext (by match a with | ⟨0, _⟩ => rfl | ⟨1, _⟩ => rfl)
  have e16 : idx_main_v35 (ix2 c (0 : Fin 1)) = ix1 c := funext fun a => Fin.ext (by match a with | ⟨0, _⟩ => rfl)
  rw [val_main_v37_apply, val_main_v36_apply, e17, val_main_v35_apply, e16, val_main_v34_apply, v28_at x0 x1 x3 hT,
    v32_at x3 hT, val_main_v33_apply, val_main_cst_9_apply]
  simp only [Ideal.hostDivf_def, Ideal.maximumf_def, Ideal.ofBits_def, Ideal.ofBits_one_f32]
  rfl

end Stages

/-- The clamped squared distance of the ordered pair `(i, j)` in modality `w`, as the specification's term has it. -/
def dR (T : Fin 4096 → BitVec 32) (X : Fin 2 → Fin 4096 → Fin 512 → EReal) (Cp : Fin 395 → Fin 512 → EReal)
    (hT : ∀ i, (T i).toNat < 395) (w : Fin 2) (i j : Fin 4096) : EReal :=
  sqc (0 + ∑ d : Fin 512, meanR T X w (cls T hT i) d * meanR T X w (cls T hT i) d)
      (0 + ∑ d : Fin 512, Cp (cls T hT j) d * Cp (cls T hT j) d)
      (∑ d : Fin 512, meanR T X w (cls T hT i) d * Cp (cls T hT j) d)

section Stages2

/-! ### The 0/1 label of a pair -/

/-- The converted comparison of the two broadcast label arrays is the 0/1 label of the pair. -/
theorem v50_at (i j : Fin 4096) :
    val_main_v50 (F := Ideal) x3 (ix2 i j) = if x3 (ix1 i) = x3 (ix1 j) then (1 : EReal) else 0 := by
  have e47 : idx_main_v47 (ix2 i j) = ix2 i (0 : Fin 1) := funext fun a => Fin.ext (by match a with | ⟨0, _⟩ => rfl | ⟨1, _⟩ => rfl)
  have e45 : idx_main_v45 (ix2 i (0 : Fin 1)) = ix1 i := funext fun a => Fin.ext (by match a with | ⟨0, _⟩ => rfl)
  have e48 : idx_main_v48 (ix2 i j) = ix2 (0 : Fin 1) j := funext fun a => Fin.ext (by match a with | ⟨0, _⟩ => rfl | ⟨1, _⟩ => rfl)
  have e46 : idx_main_v46 (ix2 (0 : Fin 1) j) = ix1 j := funext fun a => Fin.ext (by match a with | ⟨0, _⟩ => rfl)
  rw [val_main_v50_apply, val_main_v49_apply, val_main_v47_apply, e47, val_main_v45_apply, e45, val_main_v48_apply, e48,
    val_main_v46_apply, e46]
  exact uitofp_eq _ _

/-! ### Modality 0: the class means fetched at the labels, and the pair's clamped squared distance -/

/-- The normalised label column reads the label. -/
theorem v24_at (hT : ∀ i : Fin 4096, (x3 (ix1 i)).toNat < 395) (i : Fin 4096) : val_main_v24 (F := Ideal) x3 (ix2 i 0) = x3 (ix1 i) := by
  have e : idx_main_v24 (ix2 i (0 : Fin 1)) = ix1 i := funext fun a => Fin.ext (by match a with | ⟨0, _⟩ => rfl)
  rw [val_main_v24_apply, e, val_main_v23_apply, val_main_v20_apply, val_main_v22_apply, val_main_v19_apply,
    val_main_v21_apply, val_main_c_4_apply, val_main_c_5_apply]
  exact norm_keep _ (hT i)

/-- The class mean fetched at sample `i`'s label. -/
theorem v25_at (hT : ∀ i : Fin 4096, (x3 (ix1 i)).toNat < 395) (i : Fin 4096) (d : Fin 512) :
    val_main_v25 (F := Ideal) x0 x3 (ix2 i d) = meanR (Tof x3) (Xof x0 x1) 0 (cls (Tof x3) hT i) d := by
  unfold val_main_v25
  rw [gather_row_of _ _ i d (cls (Tof x3) hT i) (by rw [v24_at x3 hT i]; rfl)]
  exact v18_at x0 x1 x3 hT _ d

/-- The squared norm of the fetched mean row. -/
theorem v52_at (hT : ∀ i : Fin 4096, (x3 (ix1 i)).toNat < 395) (i : Fin 4096) :
    val_main_v52 (F := Ideal) x0 x3 (ix1 i)
      = 0 + ∑ d : Fin 512, meanR (Tof x3) (Xof x0 x1) 0 (cls (Tof x3) hT i) d * meanR (Tof x3) (Xof x0 x1) 0 (cls (Tof x3) hT i) d := by
  rw [val_main_v52_apply, val_main_cst_12_apply, Ideal.ofBits_def, Ideal.ofBits_zero_f32]
  refine congrArg (_ + ·) (Finset.sum_congr rfl fun k _ => ?_)
  have e : idx_main_v52 (ix1 i) k = ix2 i k := funext fun a => Fin.ext (by match a with | ⟨0, _⟩ => rfl | ⟨1, _⟩ => rfl)
  rw [e, val_main_v51_apply, v25_at x0 x1 x3 hT, Ideal.mulf_def]

/-- The squared norm of the fetched centre row. -/
theorem v55_at (hT : ∀ i : Fin 4096, (x3 (ix1 i)).toNat < 395) (j : Fin 4096) :
    val_main_v55 (F := Ideal) x2 x3 (ix1 j)
      = 0 + ∑ d : Fin 512, Cof x2 (cls (Tof x3) hT j) d * Cof x2 (cls (Tof x3) hT j) d := by
  rw [val_main_v55_apply, val_main_cst_13_apply, Ideal.ofBits_def, Ideal.ofBits_zero_f32]
  refine congrArg (_ + ·) (Finset.sum_congr rfl fun k _ => ?_)
  have e : idx_main_v55 (ix1 j) k = ix2 j k := funext fun a => Fin.ext (by match a with | ⟨0, _⟩ => rfl | ⟨1, _⟩ => rfl)
  rw [e, val_main_v54_apply, v6_at x2 x3 hT, Ideal.mulf_def]

/-- The inner product of sample `i`'s mean row and sample `j`'s centre row: the contraction against the transposed centres. -/
theorem v61_at (hT : ∀ i : Fin 4096, (x3 (ix1 i)).toNat < 395) (i j : Fin 4096) :
    val_main_v61 (F := Ideal) x0 x2 x3 (ix2 i j)
      = ∑ d : Fin 512, meanR (Tof x3) (Xof x0 x1) 0 (cls (Tof x3) hT i) d * Cof x2 (cls (Tof x3) hT j) d := by
  rw [val_main_v61_apply]
  refine Finset.sum_congr rfl fun k _ => ?_
  have el : lidx_main_v61 (ix2 i j) k = ix2 i k := funext fun a => Fin.ext (by match a with | ⟨0, _⟩ => rfl | ⟨1, _⟩ => rfl)
  have er : ridx_main_v61 (ix2 i j) k = ix2 k j := funext fun a => Fin.ext (by match a with | ⟨0, _⟩ => rfl | ⟨1, _⟩ => rfl)
  have e60 : idx_main_v60 (ix2 k j) = ix2 j k := funext fun a => Fin.ext (by match a with | ⟨0, _⟩ => rfl | ⟨1, _⟩ => rfl)
  rw [el, er, val_main_v60_apply, e60, v25_at x0 x1 x3 hT, v6_at x2 x3 hT]

/-- The clamped squared distance from the two squared norms and the inner product. -/
theorem v65_at (hT : ∀ i : Fin 4096, (x3 (ix1 i)).toNat < 395) (i j : Fin 4096) :
    val_main_v65 (F := Ideal) x0 x2 x3 (ix2 i j) = dR (Tof x3) (Xof x0 x1) (Cof x2) hT 0 i j := by
  have e57 : idx_main_v57 (ix2 i j) = ix2 i (0 : Fin 1) := funext fun a => Fin.ext (by match a with | ⟨0, _⟩ => rfl | ⟨1, _⟩ => rfl)
  have e53 : idx_main_v53 (ix2 i (0 : Fin 1)) = ix1 i := funext fun a => Fin.ext (by match a with | ⟨0, _⟩ => rfl)
  have e58 : idx_main_v58 (ix2 i j) = ix2 (0 : Fin 1) j := funext fun a => Fin.ext (by match a with | ⟨0, _⟩ => rfl | ⟨1, _⟩ => rfl)
  have e56 : idx_main_v56 (ix2 (0 : Fin 1) j) = ix1 j := funext fun a => Fin.ext (by match a with | ⟨0, _⟩ => rfl)
  rw [val_main_v65_apply, val_main_call0_v1_apply, val_main_call0_v0_apply, val_main_cst_15_apply, val_main_v64_apply,
    val_main_v59_apply, val_main_v57_apply, e57, val_main_v53_apply, e53, v52_at x0 x1 x3 hT, val_main_v58_apply, e58,
    val_main_v56_apply, e56, v55_at x2 x3 hT, val_main_v63_apply, val_main_v62_apply, val_main_cst_14_apply,
    v61_at x0 x1 x2 x3 hT]
  simp only [Ideal.maximumf_def, Ideal.subf_def, Ideal.addf_def, Ideal.mulf_def, Ideal.ofBits_def]
  rfl

/-! ### Modality 0: the pair's term and the loss -/

/-- The pair's term: the blend, by the 0/1 label, of the squared distance and the squared hinge. -/
theorem v77_at (hT : ∀ i : Fin 4096, (x3 (ix1 i)).toNat < 395) (i j : Fin 4096) :
    val_main_v77 (F := Ideal) x0 x2 x3 (ix2 i j) = fR (Tof x3) (Xof x0 x1) (Cof x2) hT 0 i j := by
  rw [val_main_v77_apply, val_main_v72_apply, val_main_v71_apply, val_main_v76_apply, val_main_v75_apply,
    val_main_v74_apply, val_main_v73_apply, val_main_cst_18_apply, val_main_v70_apply, val_main_v68_apply,
    val_main_v67_apply, val_main_cst_16_apply, val_main_v69_apply, val_main_cst_17_apply, val_main_v66_apply,
    v65_at x0 x1 x2 x3 hT, v50_at x3]
  simp only [Ideal.addf_def, Ideal.mulf_def, Ideal.subf_def, Ideal.maximumf_def, Ideal.hostUnary_sqrt_def, Ideal.ofBits_def,
    Ideal.ofBits_one_f32, Ideal.ofBits_zero_f32]
  rfl

/-- The sum over all index pairs is the double sum over the samples. -/
theorem v78_at (hT : ∀ i : Fin 4096, (x3 (ix1 i)).toNat < 395) :
    val_main_v78 (F := Ideal) x0 x2 x3 ix0 = lossR (Tof x3) (Xof x0 x1) (Cof x2) hT 0 := by
  rw [val_main_v78_apply, val_main_cst_19_apply, Ideal.ofBits_def, Ideal.ofBits_zero_f32, sum_idx2]
  unfold lossR
  refine congrArg (_ + ·) (Finset.sum_congr rfl fun i _ => Finset.sum_congr rfl fun j _ => ?_)
  exact v77_at x0 x1 x2 x3 hT i j

/-! ### Modality 1: the class means fetched at the labels, and the pair's clamped squared distance -/

/-- The normalised label column reads the label. -/
theorem v43_at (hT : ∀ i : Fin 4096, (x3 (ix1 i)).toNat < 395) (i : Fin 4096) : val_main_v43 (F := Ideal) x3 (ix2 i 0) = x3 (ix1 i) := by
  have e : idx_main_v43 (ix2 i (0 : Fin 1)) = ix1 i := funext fun a => Fin.ext (by match a with | ⟨0, _⟩ => rfl)
  rw [val_main_v43_apply, e, val_main_v42_apply, val_main_v39_apply, val_main_v41_apply, val_main_v38_apply,
    val_main_v40_apply, val_main_c_10_apply, val_main_c_11_apply]
  exact norm_keep _ (hT i)

/-- The class mean fetched at sample `i`'s label. -/
theorem v44_at (hT : ∀ i : Fin 4096, (x3 (ix1 i)).toNat < 395) (i : Fin 4096) (d : Fin 512) :
    val_main_v44 (F := Ideal) x1 x3 (ix2 i d) = meanR (Tof x3) (Xof x0 x1) 1 (cls (Tof x3) hT i) d := by
  unfold val_main_v44
  rw [gather_row_of _ _ i d (cls (Tof x3) hT i) (by rw [v43_at x3 hT i]; rfl)]
  exact v37_at x0 x1 x3 hT _ d

/-- The squared norm of the fetched mean row. -/
theorem v81_at (hT : ∀ i : Fin 4096, (x3 (ix1 i)).toNat < 395) (i : Fin 4096) :
    val_main_v81 (F := Ideal) x1 x3 (ix1 i)
      = 0 + ∑ d : Fin 512, meanR (Tof x3) (Xof x0 x1) 1 (cls (Tof x3) hT i) d * meanR (Tof x3) (Xof x0 x1) 1 (cls (Tof x3) hT i) d := by
  rw [val_main_v81_apply, val_main_cst_21_apply, Ideal.ofBits_def, Ideal.ofBits_zero_f32]
  refine congrArg (_ + ·) (Finset.sum_congr rfl fun k _ => ?_)
  have e : idx_main_v81 (ix1 i) k = ix2 i k := funext fun a => Fin.ext (by match a with | ⟨0, _⟩ => rfl | ⟨1, _⟩ => rfl)
  rw [e, val_main_v80_apply, v44_at x0 x1 x3 hT, Ideal.mulf_def]

/-- The squared norm of the fetched centre row. -/
theorem v84_at (hT : ∀ i : Fin 4096, (x3 (ix1 i)).toNat < 395) (j : Fin 4096) :
    val_main_v84 (F := Ideal) x2 x3 (ix1 j)
      = 0 + ∑ d : Fin 512, Cof x2 (cls (Tof x3) hT j) d * Cof x2 (cls (Tof x3) hT j) d := by
  rw [val_main_v84_apply, val_main_cst_22_apply, Ideal.ofBits_def, Ideal.ofBits_zero_f32]
  refine congrArg (_ + ·) (Finset.sum_congr rfl fun k _ => ?_)
  have e : idx_main_v84 (ix1 j) k = ix2 j k := funext fun a => Fin.ext (by match a with | ⟨0, _⟩ => rfl | ⟨1, _⟩ => rfl)
  rw [e, val_main_v83_apply, v6_at x2 x3 hT, Ideal.mulf_def]

/-- The inner product of sample `i`'s mean row and sample `j`'s centre row: the contraction against the transposed centres. -/
theorem v90_at (hT : ∀ i : Fin 4096, (x3 (ix1 i)).toNat < 395) (i j : Fin 4096) :
    val_main_v90 (F := Ideal) x1 x2 x3 (ix2 i j)
      = ∑ d : Fin 512, meanR (Tof x3) (Xof x0 x1) 1 (cls (Tof x3) hT i) d * Cof x2 (cls (Tof x3) hT j) d := by
  rw [val_main_v90_apply]
  refine Finset.sum_congr rfl fun k _ => ?_
  have el : lidx_main_v90 (ix2 i j) k = ix2 i k := funext fun a => Fin.ext (by match a with | ⟨0, _⟩ => rfl | ⟨1, _⟩ => rfl)
  have er : ridx_main_v90 (ix2 i j) k = ix2 k j := funext fun a => Fin.ext (by match a with | ⟨0, _⟩ => rfl | ⟨1, _⟩ => rfl)
  have e60 : idx_main_v89 (ix2 k j) = ix2 j k := funext fun a => Fin.ext (by match a with | ⟨0, _⟩ => rfl | ⟨1, _⟩ => rfl)
  rw [el, er, val_main_v89_apply, e60, v44_at x0 x1 x3 hT, v6_at x2 x3 hT]

/-- The clamped squared distance from the two squared norms and the inner product. -/
theorem v94_at (hT : ∀ i : Fin 4096, (x3 (ix1 i)).toNat < 395) (i j : Fin 4096) :
    val_main_v94 (F := Ideal) x1 x2 x3 (ix2 i j) = dR (Tof x3) (Xof x0 x1) (Cof x2) hT 1 i j := by
  have e57 : idx_main_v86 (ix2 i j) = ix2 i (0 : Fin 1) := funext fun a => Fin.ext (by match a with | ⟨0, _⟩ => rfl | ⟨1, _⟩ => rfl)
  have e53 : idx_main_v82 (ix2 i (0 : Fin 1)) = ix1 i := funext fun a => Fin.ext (by match a with | ⟨0, _⟩ => rfl)
  have e58 : idx_main_v87 (ix2 i j) = ix2 (0 : Fin 1) j := funext fun a => Fin.ext (by match a with | ⟨0, _⟩ => rfl | ⟨1, _⟩ => rfl)
  have e56 : idx_main_v85 (ix2 (0 : Fin 1) j) = ix1 j := funext fun a => Fin.ext (by match a with | ⟨0, _⟩ => rfl)
  rw [val_main_v94_apply, val_main_call1_v1_apply, val_main_call1_v0_apply, val_main_cst_24_apply, val_main_v93_apply,
    val_main_v88_apply, val_main_v86_apply, e57, val_main_v82_apply, e53, v81_at x0 x1 x3 hT, val_main_v87_apply, e58,
    val_main_v85_apply, e56, v84_at x2 x3 hT, val_main_v92_apply, val_main_v91_apply, val_main_cst_23_apply,
    v90_at x0 x1 x2 x3 hT]
  simp only [Ideal.maximumf_def, Ideal.subf_def, Ideal.addf_def, Ideal.mulf_def, Ideal.ofBits_def]
  rfl

/-! ### Modality 1: the pair's term and the loss -/

/-- The pair's term: the blend, by the 0/1 label, of the squared distance and the squared hinge. -/
theorem v106_at (hT : ∀ i : Fin 4096, (x3 (ix1 i)).toNat < 395) (i j : Fin 4096) :
    val_main_v106 (F := Ideal) x1 x2 x3 (ix2 i j) = fR (Tof x3) (Xof x0 x1) (Cof x2) hT 1 i j := by
  rw [val_main_v106_apply, val_main_v101_apply, val_main_v100_apply, val_main_v105_apply, val_main_v104_apply,
    val_main_v103_apply, val_main_v102_apply, val_main_cst_27_apply, val_main_v99_apply, val_main_v97_apply,
    val_main_v96_apply, val_main_cst_25_apply, val_main_v98_apply, val_main_cst_26_apply, val_main_v95_apply,
    v94_at x0 x1 x2 x3 hT, v50_at x3]
  simp only [Ideal.addf_def, Ideal.mulf_def, Ideal.subf_def, Ideal.maximumf_def, Ideal.hostUnary_sqrt_def, Ideal.ofBits_def,
    Ideal.ofBits_one_f32, Ideal.ofBits_zero_f32]
  rfl

/-- The sum over all index pairs is the double sum over the samples. -/
theorem v107_at (hT : ∀ i : Fin 4096, (x3 (ix1 i)).toNat < 395) :
    val_main_v107 (F := Ideal) x1 x2 x3 ix0 = lossR (Tof x3) (Xof x0 x1) (Cof x2) hT 1 := by
  rw [val_main_v107_apply, val_main_cst_28_apply, Ideal.ofBits_def, Ideal.ofBits_zero_f32, sum_idx2]
  unfold lossR
  refine congrArg (_ + ·) (Finset.sum_congr rfl fun i _ => Finset.sum_congr rfl fun j _ => ?_)
  exact v106_at x0 x1 x2 x3 hT i j

end Stages2

/-! ## The result -/

/-- With every label below 395 the reference's result is the mean over sample pairs. -/
theorem ref_value (hT : ∀ i : Fin 4096, (x3 (ix1 i)).toNat < 395) :
    val_main_v109 (F := Ideal) x0 x1 x2 x3 ix0 = resR (Tof x3) (Xof x0 x1) (Cof x2) hT := by
  rw [val_main_v109_apply, val_main_v79_apply, val_main_v108_apply, v78_at x0 x1 x2 x3 hT, v107_at x0 x1 x2 x3 hT,
    val_main_cst_20_apply, val_main_cst_29_apply]
  simp only [Ideal.addf_def, Ideal.hostDivf_def, Ideal.ofBits_def]
  rfl

end Cert.ReferenceIdeal.RefValue

end
-- ==== Proof.lean ====
/-
  A contrastive loss between class means and class centres, computed two ways.

  The inputs are 4096 labelled samples with two feature matrices (one per modality, 512 features)
  and 395 class centres. For each modality the loss is the mean, over all 4096² ordered pairs of
  samples (i, j), of a term between the mean feature row of i's class and the centre of j's class:
  the squared distance (clamped below by a small constant) when the two labels agree, and the
  square of the hinge `max (margin - distance) 0` when they differ. The result is the sum of the
  two modalities' losses.

  The reference computes exactly that: class sums and counts by accumulating scatters, class means
  by division (an empty class counted as one), rows fetched per sample by gathers, a 4096 × 4096
  table of squared distances `‖a‖² + ‖b‖² - 2 a·b`, the blend `label · d · d + (1 - label) · hinge²`,
  and its mean.

  The kernel uses that the term depends on (i, j) only through the pair of classes. A first region
  accumulates, block of 512 samples by block, the indicator matrix (sample × label) transposed times
  the features — the per-label sums — and the indicator's column sums — the counts —, over labels
  0 … 511. The host divides, pads the centres with zero rows to 512, and takes both squared norms.
  A second region forms the 512 × 512 table of class-pair terms (the clamped squared distance on
  the diagonal, the squared hinge off it), weighs each entry by the product of the two classes'
  counts and adds them up; the host divides by 4096² and adds the two modalities.

  The two agree when every label is a class, 0 ≤ label < 395, which the precondition states (the
  reference indexes its 395 rows by the label; outside that range the two programs differ). Then
  each sample contributes to exactly one label's count, the padded labels 395 … 511 have count
  zero, and the sum over sample pairs regroups as the count-weighted sum over class pairs. All
  terms and counts are non-negative, where the extended reals distribute, so no finiteness of the
  features is used; √x · √x = x holds for every x at or above the positive clamp, the top included.

  Both runs are taken with their results named: the reference's from its generated run, the
  kernel's from the launch of its seven segments (one host stretch, a region, three host
  stretches, a region, a host stretch) with the result buffer read at the last boundary.
-/
import proofs.«412364_j36618891166027_3_alg».proof.Defs
import proofs.«412364_j36618891166027_3_alg».proof.Proof.Gen.Kernel
import proofs.«412364_j36618891166027_3_alg».proof.Proof.Gen.Kernel.Skeleton
import proofs.«412364_j36618891166027_3_alg».proof.Proof.Gen.Kernel.Launch
import proofs.«412364_j36618891166027_3_alg».proof.Proof.Gen.Kernel.Points
import proofs.«412364_j36618891166027_3_alg».proof.Proof.Gen.Kernel.Frame
import proofs.«412364_j36618891166027_3_alg».proof.Proof.Gen.KernelIdeal
import proofs.«412364_j36618891166027_3_alg».proof.Proof.Gen.KernelIdeal.Skeleton
import proofs.«412364_j36618891166027_3_alg».proof.Proof.Gen.KernelIdeal.Launch
import proofs.«412364_j36618891166027_3_alg».proof.Proof.Gen.KernelIdeal.Points
import proofs.«412364_j36618891166027_3_alg».proof.Proof.Gen.KernelIdeal.Frame
import proofs.«412364_j36618891166027_3_alg».proof.Proof.Gen.ReferenceIdeal
import proofs.«412364_j36618891166027_3_alg».proof.Proof.Gen.Pre_finite_inputs
import proofs.«412364_j36618891166027_3_alg».proof.Proof.Gen.ReferenceIdeal.Run
import proofs.«412364_j36618891166027_3_alg».proof.Proof.Gen.ReferenceIdeal.Read
import proofs.«412364_j36618891166027_3_alg».proof.Proof.Spec
import proofs.«412364_j36618891166027_3_alg».proof.Proof.Bridge
import proofs.«412364_j36618891166027_3_alg».proof.Proof.PreRange
import proofs.«412364_j36618891166027_3_alg».proof.Proof.KRun
import proofs.«412364_j36618891166027_3_alg».proof.Proof.KValue
import proofs.«412364_j36618891166027_3_alg».proof.Proof.RefValue
import Idealize.ShloMosaic.Adequacy
import Idealize.ShloMosaic.Init

noncomputable section

namespace Cert.Proof

open Idealize.ShloMosaic Idealize.SL.Sem Idealize.ShloMosaic.ValueIdx

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: widening a value just narrowed to bf16 is the identity on
    the extended reals (the indicator matrix, narrowed for the matrix unit and widened for the
    column sums). -/
theorem preserves : Cert.preserves_Kernel_KernelIdeal :=
  IdealRules.truncf_extf.statement Cert.KernelIdeal.S512x512 .f32 .bf16

/-- From memories agreeing on the arguments both idealized programs end with the same number: the
    kernel's result is the sum over class pairs, the reference's the sum over sample pairs, and
    with every label in range the two are equal. -/
theorem algebraic : Cert.algebraic_KernelIdeal_ReferenceIdeal := by
  intro m ρ m' ρ' hpre hagree
  refine ⟨fun c => Cert.KernelIdeal.Gen.W7 m ρ c (Proc.devRef .tc Cert.KernelIdeal.main_v22),
    Cert.KernelIdeal.Gen.run_result (F := Ideal) m ρ, ?_⟩
  refine (θ_run Cert.ReferenceIdeal.defs _ _).mono (fun _ h c => ⟨(h c).1.trans ?_, (h c).2⟩)
    (Cert.ReferenceIdeal.Value.run (F := Ideal) m' ρ')
  have hT := Cert.Pre_finite_inputs.Range.targets_in_range _ _ _ _ (hpre c)
  rw [Cert.ReferenceIdeal.Read.val_main_v109_eq, (hagree c).1, (hagree c).2.1, (hagree c).2.2.1, (hagree c).2.2.2]
  funext j
  rw [eq_ix0 j]
  exact (Cert.ReferenceIdeal.RefValue.ref_value _ _ _ _ hT).trans
    ((Cert.ClassPair.bridge _ _ _ hT).symm.trans (Cert.KernelIdeal.KValue.kernel_value m ρ c).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
